-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x224x224 : Shape := ⟨4, ![64, 3, 224, 224]⟩
abbrev S32x48 : Shape := ⟨2, ![32, 48]⟩
abbrev S32x1 : Shape := ⟨2, ![32, 1]⟩
abbrev S32x9 : Shape := ⟨2, ![32, 9]⟩
abbrev S16x32 : Shape := ⟨2, ![16, 32]⟩
abbrev S16x1 : Shape := ⟨2, ![16, 1]⟩
abbrev S_ : Shape := ⟨0, ![]⟩

class Facts : Prop where
  bcast_S_S64x3x224x224 : S_.BroadcastsInDim S64x3x224x224 (![] : Fin 0 → Fin S64x3x224x224.rank)
  reducesTo_S64x3x224x224_S_d0_1_2_3 : S64x3x224x224.ReducesTo [0, 1, 2, 3] S_
  h_S_ : 0 < S_.numel
  bcast_S_S32x48 : S_.BroadcastsInDim S32x48 (![] : Fin 0 → Fin S32x48.rank)
  reducesTo_S32x48_S_d0_1 : S32x48.ReducesTo [0, 1] S_
  bcast_S_S32x1 : S_.BroadcastsInDim S32x1 (![] : Fin 0 → Fin S32x1.rank)
  reducesTo_S32x1_S_d0_1 : S32x1.ReducesTo [0, 1] S_
  bcast_S_S32x9 : S_.BroadcastsInDim S32x9 (![] : Fin 0 → Fin S32x9.rank)
  reducesTo_S32x9_S_d0_1 : S32x9.ReducesTo [0, 1] S_
  bcast_S_S16x32 : S_.BroadcastsInDim S16x32 (![] : Fin 0 → Fin S16x32.rank)
  reducesTo_S16x32_S_d0_1 : S16x32.ReducesTo [0, 1] S_
  bcast_S_S16x1 : S_.BroadcastsInDim S16x1 (![] : Fin 0 → Fin S16x1.rank)
  reducesTo_S16x1_S_d0_1 : S16x1.ReducesTo [0, 1] S_

variable [Facts]

def fn_part1 {F : FTy → Type} [FloatOps F] (main_arg4 : FVec F S32x1 .f32) (main_arg5 : FVec F S16x32 .f32) (main_arg6 : FVec F S16x1 .f32) (main_v13 : IVec S_ 1) (main_v16 : IVec S32x9 1) : IVec S_ 1 :=
  let main_c_5 : IVec S_ 1 := constantI S_ 1 1#1
  let main_v17 : IVec S_ 1 := (fun x v => Host.reduce IntOp.andi x v reducesTo_S32x9_S_d0_1 h_S_) main_v16 main_c_5
  let main_v18 : IVec S_ 1 := andi main_v13 main_v17
  let main_v19 : FVec F S32x1 .f32 := Host.absf main_arg4
  let main_cst_6 : FVec F S_ .f32 := constant S_ .f32 0x7F800000#32
  let main_v20 : FVec F S32x1 .f32 := broadcastInDim S32x1 ![] bcast_S_S32x1 main_cst_6
  let main_v21 : IVec S32x1 1 := cmpf .olt main_v19 main_v20
  let main_c_7 : IVec S_ 1 := constantI S_ 1 1#1
  let main_v22 : IVec S_ 1 := (fun x v => Host.reduce IntOp.andi x v reducesTo_S32x1_S_d0_1 h_S_) main_v21 main_c_7
  let main_v23 : IVec S_ 1 := andi main_v18 main_v22
  let main_v24 : FVec F S16x32 .f32 := Host.absf main_arg5
  let main_cst_8 : FVec F S_ .f32 := constant S_ .f32 0x7F800000#32
  let main_v25 : FVec F S16x32 .f32 := broadcastInDim S16x32 ![] bcast_S_S16x32 main_cst_8
  let main_v26 : IVec S16x32 1 := cmpf .olt main_v24 main_v25
  let main_c_9 : IVec S_ 1 := constantI S_ 1 1#1
  let main_v27 : IVec S_ 1 := (fun x v => Host.reduce IntOp.andi x v reducesTo_S16x32_S_d0_1 h_S_) main_v26 main_c_9
  let main_v28 : IVec S_ 1 := andi main_v23 main_v27
  let main_v29 : FVec F S16x1 .f32 := Host.absf main_arg6
  let main_cst_10 : FVec F S_ .f32 := constant S_ .f32 0x7F800000#32
  let main_v30 : FVec F S16x1 .f32 := broadcastInDim S16x1 ![] bcast_S_S16x1 main_cst_10
  let main_v31 : IVec S16x1 1 := cmpf .olt main_v29 main_v30
  let main_c_11 : IVec S_ 1 := constantI S_ 1 1#1
  let main_v32 : IVec S_ 1 := (fun x v => Host.reduce IntOp.andi x v reducesTo_S16x1_S_d0_1 h_S_) main_v31 main_c_11
  let main_v33 : IVec S_ 1 := andi main_v28 main_v32
  main_v33

def fn {F : FTy → Type} [FloatOps F] (main_arg0 : FVec F S64x3x224x224 .f32) (main_arg1 : FVec F S32x48 .f32) (main_arg2 : FVec F S32x1 .f32) (main_arg3 : FVec F S32x9 .f32) (main_arg4 : FVec F S32x1 .f32) (main_arg5 : FVec F S16x32 .f32) (main_arg6 : FVec F S16x1 .f32) : IVec S_ 1 :=
  let main_v0 : FVec F S64x3x224x224 .f32 := Host.absf main_arg0
  let main_cst : FVec F S_ .f32 := constant S_ .f32 0x7F800000#32
  let main_v1 : FVec F S64x3x224x224 .f32 := broadcastInDim S64x3x224x224 ![] bcast_S_S64x3x224x224 main_cst
  let main_v2 : IVec S64x3x224x224 1 := cmpf .olt main_v0 main_v1
  let main_c : IVec S_ 1 := constantI S_ 1 1#1
  let main_v3 : IVec S_ 1 := (fun x v => Host.reduce IntOp.andi x v reducesTo_S64x3x224x224_S_d0_1_2_3 h_S_) main_v2 main_c
  let main_v4 : FVec F S32x48 .f32 := Host.absf main_arg1
  let main_cst_0 : FVec F S_ .f32 := constant S_ .f32 0x7F800000#32
  let main_v5 : FVec F S32x48 .f32 := broadcastInDim S32x48 ![] bcast_S_S32x48 main_cst_0
  let main_v6 : IVec S32x48 1 := cmpf .olt main_v4 main_v5
  let main_c_1 : IVec S_ 1 := constantI S_ 1 1#1
  let main_v7 : IVec S_ 1 := (fun x v => Host.reduce IntOp.andi x v reducesTo_S32x48_S_d0_1 h_S_) main_v6 main_c_1
  let main_v8 : IVec S_ 1 := andi main_v3 main_v7
  let main_v9 : FVec F S32x1 .f32 := Host.absf main_arg2
  let main_cst_2 : FVec F S_ .f32 := constant S_ .f32 0x7F800000#32
  let main_v10 : FVec F S32x1 .f32 := broadcastInDim S32x1 ![] bcast_S_S32x1 main_cst_2
  let main_v11 : IVec S32x1 1 := cmpf .olt main_v9 main_v10
  let main_c_3 : IVec S_ 1 := constantI S_ 1 1#1
  let main_v12 : IVec S_ 1 := (fun x v => Host.reduce IntOp.andi x v reducesTo_S32x1_S_d0_1 h_S_) main_v11 main_c_3
  let main_v13 : IVec S_ 1 := andi main_v8 main_v12
  let main_v14 : FVec F S32x9 .f32 := Host.absf main_arg3
  let main_cst_4 : FVec F S_ .f32 := constant S_ .f32 0x7F800000#32
  let main_v15 : FVec F S32x9 .f32 := broadcastInDim S32x9 ![] bcast_S_S32x9 main_cst_4
  let main_v16 : IVec S32x9 1 := cmpf .olt main_v14 main_v15
  fn_part1 (F := F) main_arg4 main_arg5 main_arg6 main_v13 main_v16
-- ==== Kernel.lean ====
abbrev S64x3x224x224 : Shape := ⟨4, ![64, 3, 224, 224]⟩
abbrev S32x48 : Shape := ⟨2, ![32, 48]⟩
abbrev S32x1 : Shape := ⟨2, ![32, 1]⟩
abbrev S32x9 : Shape := ⟨2, ![32, 9]⟩
abbrev S16x32 : Shape := ⟨2, ![16, 32]⟩
abbrev S16x1 : Shape := ⟨2, ![16, 1]⟩
abbrev S_ : Shape := ⟨0, ![]⟩
abbrev S64x3x228x224 : Shape := ⟨4, ![64, 3, 228, 224]⟩
abbrev S64x3x114x2x112x2 : Shape := ⟨6, ![64, 3, 114, 2, 112, 2]⟩
abbrev S64x2x2x3x114x112 : Shape := ⟨6, ![64, 2, 2, 3, 114, 112]⟩
abbrev S64x12x12768 : Shape := ⟨3, ![64, 12, 12768]⟩
abbrev S32x2x2x2x2x3 : Shape := ⟨6, ![32, 2, 2, 2, 2, 3]⟩
abbrev S2x2x32x2x2x3 : Shape := ⟨6, ![2, 2, 32, 2, 2, 3]⟩
abbrev S4x32x12 : Shape := ⟨3, ![4, 32, 12]⟩
abbrev S12544 : Shape := ⟨1, ![12544]⟩
abbrev S1x12544 : Shape := ⟨2, ![1, 12544]⟩
abbrev S2x12544 : Shape := ⟨2, ![2, 12544]⟩
abbrev S64x16x12544 : Shape := ⟨3, ![64, 16, 12544]⟩
abbrev S1x12x12768 : Shape := ⟨3, ![1, 12, 12768]⟩
abbrev S1x16x12544 : Shape := ⟨3, ![1, 16, 12544]⟩
abbrev S32x12800 : Shape := ⟨2, ![32, 12800]⟩
abbrev S1x32x12 : Shape := ⟨3, ![1, 32, 12]⟩
abbrev S32x12 : Shape := ⟨2, ![32, 12]⟩
abbrev S1x12x12544 : Shape := ⟨3, ![1, 12, 12544]⟩
abbrev S12x12544 : Shape := ⟨2, ![12, 12544]⟩
abbrev S32x12544 : Shape := ⟨2, ![32, 12544]⟩
abbrev S32x128 : Shape := ⟨2, ![32, 128]⟩
abbrev S16x12544 : Shape := ⟨2, ![16, 12544]⟩
abbrev S64x16x112x112 : Shape := ⟨4, ![64, 16, 112, 112]⟩

abbrev nBuf : Space → Nat
  | .hbm => 51
  | .vmem => 12
  | .smem => 0
  | _ => 0

abbrev bufTy : (tb : Table) → Fin (tcTables nBuf tb) → BufTy
  | .hbm, ⟨0, _⟩ => ⟨S64x3x224x224, .f32⟩
  | .hbm, ⟨1, _⟩ => ⟨S32x48, .f32⟩
  | .hbm, ⟨2, _⟩ => ⟨S32x1, .f32⟩
  | .hbm, ⟨3, _⟩ => ⟨S32x9, .f32⟩
  | .hbm, ⟨4, _⟩ => ⟨S32x1, .f32⟩
  | .hbm, ⟨5, _⟩ => ⟨S16x32, .f32⟩
  | .hbm, ⟨6, _⟩ => ⟨S16x1, .f32⟩
  | .hbm, ⟨7, _⟩ => ⟨S_, .i32⟩
  | .hbm, ⟨8, _⟩ => ⟨S_, .f32⟩
  | .hbm, ⟨9, _⟩ => ⟨S64x3x228x224, .f32⟩
  | .hbm, ⟨10, _⟩ => ⟨S64x3x114x2x112x2, .f32⟩
  | .hbm, ⟨11, _⟩ => ⟨S64x2x2x3x114x112, .f32⟩
  | .hbm, ⟨12, _⟩ => ⟨S64x12x12768, .f32⟩
  | .hbm, ⟨13, _⟩ => ⟨S32x2x2x2x2x3, .f32⟩
  | .hbm, ⟨14, _⟩ => ⟨S2x2x32x2x2x3, .f32⟩
  | .hbm, ⟨15, _⟩ => ⟨S4x32x12, .f32⟩
  | .hbm, ⟨16, _⟩ => ⟨S12544, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S12544, .i32⟩
  | .hbm, ⟨24, _⟩ => ⟨S12544, .i32⟩
  | .hbm, ⟨25, _⟩ => ⟨S_, .i32⟩
  | .hbm, ⟨26, _⟩ => ⟨S12544, .i32⟩
  | .hbm, ⟨27, _⟩ => ⟨S12544, .i1⟩
  | .hbm, ⟨28, _⟩ => ⟨S_, .i32⟩
  | .hbm, ⟨29, _⟩ => ⟨S12544, .i32⟩
  | .hbm, ⟨30, _⟩ => ⟨S12544, .i1⟩
  | .hbm, ⟨31, _⟩ => ⟨S_, .i32⟩
  | .hbm, ⟨32, _⟩ => ⟨S_, .i1⟩
  | .hbm, ⟨33, _⟩ => ⟨S12544, .i1⟩
  | .hbm, ⟨34, _⟩ => ⟨S12544, .i1⟩
  | .hbm, ⟨35, _⟩ => ⟨S12544, .i1⟩
  | .hbm, ⟨36, _⟩ => ⟨S12544, .i32⟩
  | .hbm, ⟨37, _⟩ => ⟨S12544, .i32⟩
  | .hbm, ⟨38, _⟩ => ⟨S12544, .i32⟩
  | .hbm, ⟨39, _⟩ => ⟨S_, .i32⟩
  | .hbm, ⟨40, _⟩ => ⟨S12544, .i32⟩
  | .hbm, ⟨41, _⟩ => ⟨S12544, .i1⟩
  | .hbm, ⟨42, _⟩ => ⟨S_, .i32⟩
  | .hbm, ⟨43, _⟩ => ⟨S12544, .i32⟩
  | .hbm, ⟨44, _⟩ => ⟨S12544, .i1⟩
  | .hbm, ⟨45, _⟩ => ⟨S1x12544, .i1⟩
  | .hbm, ⟨46, _⟩ => ⟨S1x12544, .i1⟩
  | .hbm, ⟨47, _⟩ => ⟨S2x12544, .i1⟩
  | .hbm, ⟨48, _⟩ => ⟨S2x12544, .f32⟩
  | .hbm, ⟨49, _⟩ => ⟨S64x16x12544, .f32⟩
  | .hbm, ⟨50, _⟩ => ⟨S64x16x112x112, .f32⟩
  | .local _ .vmem, ⟨0, _⟩ => ⟨S2x12544, .f32⟩
  | .local _ .vmem, ⟨1, _⟩ => ⟨S1x12x12768, .f32⟩
  | .local _ .vmem, ⟨2, _⟩ => ⟨S1x12x12768, .f32⟩
  | .local _ .vmem, ⟨3, _⟩ => ⟨S4x32x12, .f32⟩
  | .local _ .vmem, ⟨4, _⟩ => ⟨S32x1, .f32⟩
  | .local _ .vmem, ⟨5, _⟩ => ⟨S32x9, .f32⟩
  | .local _ .vmem, ⟨6, _⟩ => ⟨S32x1, .f32⟩
  | .local _ .vmem, ⟨7, _⟩ => ⟨S16x32, .f32⟩
  | .local _ .vmem, ⟨8, _⟩ => ⟨S16x1, .f32⟩
  | .local _ .vmem, ⟨9, _⟩ => ⟨S1x16x12544, .f32⟩
  | .local _ .vmem, ⟨10, _⟩ => ⟨S1x16x12544, .f32⟩
  | .local _ .vmem, ⟨11, _⟩ => ⟨S32x12800, .f32⟩
  | _, _ => ⟨S64x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_call1_v0 : Ref sig .tc := ⟨.hbm, 18, rfl⟩
abbrev main_call1_c : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_c_1 : Ref sig .tc := ⟨.hbm, 25, rfl⟩
abbrev main_call1_v5 : Ref sig .tc := ⟨.hbm, 26, rfl⟩
abbrev main_call1_v6 : Ref sig .tc := ⟨.hbm, 27, rfl⟩
abbrev main_call1_c_2 : Ref sig .tc := ⟨.hbm, 28, rfl⟩
abbrev main_call1_v7 : Ref sig .tc := ⟨.hbm, 29, rfl⟩
abbrev main_call1_v8 : Ref sig .tc := ⟨.hbm, 30, rfl⟩
abbrev main_call1_c_3 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_v12 : Ref sig .tc := ⟨.hbm, 35, rfl⟩
abbrev main_call1_v13 : Ref sig .tc := ⟨.hbm, 36, rfl⟩
abbrev main_call1_v14 : Ref sig .tc := ⟨.hbm, 37, rfl⟩
abbrev main_v8 : Ref sig .tc := ⟨.hbm, 38, rfl⟩
abbrev main_c_1 : Ref sig .tc := ⟨.hbm, 39, rfl⟩
abbrev main_v9 : Ref sig .tc := ⟨.hbm, 40, rfl⟩
abbrev main_v10 : Ref sig .tc := ⟨.hbm, 41, rfl⟩
abbrev main_c_2 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2x12544 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x12x12768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x32x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x9 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x16x12544 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  pads_S64x3x224x224_S64x3x228x224_000_000_040_000 : S64x3x224x224.Pads (![0, 0, 0, 0] : Fin 4 → Nat) ![0, 0, 4, 0] ![0, 0, 0, 0] S64x3x228x224
  h_S_ : 0 < S_.numel
  shapeCasts_S64x3x228x224_S64x3x114x2x112x2 : S64x3x228x224.ShapeCasts S64x3x114x2x112x2
  transposes_S64x3x114x2x112x2_S64x2x2x3x114x112_0_3_5_1_2_4 : S64x3x114x2x112x2.Transposes [0, 3, 5, 1, 2, 4] S64x2x2x3x114x112
  shapeCasts_S64x2x2x3x114x112_S64x12x12768 : S64x2x2x3x114x112.ShapeCasts S64x12x12768
  shapeCasts_S32x48_S32x2x2x2x2x3 : S32x48.ShapeCasts S32x2x2x2x2x3
  transposes_S32x2x2x2x2x3_S2x2x32x2x2x3_1_3_0_2_4_5 : S32x2x2x2x2x3.Transposes [1, 3, 0, 2, 4, 5] S2x2x32x2x2x3
  shapeCasts_S2x2x32x2x2x3_S4x32x12 : S2x2x32x2x2x3.ShapeCasts S4x32x12
  bcast_S_S12544 : S_.BroadcastsInDim S12544 (![] : Fin 0 → Fin S12544.rank)
  bcast_S12544_S1x12544_1 : S12544.BroadcastsInDim S1x12544 (![1] : Fin 1 → Fin S1x12544.rank)
  concatenates_S1x12544_S1x12544_S2x12544_d0 : Shape.Concatenates [S1x12544, S1x12544] S2x12544 0
  inb_S2x12544_S1x12544_0_0 : ∀ a, (![0, 0] : Fin 2 → Nat) a + S1x12544.size a ≤ S2x12544.size a
  h_S1x12544 : 0 < S1x12544.numel
  shapeCasts_S1x12544_S1x12544 : S1x12544.ShapeCasts S1x12544
  inb_S2x12544_S1x12544_1_0 : ∀ a, (![1, 0] : Fin 2 → Nat) a + S1x12544.size a ≤ S2x12544.size a
  inb_S4x32x12_S1x32x12_0_0_0 : ∀ a, (![0, 0, 0] : Fin 3 → Nat) a + S1x32x12.size a ≤ S4x32x12.size a
  h_S1x32x12 : 0 < S1x32x12.numel
  shapeCasts_S1x32x12_S32x12 : S1x32x12.ShapeCasts S32x12
  inb_S1x12x12768_S1x12x12544_0_0_0 : ∀ a, (![0, 0, 0] : Fin 3 → Nat) a + S1x12x12544.size a ≤ S1x12x12768.size a
  h_S1x12x12544 : 0 < S1x12x12544.numel
  shapeCasts_S1x12x12544_S12x12544 : S1x12x12544.ShapeCasts S12x12544
  inb_S4x32x12_S1x32x12_2_0_0 : ∀ a, (![2, 0, 0] : Fin 3 → Nat) a + S1x32x12.size a ≤ S4x32x12.size a
  inb_S1x12x12768_S1x12x12544_0_0_112 : ∀ a, (![0, 0, 112] : Fin 3 → Nat) a + S1x12x12544.size a ≤ S1x12x12768.size a
  inb_S4x32x12_S1x32x12_1_0_0 : ∀ a, (![1, 0, 0] : Fin 3 → Nat) a + S1x32x12.size a ≤ S4x32x12.size a
  inb_S1x12x12768_S1x12x12544_0_0_1 : ∀ a, (![0, 0, 1] : Fin 3 → Nat) a + S1x12x12544.size a ≤ S1x12x12768.size a
  inb_S4x32x12_S1x32x12_3_0_0 : ∀ a, (![3, 0, 0] : Fin 3 → Nat) a + S1x32x12.size a ≤ S4x32x12.size a
  inb_S1x12x12768_S1x12x12544_0_0_113 : ∀ a, (![0, 0, 113] : Fin 3 → Nat) a + S1x12x12544.size a ≤ S1x12x12768.size a
  broadcasts_S1x12544_S32x12544 : S1x12544.Broadcasts S32x12544
  inb_S32x1_S32x1_0_0 : ∀ a, (![0, 0] : Fin 2 → Nat) a + S32x1.size a ≤ S32x1.size a
  h_S32x1 : 0 < S32x1.numel
  broadcasts_S32x1_S32x12544 : S32x1.Broadcasts S32x12544
  inb_S32x12800_S32x128_0_0 : ∀ a, (![0, 0] : Fin 2 → Nat) a + S32x128.size a ≤ S32x12800.size a
  h_S32x128 : 0 < S32x128.numel
  shapeCasts_S32x128_S32x128 : S32x128.ShapeCasts S32x128
  inb_S32x12800_S32x128_0_12672 : ∀ a, (![0, 12672] : Fin 2 → Nat) a + S32x128.size a ≤ S32x12800.size a
  inb_S32x12800_S32x12544_0_128 : ∀ a, (![0, 128] : Fin 2 → Nat) a + S32x12544.size a ≤ S32x12800.size a
  h_S32x12544 : 0 < S32x12544.numel
  shapeCasts_S32x12544_S32x12544 : S32x12544.ShapeCasts S32x12544
  inb_S32x9_S32x9_0_0 : ∀ a, (![0, 0] : Fin 2 → Nat) a + S32x9.size a ≤ S32x9.size a
  h_S32x9 : 0 < S32x9.numel
  inb_S32x12800_S32x12544_0_15 : ∀ a, (![0, 15] : Fin 2 → Nat) a + S32x12544.size a ≤ S32x12800.size a
  slices_S32x9_o0_0_S32x1 : S32x9.Slices ![0, 0] S32x1
  inb_S32x12800_S32x12544_0_16 : ∀ a, (![0, 16] : Fin 2 → Nat) a + S32x12544.size a ≤ S32x12800.size a
  slices_S32x9_o0_1_S32x1 : S32x9.Slices ![0, 1] S32x1
  inb_S32x12800_S32x12544_0_17 : ∀ a, (![0, 17] : Fin 2 → Nat) a + S32x12544.size a ≤ S32x12800.size a
  slices_S32x9_o0_2_S32x1 : S32x9.Slices ![0, 2] S32x1
  inb_S32x12800_S32x12544_0_127 : ∀ a, (![0, 127] : Fin 2 → Nat) a + S32x12544.size a ≤ S32x12800.size a
  slices_S32x9_o0_3_S32x1 : S32x9.Slices ![0, 3] S32x1
  slices_S32x9_o0_4_S32x1 : S32x9.Slices ![0, 4] S32x1
  inb_S32x12800_S32x12544_0_129 : ∀ a, (![0, 129] : Fin 2 → Nat) a + S32x12544.size a ≤ S32x12800.size a
  slices_S32x9_o0_5_S32x1 : S32x9.Slices ![0, 5] S32x1
  inb_S32x12800_S32x12544_0_239 : ∀ a, (![0, 239] : Fin 2 → Nat) a + S32x12544.size a ≤ S32x12800.size a
  slices_S32x9_o0_6_S32x1 : S32x9.Slices ![0, 6] S32x1
  inb_S32x12800_S32x12544_0_240 : ∀ a, (![0, 240] : Fin 2 → Nat) a + S32x12544.size a ≤ S32x12800.size a
  slices_S32x9_o0_7_S32x1 : S32x9.Slices ![0, 7] S32x1
  inb_S32x12800_S32x12544_0_241 : ∀ a, (![0, 241] : Fin 2 → Nat) a + S32x12544.size a ≤ S32x12800.size a
  slices_S32x9_o0_8_S32x1 : S32x9.Slices ![0, 8] S32x1
  inb_S16x32_S16x32_0_0 : ∀ a, (![0, 0] : Fin 2 → Nat) a + S16x32.size a ≤ S16x32.size a
  h_S16x32 : 0 < S16x32.numel
  inb_S16x1_S16x1_0_0 : ∀ a, (![0, 0] : Fin 2 → Nat) a + S16x1.size a ≤ S16x1.size a
  h_S16x1 : 0 < S16x1.numel
  broadcasts_S16x1_S16x12544 : S16x1.Broadcasts S16x12544
  inb_S1x16x12544_S1x16x12544_0_0_0 : ∀ a, (![0, 0, 0] : Fin 3 → Nat) a + S1x16x12544.size a ≤ S1x16x12544.size a
  h_S1x16x12544 : 0 < S1x16x12544.numel
  shapeCasts_S1x16x12544_S16x12544 : S1x16x12544.ShapeCasts S16x12544
  shapeCasts_S16x12544_S1x16x12544 : S16x12544.ShapeCasts S1x16x12544
  shapeCasts_S64x16x12544_S64x16x112x112 : S64x16x12544.ShapeCasts S64x16x112x112
  dot_S32x12_S12x12544_S32x12544_1_0_0_1_n_n_wf : DotDims.WF S32x12 S12x12544 S32x12544 [1] [0] [0] [1] [] []
  dot_S16x32_S32x12544_S16x12544_1_0_0_1_n_n_wf : DotDims.WF S16x32 S32x12544 S16x12544 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2x12544.size a ≤ S2x12544.size a
  hwx0_0 : ∀ i : grid0.Coords, EltTy.bits .f32 = 32 ∨ (Rect.block (s := S2x12544) S2x12544.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x12x12768.size a ≤ S64x12x12768.size a
  hwx0_1 : ∀ i : grid0.Coords, EltTy.bits .f32 = 32 ∨ (Rect.block (s := S64x12x12768) S1x12x12768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x32x12.size a ≤ S4x32x12.size a
  hwx0_2 : ∀ i : grid0.Coords, EltTy.bits .f32 = 32 ∨ (Rect.block (s := S4x32x12) S4x32x12.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S32x1.size a
  hwx0_3 : ∀ i : grid0.Coords, EltTy.bits .f32 = 32 ∨ (Rect.block (s := S32x1) S32x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x9.size a ≤ S32x9.size a
  hwx0_4 : ∀ i : grid0.Coords, EltTy.bits .f32 = 32 ∨ (Rect.block (s := S32x9) S32x9.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x1.size a ≤ S32x1.size a
  hwx0_5 : ∀ i : grid0.Coords, EltTy.bits .f32 = 32 ∨ (Rect.block (s := S32x1) S32x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x32.size a ≤ S16x32.size a
  hwx0_6 : ∀ i : grid0.Coords, EltTy.bits .f32 = 32 ∨ (Rect.block (s := S16x32) S16x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x1.size a ≤ S16x1.size a
  hwx0_7 : ∀ i : grid0.Coords, EltTy.bits .f32 = 32 ∨ (Rect.block (s := S16x1) S16x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x16x12544.size a ≤ S64x16x12544.size a
  hwx0_8 : ∀ i : grid0.Coords, EltTy.bits .f32 = 32 ∨ (Rect.block (s := S64x16x12544) S1x16x12544.size (cc0_transform_8 i) (hinb0_8 i)).WholeWords (EltTy.packing .f32)

variable [Facts₀]

def dot_S32x12_S12x12544_S32x12544_1_0_0_1_n_n : DotDims S32x12 S12x12544 S32x12544 where
  lhsContracting := [1]
  rhsContracting := [0]
  lhsNonContracting := [0]
  rhsNonContracting := [1]
  lhsBatch := []
  rhsBatch := []
  wf := dot_S32x12_S12x12544_S32x12544_1_0_0_1_n_n_wf
def dot_S16x32_S32x12544_S16x12544_1_0_0_1_n_n : DotDims S16x32 S32x12544 S16x12544 where
  lhsContracting := [1]
  rhsContracting := [0]
  lhsNonContracting := [0]
  rhsNonContracting := [1]
  lhsBatch := []
  rhsBatch := []
  wf := dot_S16x32_S32x12544_S16x12544_1_0_0_1_n_n_wf

abbrev win0_0 : Pipeline.Window sig grid0 :=
  Pipeline.Window.ofSpec (Memref.whole main_v16) S2x12544.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x12x12768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S4x32x12.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S32x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S32x9.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S32x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S16x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S16x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x16x12544.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S64x3x224x224 : Shape := ⟨4, ![64, 3, 224, 224]⟩
abbrev S32x48 : Shape := ⟨2, ![32, 48]⟩
abbrev S32x1 : Shape := ⟨2, ![32, 1]⟩
abbrev S32x9 : Shape := ⟨2, ![32, 9]⟩
abbrev S16x32 : Shape := ⟨2, ![16, 32]⟩
abbrev S16x1 : Shape := ⟨2, ![16, 1]⟩
abbrev S64x224x224x3 : Shape := ⟨4, ![64, 224, 224, 3]⟩
abbrev S_ : Shape := ⟨0, ![]⟩
abbrev S64x225x225x3 : Shape := ⟨4, ![64, 225, 225, 3]⟩
abbrev S64x226x226x3 : Shape := ⟨4, ![64, 226, 226, 3]⟩
abbrev S64x113x2x113x2x3 : Shape := ⟨6, ![64, 113, 2, 113, 2, 3]⟩
abbrev S64x112x2x112x2x3 : Shape := ⟨6, ![64, 112, 2, 112, 2, 3]⟩
abbrev S64x1x112x2x112x2x3 : Shape := ⟨7, ![64, 1, 112, 2, 112, 2, 3]⟩
abbrev S64x4x112x2x112x2x3 : Shape := ⟨7, ![64, 4, 112, 2, 112, 2, 3]⟩
abbrev S64x2x2x112x2x112x2x3 : Shape := ⟨8, ![64, 2, 2, 112, 2, 112, 2, 3]⟩
abbrev S64x2x2x2x2x3x112x112 : Shape := ⟨8, ![64, 2, 2, 2, 2, 3, 112, 112]⟩
abbrev S64x48x12544 : Shape := ⟨3, ![64, 48, 12544]⟩
abbrev S12544 : Shape := ⟨1, ![12544]⟩
abbrev S1x12544 : Shape := ⟨2, ![1, 12544]⟩
abbrev S2x12544 : Shape := ⟨2, ![2, 12544]⟩
abbrev S64x16x12544 : Shape := ⟨3, ![64, 16, 12544]⟩
abbrev S1x48x12544 : Shape := ⟨3, ![1, 48, 12544]⟩
abbrev S1x16x12544 : Shape := ⟨3, ![1, 16, 12544]⟩
abbrev S32x12800 : Shape := ⟨2, ![32, 12800]⟩
abbrev S48x12544 : Shape := ⟨2, ![48, 12544]⟩
abbrev S32x12544 : Shape := ⟨2, ![32, 12544]⟩
abbrev S32x128 : Shape := ⟨2, ![32, 128]⟩
abbrev S16x12544 : Shape := ⟨2, ![16, 12544]⟩
abbrev S64x16x112x112 : Shape := ⟨4, ![64, 16, 112, 112]⟩

abbrev nBuf : Space → Nat
  | .hbm => 62
  | .vmem => 12
  | .smem => 0
  | _ => 0

abbrev bufTy : (tb : Table) → Fin (tcTables nBuf tb) → BufTy
  | .hbm, ⟨0, _⟩ => ⟨S64x3x224x224, .f32⟩
  | .hbm, ⟨1, _⟩ => ⟨S32x48, .f32⟩
  | .hbm, ⟨2, _⟩ => ⟨S32x1, .f32⟩
  | .hbm, ⟨3, _⟩ => ⟨S32x9, .f32⟩
  | .hbm, ⟨4, _⟩ => ⟨S32x1, .f32⟩
  | .hbm, ⟨5, _⟩ => ⟨S16x32, .f32⟩
  | .hbm, ⟨6, _⟩ => ⟨S16x1, .f32⟩
  | .hbm, ⟨7, _⟩ => ⟨S64x224x224x3, .f32⟩
  | .hbm, ⟨8, _⟩ => ⟨S_, .i32⟩
  | .hbm, ⟨9, _⟩ => ⟨S_, .f32⟩
  | .hbm, ⟨10, _⟩ => ⟨S64x225x225x3, .f32⟩
  | .hbm, ⟨11, _⟩ => ⟨S_, .i32⟩
  | .hbm, ⟨12, _⟩ => ⟨S_, .f32⟩
  | .hbm, ⟨13, _⟩ => ⟨S64x226x226x3, .f32⟩
  | .hbm, ⟨14, _⟩ => ⟨S64x113x2x113x2x3, .f32⟩
  | .hbm, ⟨15, _⟩ => ⟨S64x112x2x112x2x3, .f32⟩
  | .hbm, ⟨16, _⟩ => ⟨S64x112x2x112x2x3, .f32⟩
  | .hbm, ⟨17, _⟩ => ⟨S64x112x2x112x2x3, .f32⟩
  | .hbm, ⟨18, _⟩ => ⟨S64x112x2x112x2x3, .f32⟩
  | .hbm, ⟨19, _⟩ => ⟨S64x1x112x2x112x2x3, .f32⟩
  | .hbm, ⟨20, _⟩ => ⟨S64x1x112x2x112x2x3, .f32⟩
  | .hbm, ⟨21, _⟩ => ⟨S64x1x112x2x112x2x3, .f32⟩
  | .hbm, ⟨22, _⟩ => ⟨S64x1x112x2x112x2x3, .f32⟩
  | .hbm, ⟨23, _⟩ => ⟨S64x4x112x2x112x2x3, .f32⟩
  | .hbm, ⟨24, _⟩ => ⟨S64x2x2x112x2x112x2x3, .f32⟩
  | .hbm, ⟨25, _⟩ => ⟨S64x2x2x2x2x3x112x112, .f32⟩
  | .hbm, ⟨26, _⟩ => ⟨S64x48x12544, .f32⟩
  | .hbm, ⟨27, _⟩ => ⟨S12544, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S12544, .i32⟩
  | .hbm, ⟨35, _⟩ => ⟨S12544, .i32⟩
  | .hbm, ⟨36, _⟩ => ⟨S_, .i32⟩
  | .hbm, ⟨37, _⟩ => ⟨S12544, .i32⟩
  | .hbm, ⟨38, _⟩ => ⟨S12544, .i1⟩
  | .hbm, ⟨39, _⟩ => ⟨S_, .i32⟩
  | .hbm, ⟨40, _⟩ => ⟨S12544, .i32⟩
  | .hbm, ⟨41, _⟩ => ⟨S12544, .i1⟩
  | .hbm, ⟨42, _⟩ => ⟨S_, .i32⟩
  | .hbm, ⟨43, _⟩ => ⟨S_, .i1⟩
  | .hbm, ⟨44, _⟩ => ⟨S12544, .i1⟩
  | .hbm, ⟨45, _⟩ => ⟨S12544, .i1⟩
  | .hbm, ⟨46, _⟩ => ⟨S12544, .i1⟩
  | .hbm, ⟨47, _⟩ => ⟨S12544, .i32⟩
  | .hbm, ⟨48, _⟩ => ⟨S12544, .i32⟩
  | .hbm, ⟨49, _⟩ => ⟨S12544, .i32⟩
  | .hbm, ⟨50, _⟩ => ⟨S_, .i32⟩
  | .hbm, ⟨51, _⟩ => ⟨S12544, .i32⟩
  | .hbm, ⟨52, _⟩ => ⟨S12544, .i1⟩
  | .hbm, ⟨53, _⟩ => ⟨S_, .i32⟩
  | .hbm, ⟨54, _⟩ => ⟨S12544, .i32⟩
  | .hbm, ⟨55, _⟩ => ⟨S12544, .i1⟩
  | .hbm, ⟨56, _⟩ => ⟨S1x12544, .i1⟩
  | .hbm, ⟨57, _⟩ => ⟨S1x12544, .i1⟩
  | .hbm, ⟨58, _⟩ => ⟨S2x12544, .i1⟩
  | .hbm, ⟨59, _⟩ => ⟨S2x12544, .f32⟩
  | .hbm, ⟨60, _⟩ => ⟨S64x16x12544, .f32⟩
  | .hbm, ⟨61, _⟩ => ⟨S64x16x112x112, .f32⟩
  | .local _ .vmem, ⟨0, _⟩ => ⟨S2x12544, .f32⟩
  | .local _ .vmem, ⟨1, _⟩ => ⟨S1x48x12544, .f32⟩
  | .local _ .vmem, ⟨2, _⟩ => ⟨S1x48x12544, .f32⟩
  | .local _ .vmem, ⟨3, _⟩ => ⟨S32x48, .f32⟩
  | .local _ .vmem, ⟨4, _⟩ => ⟨S32x1, .f32⟩
  | .local _ .vmem, ⟨5, _⟩ => ⟨S32x9, .f32⟩
  | .local _ .vmem, ⟨6, _⟩ => ⟨S32x1, .f32⟩
  | .local _ .vmem, ⟨7, _⟩ => ⟨S16x32, .f32⟩
  | .local _ .vmem, ⟨8, _⟩ => ⟨S16x1, .f32⟩
  | .local _ .vmem, ⟨9, _⟩ => ⟨S1x16x12544, .f32⟩
  | .local _ .vmem, ⟨10, _⟩ => ⟨S1x16x12544, .f32⟩
  | .local _ .vmem, ⟨11, _⟩ => ⟨S32x12800, .f32⟩
  | _, _ => ⟨S64x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_call2_v0 : Ref sig .tc := ⟨.hbm, 29, rfl⟩
abbrev main_call2_c : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_c_1 : Ref sig .tc := ⟨.hbm, 36, rfl⟩
abbrev main_call2_v5 : Ref sig .tc := ⟨.hbm, 37, rfl⟩
abbrev main_call2_v6 : Ref sig .tc := ⟨.hbm, 38, rfl⟩
abbrev main_call2_c_2 : Ref sig .tc := ⟨.hbm, 39, rfl⟩
abbrev main_call2_v7 : Ref sig .tc := ⟨.hbm, 40, rfl⟩
abbrev main_call2_v8 : Ref sig .tc := ⟨.hbm, 41, rfl⟩
abbrev main_call2_c_3 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_v12 : Ref sig .tc := ⟨.hbm, 46, rfl⟩
abbrev main_call2_v13 : Ref sig .tc := ⟨.hbm, 47, rfl⟩
abbrev main_call2_v14 : Ref sig .tc := ⟨.hbm, 48, rfl⟩
abbrev main_v17 : Ref sig .tc := ⟨.hbm, 49, rfl⟩
abbrev main_c_2 : Ref sig .tc := ⟨.hbm, 50, rfl⟩
abbrev main_v18 : Ref sig .tc := ⟨.hbm, 51, rfl⟩
abbrev main_v19 : Ref sig .tc := ⟨.hbm, 52, rfl⟩
abbrev main_c_3 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2x12544 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x48x12544 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x9 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x16x12544 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S64x3x224x224_S64x224x224x3_0_2_3_1 : S64x3x224x224.Transposes [0, 2, 3, 1] S64x224x224x3
  pads_S64x224x224x3_S64x225x225x3_000_010_010_000 : S64x224x224x3.Pads (![0, 0, 0, 0] : Fin 4 → Nat) ![0, 1, 1, 0] ![0, 0, 0, 0] S64x225x225x3
  h_S_ : 0 < S_.numel
  pads_S64x225x225x3_S64x226x226x3_000_010_010_000 : S64x225x225x3.Pads (![0, 0, 0, 0] : Fin 4 → Nat) ![0, 1, 1, 0] ![0, 0, 0, 0] S64x226x226x3
  shapeCasts_S64x226x226x3_S64x113x2x113x2x3 : S64x226x226x3.ShapeCasts S64x113x2x113x2x3
  slices_S64x113x2x113x2x3_S64x112x2x112x2x3_0_0_0_0_0_0 : S64x113x2x113x2x3.Slices ![0, 0, 0, 0, 0, 0] S64x112x2x112x2x3
  slices_S64x113x2x113x2x3_S64x112x2x112x2x3_0_0_0_1_0_0 : S64x113x2x113x2x3.Slices ![0, 0, 0, 1, 0, 0] S64x112x2x112x2x3
  slices_S64x113x2x113x2x3_S64x112x2x112x2x3_0_1_0_0_0_0 : S64x113x2x113x2x3.Slices ![0, 1, 0, 0, 0, 0] S64x112x2x112x2x3
  slices_S64x113x2x113x2x3_S64x112x2x112x2x3_0_1_0_1_0_0 : S64x113x2x113x2x3.Slices ![0, 1, 0, 1, 0, 0] S64x112x2x112x2x3
  bcast_S64x112x2x112x2x3_S64x1x112x2x112x2x3_0_2_3_4_5_6 : S64x112x2x112x2x3.BroadcastsInDim S64x1x112x2x112x2x3 (![0, 2, 3, 4, 5, 6] : Fin 6 → Fin S64x1x112x2x112x2x3.rank)
  concatenates_S64x1x112x2x112x2x3_S64x1x112x2x112x2x3_S64x1x112x2x112x2x3_S64x1x112x2x112x2x3_S64x4x112x2x112x2x3_d1 : Shape.Concatenates [S64x1x112x2x112x2x3, S64x1x112x2x112x2x3, S64x1x112x2x112x2x3, S64x1x112x2x112x2x3] S64x4x112x2x112x2x3 1
  shapeCasts_S64x4x112x2x112x2x3_S64x2x2x112x2x112x2x3 : S64x4x112x2x112x2x3.ShapeCasts S64x2x2x112x2x112x2x3
  transposes_S64x2x2x112x2x112x2x3_S64x2x2x2x2x3x112x112_0_1_4_2_6_7_3_5 : S64x2x2x112x2x112x2x3.Transposes [0, 1, 4, 2, 6, 7, 3, 5] S64x2x2x2x2x3x112x112
  shapeCasts_S64x2x2x2x2x3x112x112_S64x48x12544 : S64x2x2x2x2x3x112x112.ShapeCasts S64x48x12544
  bcast_S_S12544 : S_.BroadcastsInDim S12544 (![] : Fin 0 → Fin S12544.rank)
  bcast_S12544_S1x12544_1 : S12544.BroadcastsInDim S1x12544 (![1] : Fin 1 → Fin S1x12544.rank)
  concatenates_S1x12544_S1x12544_S2x12544_d0 : Shape.Concatenates [S1x12544, S1x12544] S2x12544 0
  inb_S32x48_S32x48_0_0 : ∀ a, (![0, 0] : Fin 2 → Nat) a + S32x48.size a ≤ S32x48.size a
  h_S32x48 : 0 < S32x48.numel
  inb_S1x48x12544_S1x48x12544_0_0_0 : ∀ a, (![0, 0, 0] : Fin 3 → Nat) a + S1x48x12544.size a ≤ S1x48x12544.size a
  h_S1x48x12544 : 0 < S1x48x12544.numel
  shapeCasts_S1x48x12544_S48x12544 : S1x48x12544.ShapeCasts S48x12544
  inb_S32x1_S32x1_0_0 : ∀ a, (![0, 0] : Fin 2 → Nat) a + S32x1.size a ≤ S32x1.size a
  h_S32x1 : 0 < S32x1.numel
  broadcasts_S32x1_S32x12544 : S32x1.Broadcasts S32x12544
  inb_S32x12800_S32x128_0_0 : ∀ a, (![0, 0] : Fin 2 → Nat) a + S32x128.size a ≤ S32x12800.size a
  h_S32x128 : 0 < S32x128.numel
  shapeCasts_S32x128_S32x128 : S32x128.ShapeCasts S32x128
  inb_S32x12800_S32x128_0_12672 : ∀ a, (![0, 12672] : Fin 2 → Nat) a + S32x128.size a ≤ S32x12800.size a
  inb_S32x12800_S32x12544_0_128 : ∀ a, (![0, 128] : Fin 2 → Nat) a + S32x12544.size a ≤ S32x12800.size a
  h_S32x12544 : 0 < S32x12544.numel
  shapeCasts_S32x12544_S32x12544 : S32x12544.ShapeCasts S32x12544
  inb_S32x9_S32x9_0_0 : ∀ a, (![0, 0] : Fin 2 → Nat) a + S32x9.size a ≤ S32x9.size a
  h_S32x9 : 0 < S32x9.numel
  inb_S32x12800_S32x12544_0_15 : ∀ a, (![0, 15] : Fin 2 → Nat) a + S32x12544.size a ≤ S32x12800.size a
  slices_S32x9_o0_0_S32x1 : S32x9.Slices ![0, 0] S32x1
  inb_S32x12800_S32x12544_0_127 : ∀ a, (![0, 127] : Fin 2 → Nat) a + S32x12544.size a ≤ S32x12800.size a
  slices_S32x9_o0_3_S32x1 : S32x9.Slices ![0, 3] S32x1
  inb_S32x12800_S32x12544_0_239 : ∀ a, (![0, 239] : Fin 2 → Nat) a + S32x12544.size a ≤ S32x12800.size a
  slices_S32x9_o0_6_S32x1 : S32x9.Slices ![0, 6] S32x1
  inb_S32x12800_S32x12544_0_16 : ∀ a, (![0, 16] : Fin 2 → Nat) a + S32x12544.size a ≤ S32x12800.size a
  slices_S32x9_o0_1_S32x1 : S32x9.Slices ![0, 1] S32x1
  slices_S32x9_o0_4_S32x1 : S32x9.Slices ![0, 4] S32x1
  inb_S32x12800_S32x12544_0_240 : ∀ a, (![0, 240] : Fin 2 → Nat) a + S32x12544.size a ≤ S32x12800.size a
  slices_S32x9_o0_7_S32x1 : S32x9.Slices ![0, 7] S32x1
  inb_S32x12800_S32x12544_0_17 : ∀ a, (![0, 17] : Fin 2 → Nat) a + S32x12544.size a ≤ S32x12800.size a
  slices_S32x9_o0_2_S32x1 : S32x9.Slices ![0, 2] S32x1
  inb_S32x12800_S32x12544_0_129 : ∀ a, (![0, 129] : Fin 2 → Nat) a + S32x12544.size a ≤ S32x12800.size a
  slices_S32x9_o0_5_S32x1 : S32x9.Slices ![0, 5] S32x1
  inb_S32x12800_S32x12544_0_241 : ∀ a, (![0, 241] : Fin 2 → Nat) a + S32x12544.size a ≤ S32x12800.size a
  slices_S32x9_o0_8_S32x1 : S32x9.Slices ![0, 8] S32x1
  inb_S2x12544_S1x12544_0_0 : ∀ a, (![0, 0] : Fin 2 → Nat) a + S1x12544.size a ≤ S2x12544.size a
  h_S1x12544 : 0 < S1x12544.numel
  shapeCasts_S1x12544_S1x12544 : S1x12544.ShapeCasts S1x12544
  inb_S2x12544_S1x12544_1_0 : ∀ a, (![1, 0] : Fin 2 → Nat) a + S1x12544.size a ≤ S2x12544.size a
  broadcasts_S1x12544_S32x12544 : S1x12544.Broadcasts S32x12544
  inb_S16x32_S16x32_0_0 : ∀ a, (![0, 0] : Fin 2 → Nat) a + S16x32.size a ≤ S16x32.size a
  h_S16x32 : 0 < S16x32.numel
  inb_S16x1_S16x1_0_0 : ∀ a, (![0, 0] : Fin 2 → Nat) a + S16x1.size a ≤ S16x1.size a
  h_S16x1 : 0 < S16x1.numel
  broadcasts_S16x1_S16x12544 : S16x1.Broadcasts S16x12544
  inb_S1x16x12544_S1x16x12544_0_0_0 : ∀ a, (![0, 0, 0] : Fin 3 → Nat) a + S1x16x12544.size a ≤ S1x16x12544.size a
  h_S1x16x12544 : 0 < S1x16x12544.numel
  shapeCasts_S1x16x12544_S16x12544 : S1x16x12544.ShapeCasts S16x12544
  shapeCasts_S16x12544_S1x16x12544 : S16x12544.ShapeCasts S1x16x12544
  shapeCasts_S64x16x12544_S64x16x112x112 : S64x16x12544.ShapeCasts S64x16x112x112
  dot_S32x48_S48x12544_S32x12544_1_0_0_1_n_n_wf : DotDims.WF S32x48 S48x12544 S32x12544 [1] [0] [0] [1] [] []
  dot_S16x32_S32x12544_S16x12544_1_0_0_1_n_n_wf : DotDims.WF S16x32 S32x12544 S16x12544 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2x12544.size a ≤ S2x12544.size a
  hwx0_0 : ∀ i : grid0.Coords, EltTy.bits .f32 = 32 ∨ (Rect.block (s := S2x12544) S2x12544.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x48x12544.size a ≤ S64x48x12544.size a
  hwx0_1 : ∀ i : grid0.Coords, EltTy.bits .f32 = 32 ∨ (Rect.block (s := S64x48x12544) S1x48x12544.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x48.size a ≤ S32x48.size a
  hwx0_2 : ∀ i : grid0.Coords, EltTy.bits .f32 = 32 ∨ (Rect.block (s := S32x48) S32x48.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S32x1.size a
  hwx0_3 : ∀ i : grid0.Coords, EltTy.bits .f32 = 32 ∨ (Rect.block (s := S32x1) S32x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x9.size a ≤ S32x9.size a
  hwx0_4 : ∀ i : grid0.Coords, EltTy.bits .f32 = 32 ∨ (Rect.block (s := S32x9) S32x9.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x1.size a ≤ S32x1.size a
  hwx0_5 : ∀ i : grid0.Coords, EltTy.bits .f32 = 32 ∨ (Rect.block (s := S32x1) S32x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x32.size a ≤ S16x32.size a
  hwx0_6 : ∀ i : grid0.Coords, EltTy.bits .f32 = 32 ∨ (Rect.block (s := S16x32) S16x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x1.size a ≤ S16x1.size a
  hwx0_7 : ∀ i : grid0.Coords, EltTy.bits .f32 = 32 ∨ (Rect.block (s := S16x1) S16x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x16x12544.size a ≤ S64x16x12544.size a
  hwx0_8 : ∀ i : grid0.Coords, EltTy.bits .f32 = 32 ∨ (Rect.block (s := S64x16x12544) S1x16x12544.size (cc0_transform_8 i) (hinb0_8 i)).WholeWords (EltTy.packing .f32)

variable [Facts₀]

def dot_S32x48_S48x12544_S32x12544_1_0_0_1_n_n : DotDims S32x48 S48x12544 S32x12544 where
  lhsContracting := [1]
  rhsContracting := [0]
  lhsNonContracting := [0]
  rhsNonContracting := [1]
  lhsBatch := []
  rhsBatch := []
  wf := dot_S32x48_S48x12544_S32x12544_1_0_0_1_n_n_wf
def dot_S16x32_S32x12544_S16x12544_1_0_0_1_n_n : DotDims S16x32 S32x12544 S16x12544 where
  lhsContracting := [1]
  rhsContracting := [0]
  lhsNonContracting := [0]
  rhsNonContracting := [1]
  lhsBatch := []
  rhsBatch := []
  wf := dot_S16x32_S32x12544_S16x12544_1_0_0_1_n_n_wf

abbrev win0_0 : Pipeline.Window sig grid0 :=
  Pipeline.Window.ofSpec (Memref.whole main_v25) S2x12544.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1x48x12544.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S32x48.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S32x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S32x9.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S32x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S16x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S16x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S1x16x12544.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== Proof.RefEntry.lean ====
/-
  The reference program's buffer contents at the moment its one kernel region is entered: the argument arrays
  pushed through the host operations that precede the region — the transpose to channels-last, the two zero
  pads, the 2×2 re-tiling into four shifted slices stacked and re-laid as a [48, 12544] patch matrix per image,
  and the lane masks built from an iota modulo the row width —, as a valuation of the TensorCore buffers.
  Stated once here so that the frame of the region and the reading of the patch matrix at an index are both
  about the same contents.
-/
import proofs.«150594_g2000309665041701_pallasbulk_1097_2_alg».proof.Proof.Gen.ReferenceIdeal.Launch

noncomputable section

namespace Cert.ReferenceIdeal.Hand

open Idealize.ShloMosaic Idealize.ShloMosaic.TcCoe Idealize.SL.Sem
open Cert.ReferenceIdeal Cert.ReferenceIdeal.Gen

variable {F : FTy → Type} [FloatOps F]
variable (m : (ℓ : Loc nD τ sig) → Buf (Elt F) ℓ)

/-- Core `c`'s TensorCore buffers when the region is entered: the launch contents after the seven host stretches
    that come before it, in program order. -/
abbrev V0 (c : Dev nD) : Valuation τ sig (Elt F) :=
  StableHlo.after (List.flatten [hostOps0, hostOps0_1, hostOps0_2, hostOps0_3, hostOps0_4, hostOps0_5, hostOps0_6]) (fun b => m (c, b))

/-- The same contents read at one TensorCore buffer. -/
abbrev V (c : Dev nD) (b : Ref sig .tc) : Buf (Elt F) ((c : Thread nD τ).loc b) := V0 m c (Proc.devRef .tc b)

end Cert.ReferenceIdeal.Hand

end
-- ==== Proof.RefRuns.lean ====
/-
  The frame of the reference program's one kernel region, first part: what the whole-body run and the frame
  itself are stated over.

  @main is seven stretches of host operations, the region, and one more stretch. Here: none of the stretches
  allocates; @main reduces to the region continued by the last stretch; that stretch touches only the pipeline's
  arrays and the buffers that bypass it, and writes none of the windows' arrays; no stretch writes an argument
  array, so each argument is found by the region, and left after it, as launched; a window's block at a grid
  point is read off its array as the region finds it, and an input window's staging buffer holds exactly that
  block at every point, fetched there or not; a run to the library's frame post, read at the argument arrays
  (main_arg1 … main_arg6 are staged by windows 2 … 7, main_arg0 by none), is the frame claim's post; the staging
  memrefs the pipeline passes the body at a point, the scratch operand, and the invariant that lends the body
  its scratch at some contents.
-/
import proofs.«150594_g2000309665041701_pallasbulk_1097_2_alg».proof.Proof.RefEntry
import proofs.«150594_g2000309665041701_pallasbulk_1097_2_alg».proof.Proof.Gen.ReferenceIdeal.Launch
import proofs.«150594_g2000309665041701_pallasbulk_1097_2_alg».proof.Proof.Gen.ReferenceIdeal.Skeleton
import proofs.«150594_g2000309665041701_pallasbulk_1097_2_alg».proof.Proof.Gen.ReferenceIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of 12544 columns: the structural recursion goes once per coordinate of the long axis
set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- No host operation allocates a buffer: stretch by stretch, each operation's set of fresh buffers is empty. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main around the region, at any variants `𝒱₀`: the seven stretches before it take the launch contents to `V`,
    and what is left to run is the region continued by the one stretch after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The stretch after the region touches the pipeline's arrays and the bypassing buffers only: its operation's
    buffers are unscoped TensorCore references, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: the reshape writes only its result main_v27, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0` (each writes its own result buffer only, and none of the
    53 results is an argument): the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- `main_arg0` is no window's array, so the region's write-backs leave it alone, and the stretch after the region
    writes main_v27 only: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 (the lane masks): its current staging buffer holds its block at every point, fetched there or not,
    for any proof data whose array is `V`'s (`hA`) and whose body leaves the block in place (`hafter`): where the
    window is not fetched its block index has not moved, so what the last fetch brought is still the block; the
    window is never cut by the array's end and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 (the patch matrix, one image a point): the same. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 (`main_arg1`, whole): the same. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 (`main_arg2`, whole): the same. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4 (`main_arg3`, whole): the same. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5 (`main_arg4`, whole): the same. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6 (`main_arg5`, whole): the same. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7 (`main_arg6`, whole): the same. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to the
    library's frame post is the frame claim's post. `main_arg0` is staged by no window: the post's second clause
    gives what the stretch after the region leaves there, which is the launch contents (`W_main_arg0`).
    `main_arg1` … `main_arg6` are the arrays of input windows 2 … 7: an input window's array ends as the proof
    data has it (`Dat.arrAt_in`), that is as the region found it (`hA`), that is as launched (`V_main_argK`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(((h c).2 main_arg0 (Pipeline.mem_restRefs_of main_arg0 (by decide) (by decide))).trans (W_main_arg0 m dats c)),
      ((h c).1 2).trans (((dats 0 c).arrAt_in 2 rfl _).trans ((hA c 2).trans (V_main_arg1 m c))),
      ((h c).1 3).trans (((dats 0 c).arrAt_in 3 rfl _).trans ((hA c 3).trans (V_main_arg2 m c))),
      ((h c).1 4).trans (((dats 0 c).arrAt_in 4 rfl _).trans ((hA c 4).trans (V_main_arg3 m c))),
      ((h c).1 5).trans (((dats 0 c).arrAt_in 5 rfl _).trans ((hA c 5).trans (V_main_arg4 m c))),
      ((h c).1 6).trans (((dats 0 c).arrAt_in 6 rfl _).trans ((hA c 6).trans (V_main_arg5 m c))),
      ((h c).1 7).trans (((dats 0 c).arrAt_in 7 rfl _).trans ((hA c 7).trans (V_main_arg6 m c)))⟩) h

/-! ## The kernel body on any staging memrefs -/

/-- One staging buffer of output window 8, through which its contents are stated (a whole buffer's view read back
    after covering writes does not depend on which buffer it is). -/
abbrev VO0_8 : View sig .tc .vmem S1x16x12544 .f32 := (Memref.whole cc0_stg8_0 : Memref sig .tc .vmem S1x16x12544 .f32).view
/-- Each window's current staging memref at point `t`, spelled as the pipeline passes it to the body, and its wholeness. -/
abbrev ms0_0 (t : Fin cfg0.N) : Memref sig .tc .vmem S2x12544 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x48x12544 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x48 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x9 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x32 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x16x12544 .f32 := win0_8.stage (cfg0.slots t 8)
abbrev hs0_8 (t : Fin cfg0.N) : (ms0_8 t).IsWhole := hstage0_8 ((cfg0.slots t 8).cast nbuf0_8)
/-- The scratch operand: a whole scoped buffer of the kernel's own, [32, 12800], passed beside the windows. -/
abbrev scM0_0 : Memref sig .tc .vmem S32x12800 .f32 := Memref.whole cc0_scratch0

/-- The frame invariant with the scratch operand as a memref owned at some contents: the scoped rest of the core is
    the one buffer `cc0_scratch0`, and owning a whole buffer's memref is owning the buffer. What the body obligation
    hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.ReferenceIdeal.Hand

end
-- ==== Proof.RefRunA.lean ====
/-
  The frame of the reference program's one kernel region, second part: the whole body run on any whole staging
  memrefs.

  Given the eight input memrefs owned at contents x0 … x7, the output memref and the scratch memref owned at
  anything, the body runs to any continuation that is given back the inputs as they were, the scratch at some
  contents, and the output buffer with a list of pieces written over what it held. The body is two printed parts
  and a tail: loads of the inputs, three stores into the scratch (two 128-column margins and the 12544-column
  middle), shifted loads of the scratch, and one store of the whole [1, 16, 12544] block into the output. The
  list of pieces is found by the run itself, which is why it is the first component of a subtype whose second
  component is the run.
-/
import proofs.«150594_g2000309665041701_pallasbulk_1097_2_alg».proof.Proof.RefRuns

-- membership in a rectangle of 12544 columns: the structural recursion goes once per coordinate of the long axis
set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is long (one step per load and store of the three parts)
set_option maxHeartbeats 1000000 in
/-- What the body's one store leaves in the output's staging memref, as pieces (last first), WITH the proof that on
    whole staging memrefs — the inputs' at their contents, the output's at anything, the scratch at anything — the
    body runs to the continuation holding the inputs' as they were, the scratch at some contents, and the output's
    buffer with those pieces written. A whole memref's contents are its buffer read through its view, so each input
    is first restated as its buffer holding the unread contents; every load then reads a rectangle of a buffer that is
    owned, every store writes one, and the continuation is given the buffers back, the inputs' read again. -/
noncomputable def kernelRun0_A (c : Dev nD) (i : grid0.Coords) (arg1 : Memref sig .tc .vmem S2x12544 .f32) (harg1 : arg1.IsWhole) (arg2 : Memref sig .tc .vmem S1x48x12544 .f32) (harg2 : arg2.IsWhole) (arg3 : Memref sig .tc .vmem S32x48 .f32) (harg3 : arg3.IsWhole) (arg4 : Memref sig .tc .vmem S32x1 .f32) (harg4 : arg4.IsWhole) (arg5 : Memref sig .tc .vmem S32x9 .f32) (harg5 : arg5.IsWhole) (arg6 : Memref sig .tc .vmem S32x1 .f32) (harg6 : arg6.IsWhole) (arg7 : Memref sig .tc .vmem S16x32 .f32) (harg7 : arg7.IsWhole) (arg8 : Memref sig .tc .vmem S16x1 .f32) (harg8 : arg8.IsWhole) (arg9 : Memref sig .tc .vmem S1x16x12544 .f32) (harg9 : arg9.IsWhole) (arg10 : Memref sig .tc .vmem S32x12800 .f32) (harg10 : arg10.IsWhole)
    (x0 : Vec F S2x12544 .f32) (x1 : Vec F S1x48x12544 .f32) (x2 : Vec F S32x48 .f32) (x3 : Vec F S32x1 .f32) (x4 : Vec F S32x9 .f32) (x5 : Vec F S32x1 .f32) (x6 : Vec F S16x32 .f32) (x7 : Vec F S16x1 .f32) :
    { L8 : List (View.Piece (Elt F) S1x16x12544 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ d, owns (c : Thread nD τ) arg10 fullShare d)) -∗ K ⟨⟩))
          ⊢ wp frame (wpE (defs₀ (F := F)) Variants.none c none) E (cc0__stem_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__stem_kernel_eq_skeleton]; unfold cc0__stem_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _, _; isplitr; swap; · iexact HS0
    ipureintro; rfl

end Cert.ReferenceIdeal.Hand

end
-- ==== Proof.RefFrame.lean ====
/-
  The frame of the reference program's one kernel region, last part: the frame claim itself.

  The body's one store to the output covers the whole [1, 16, 12544] block, so what the output's staging buffer
  holds after the body is the store's pieces read back, whatever it held before (`out0_A_8`), point by point
  (`outsAt0`). The pipeline's proof data (`dats`): the arrays as the region finds them; after the body at a point
  each input window's buffer at its block and the output's at `outsAt0`; the invariant that lends the body its
  scratch; nothing owed; full shares. With it the body obligation holds at every point (the whole-body run, the
  inputs' buffers holding their blocks), so every weakly fair execution of @main on the TensorCores terminates
  with every array of the pipeline at what the library computes from the proof data and every other unscoped
  buffer as the stretch after the region leaves it (`run_main`); read at the seven argument arrays, that is the
  frame claim: each ends as launched (`frame`).
-/
import proofs.«150594_g2000309665041701_pallasbulk_1097_2_alg».proof.Proof.RefRunA

-- membership in a rectangle of 12544 columns: the structural recursion goes once per coordinate of the long axis
set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces for the output tile its block: there is one store, of the whole `S1x16x12544` rectangle, so the
    pieces' rectangles partition the block and every index lies in one of them. -/
theorem cover0_A_8 (c : Dev nD) (i : grid0.Coords) (arg1 : Memref sig .tc .vmem S2x12544 .f32) (harg1 : arg1.IsWhole) (arg2 : Memref sig .tc .vmem S1x48x12544 .f32) (harg2 : arg2.IsWhole) (arg3 : Memref sig .tc .vmem S32x48 .f32) (harg3 : arg3.IsWhole) (arg4 : Memref sig .tc .vmem S32x1 .f32) (harg4 : arg4.IsWhole) (arg5 : Memref sig .tc .vmem S32x9 .f32) (harg5 : arg5.IsWhole) (arg6 : Memref sig .tc .vmem S32x1 .f32) (harg6 : arg6.IsWhole) (arg7 : Memref sig .tc .vmem S16x32 .f32) (harg7 : arg7.IsWhole) (arg8 : Memref sig .tc .vmem S16x1 .f32) (harg8 : arg8.IsWhole) (arg9 : Memref sig .tc .vmem S1x16x12544 .f32) (harg9 : arg9.IsWhole) (arg10 : Memref sig .tc .vmem S32x12800 .f32) (harg10 : arg10.IsWhole)
    (x0 : Vec F S2x12544 .f32) (x1 : Vec F S1x48x12544 .f32) (x2 : Vec F S32x48 .f32) (x3 : Vec F S32x1 .f32) (x4 : Vec F S32x9 .f32) (x5 : Vec F S32x1 .f32) (x6 : Vec F S16x32 .f32) (x7 : Vec F S16x1 .f32) (y : S1x16x12544.Idx) :
    ∃ pc ∈ (kernelRun0_A c i arg1 harg1 arg2 harg2 arg3 harg3 arg4 harg4 arg5 harg5 arg6 harg6 arg7 harg7 arg8 harg8 arg9 harg9 arg10 harg10 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3 x4 x5 x6 x7).1 S1x16x12544.size (by sl_kernel_rfl) y

/-- What the run leaves in the output's staging buffer: its pieces read back over junk (the pieces cover the block, so
    what was there before does not show). -/
def out0_A_8 (c : Dev nD) (i : grid0.Coords) (arg1 : Memref sig .tc .vmem S2x12544 .f32) (harg1 : arg1.IsWhole) (arg2 : Memref sig .tc .vmem S1x48x12544 .f32) (harg2 : arg2.IsWhole) (arg3 : Memref sig .tc .vmem S32x48 .f32) (harg3 : arg3.IsWhole) (arg4 : Memref sig .tc .vmem S32x1 .f32) (harg4 : arg4.IsWhole) (arg5 : Memref sig .tc .vmem S32x9 .f32) (harg5 : arg5.IsWhole) (arg6 : Memref sig .tc .vmem S32x1 .f32) (harg6 : arg6.IsWhole) (arg7 : Memref sig .tc .vmem S16x32 .f32) (harg7 : arg7.IsWhole) (arg8 : Memref sig .tc .vmem S16x1 .f32) (harg8 : arg8.IsWhole) (arg9 : Memref sig .tc .vmem S1x16x12544 .f32) (harg9 : arg9.IsWhole) (arg10 : Memref sig .tc .vmem S32x12800 .f32) (harg10 : arg10.IsWhole)
    (x0 : Vec F S2x12544 .f32) (x1 : Vec F S1x48x12544 .f32) (x2 : Vec F S32x48 .f32) (x3 : Vec F S32x1 .f32) (x4 : Vec F S32x9 .f32) (x5 : Vec F S32x1 .f32) (x6 : Vec F S16x32 .f32) (x7 : Vec F S16x1 .f32) : Vec F S1x16x12544 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 x0 x1 x2 x3 x4 x5 x6 x7).1)

/-! ## What the output holds after each point -/

/-- What the output's staging buffer holds after the body at point `t`: the run's contents at the point's memrefs and
    the eight input blocks there. -/
def outsAt0 (c : Dev nD) (t : Fin cfg0.N) : Vec F S1x16x12544 .f32 :=
  out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t)

/-! ## The pipeline's proof data -/

/-- The proof data of the one pipeline on core `c`: the arrays as the region finds them (`V`); after the body at point
    `t` each input's buffer at its block and the output's at `outsAt0`; the invariant that of a kernel with a scratch
    operand (the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t)
  Φ _ := Pipeline.ΦA spec0 c
  q _ := fullShare
  owed _ := 0

/-- The proof data's arrays are the region-entry contents: the definition's first field, projected, so that `V` — a
    fold over the 53 host operations before the region — is never unfolded to see it. -/
theorem A_eq (c : Dev nD) (w : Fin cfg0.W) : (dats m 0 c).A w = V m c (Pipeline.arrRef spec0 w) := by
  dsimp only [dats]

/-- What the body leaves, window by window: the definition's second field at each of the nine windows. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t) := by dsimp only [dats]

/-- Each input's current staging buffer holds its block at every point, fetched there or not (`before0_W_of` at this
    proof data). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`: the invariant, what is owed, and each window's current staging memref
    owned at what the proof data says it holds before the body, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns: the same at the next point, each memref at what the proof data says the body leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
/-- The body at any point. The inputs' memrefs hold their blocks (`before0_W`), so the whole-body run applies at those
    blocks; the invariant hands the body its scratch at some contents (and keeps the generator register) and takes
    the scratch back at some contents (`PhiA0_eq`); the core owes nothing throughout, and the invariant and the
    debt do not depend on the point. The output's memref comes back as its buffer with the run's pieces written over
    what it held: the pieces cover the block (`cover0_A_8`), so read through the view that is `outsAt0`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outsAt0
  unfold out0_A_8
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  iintro ⟨H0, H1, H2, H3, H4, H5, H6, H7, ⟨%e8, H8⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (cover0_A_8 c _ _ _ _ _ _ _ _ _ _ _ _ _ _ _ _ _ _ _ _ _ _ _ _ _ _ _ _ _)

/-- The library's body obligation, at every point: its two conjunctions over the nine windows written out one by one
    are `bodyPre` and `bodyPost`. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every array of the pipeline at what the library computes
    from the proof data and every other unscoped buffer as the stretch after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.ReferenceIdeal.Hand.run_main' depends on axioms: [propext, Classical.choice, Quot.sound] -/
#guard_msgs in #print axioms run_main

/-- THE FRAME: the reference program's frame claim at any `F`: from any memory with zero counters, every weakly fair
    execution of @main terminates with each of the seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.ReferenceIdeal.Hand

end
-- ==== Proof.ValueK.lean ====
/-
  What the kernel's body leaves in its output block, as a function of the blocks it reads.

  The body computes, per image, a [32, 12544] array `Y` (the first convolution plus its bias, clipped to [0, 6]),
  writes it into the middle of a [32, 12800] scratch row buffer between two zero bands of 128 lanes, and reads nine
  shifted windows of that buffer back (offsets 128 + 112·(kh − 1) + (kw − 1)); the windows are scaled by the nine
  depthwise weights, summed column group by column group, the left and right groups multiplied by the two lane-mask
  rows, biased and clipped again, multiplied by the [16, 32] reduction matrix and biased: `tail`. `Y` itself is
  `clipb (conv …) b1`, where `conv` is the sum of two products plus the lane-masked sum of two more, each a
  [32, 12] weight group against a [12, 12544] window of the 2×2 re-tiled image at flat shifts 0, 112, 1 and 113.
  The run's found piece for the output is read back as exactly this composition (`out_eq`).
-/
import proofs.«150594_g2000309665041701_pallasbulk_1097_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.ValueK

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The scratch row buffer after the body's three stores: `Y` at lanes [128, 12672), zeros on the 128 lanes before
    and the 128 lanes after. -/
def scr (Y : FVec F S32x12544 .f32) : S32x12800.Idx → Elt F .f32 :=
  View.canon
    [⟨Rect.unit ![0, 128] ![32, 12544] inb_S32x12800_S32x12544_0_128, Y⟩,
     ⟨Rect.unit ![0, 12672] ![32, 128] inb_S32x12800_S32x128_0_12672, k0_pay8⟩,
     ⟨Rect.unit ![0, 0] ![32, 128] inb_S32x12800_S32x128_0_0, k0_pay7⟩]

/-- The depthwise 3×3 stage and the 1×1 reduction over the nine shifted windows of the scratch buffer: mask rows
    `r0`, `r1`, depthwise weights `wdw` and bias `bdw`, reduction weights `w3` and bias `b3`. -/
def tail (r0 r1 : Vec F S1x12544 .f32) (wdw : Vec F S32x9 .f32) (Y : FVec F S32x12544 .f32) (bdw : Vec F S32x1 .f32)
    (w3 : Vec F S16x32 .f32) (b3 : Vec F S16x1 .f32) : FVec F S1x16x12544 .f32 :=
  k0_pay1
    (k0_pay14 (k0_pay2 r0) (k0_pay3 r1) wdw
      (k0_pay10 wdw (fun j : S32x12544.Idx => scr Y ((Rect.unit (s := S32x12800) ![0, 15] ![32, 12544] inb_S32x12800_S32x12544_0_15).idx j)))
      (k0_pay11 wdw (fun j : S32x12544.Idx => scr Y ((Rect.unit (s := S32x12800) ![0, 16] ![32, 12544] inb_S32x12800_S32x12544_0_16).idx j)))
      (k0_pay12 wdw (fun j : S32x12544.Idx => scr Y ((Rect.unit (s := S32x12800) ![0, 17] ![32, 12544] inb_S32x12800_S32x12544_0_17).idx j)))
      (fun j : S32x12544.Idx => scr Y ((Rect.unit (s := S32x12800) ![0, 127] ![32, 12544] inb_S32x12800_S32x12544_0_127).idx j))
      (k0_pay13 wdw)
      (fun j : S32x12544.Idx => scr Y ((Rect.unit (s := S32x12800) ![0, 128] ![32, 12544] inb_S32x12800_S32x12544_0_128).idx j))
      (fun j : S32x12544.Idx => scr Y ((Rect.unit (s := S32x12800) ![0, 129] ![32, 12544] inb_S32x12800_S32x12544_0_129).idx j))
      (fun j : S32x12544.Idx => scr Y ((Rect.unit (s := S32x12800) ![0, 239] ![32, 12544] inb_S32x12800_S32x12544_0_239).idx j))
      (fun j : S32x12544.Idx => scr Y ((Rect.unit (s := S32x12800) ![0, 240] ![32, 12544] inb_S32x12800_S32x12544_0_240).idx j))
      (fun j : S32x12544.Idx => scr Y ((Rect.unit (s := S32x12800) ![0, 241] ![32, 12544] inb_S32x12800_S32x12544_0_241).idx j))
      bdw w3)
    b3

/-- Bias and clip to [0, 6]: what the body does to the first convolution's sum before it stores it. -/
def clipb (Z : FVec F S32x12544 .f32) (b1 : Vec F S32x1 .f32) : FVec F S32x12544 .f32 :=
  shapeCast S32x12544
    (minimumf (broadcast S32x12544 (Scalar.ofBits .f32 0x40C00000#32))
      (maximumf (broadcast S32x12544 (Scalar.ofBits .f32 0x00000000#32))
        (addf Z (broadcastTo S32x12544 b1 broadcasts_S32x1_S32x12544))))
    shapeCasts_S32x12544_S32x12544

/-- The first convolution as the kernel sums it: two weight groups against the unshifted and the one-row-shifted
    window, plus the lane-masked sum of the two groups against the windows shifted one lane further. -/
def conv (a0 a1 a2 a3 : Vec F S1x32x12 .f32) (s0 s1 s2 s3 : Vec F S1x12x12544 .f32) (mrow : Vec F S1x12544 .f32) :
    FVec F S32x12544 .f32 :=
  addf (k0_pay4 a0 s0 a2 s2) (mulf (k0_pay5 a1 s1 a3 s3) (k0_pay6 mrow))

theorem pay9_eq (v14 v25 v26 : FVec F S32x12544 .f32) (v29 : Vec F S32x1 .f32) :
    k0_pay9 v14 v25 v26 v29 = clipb (addf v14 (mulf v25 v26)) v29 := rfl

/-- The output block the run finds, read back as `tail` over `clipb (conv …)` of the input blocks. -/
theorem out_eq (c : Dev nD) (i : grid0.Coords) (arg1 : Memref sig .tc .vmem S2x12544 .f32) (harg1 : arg1.IsWhole) (arg2 : Memref sig .tc .vmem S1x12x12768 .f32) (harg2 : arg2.IsWhole) (arg3 : Memref sig .tc .vmem S4x32x12 .f32) (harg3 : arg3.IsWhole) (arg4 : Memref sig .tc .vmem S32x1 .f32) (harg4 : arg4.IsWhole) (arg5 : Memref sig .tc .vmem S32x9 .f32) (harg5 : arg5.IsWhole) (arg6 : Memref sig .tc .vmem S32x1 .f32) (harg6 : arg6.IsWhole) (arg7 : Memref sig .tc .vmem S16x32 .f32) (harg7 : arg7.IsWhole) (arg8 : Memref sig .tc .vmem S16x1 .f32) (harg8 : arg8.IsWhole) (arg9 : Memref sig .tc .vmem S1x16x12544 .f32) (harg9 : arg9.IsWhole) (arg10 : Memref sig .tc .vmem S32x12800 .f32) (harg10 : arg10.IsWhole)
    (x0 : Vec F S2x12544 .f32) (x1 : Vec F S1x12x12768 .f32) (x2 : Vec F S4x32x12 .f32) (x3 : Vec F S32x1 .f32) (x4 : Vec F S32x9 .f32) (x5 : Vec F S32x1 .f32) (x6 : Vec F S16x32 .f32) (x7 : Vec F S16x1 .f32) :
    out0_A_8 c i arg1 harg1 arg2 harg2 arg3 harg3 arg4 harg4 arg5 harg5 arg6 harg6 arg7 harg7 arg8 harg8 arg9 harg9 arg10 harg10 x0 x1 x2 x3 x4 x5 x6 x7
      = tail (View.ld x0 (Rect.unit ![0, 0] ![1, 12544] inb_S2x12544_S1x12544_0_0))
          (View.ld x0 (Rect.unit ![1, 0] ![1, 12544] inb_S2x12544_S1x12544_1_0)) x4
          (clipb (conv (View.ld x2 (Rect.unit ![0, 0, 0] ![1, 32, 12] inb_S4x32x12_S1x32x12_0_0_0))
              (View.ld x2 (Rect.unit ![1, 0, 0] ![1, 32, 12] inb_S4x32x12_S1x32x12_1_0_0))
              (View.ld x2 (Rect.unit ![2, 0, 0] ![1, 32, 12] inb_S4x32x12_S1x32x12_2_0_0))
              (View.ld x2 (Rect.unit ![3, 0, 0] ![1, 32, 12] inb_S4x32x12_S1x32x12_3_0_0))
              (View.ld x1 (Rect.unit ![0, 0, 0] ![1, 12, 12544] inb_S1x12x12768_S1x12x12544_0_0_0))
              (View.ld x1 (Rect.unit ![0, 0, 1] ![1, 12, 12544] inb_S1x12x12768_S1x12x12544_0_0_1))
              (View.ld x1 (Rect.unit ![0, 0, 112] ![1, 12, 12544] inb_S1x12x12768_S1x12x12544_0_0_112))
              (View.ld x1 (Rect.unit ![0, 0, 113] ![1, 12, 12544] inb_S1x12x12768_S1x12x12544_0_0_113))
              (View.ld x0 (Rect.unit ![1, 0] ![1, 12544] inb_S2x12544_S1x12544_1_0))) x3)
          x5 x6 x7 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 x0 x1 x2 x3 x4 x5 x6 x7)]
  unfold kernelRun0_A
  dsimp only
  sl_unfold_words
  rw [View.canon_unit_zero hz3]
  simp only [View.readAt_eq_ld, harg1.read_unread, harg2.read_unread, harg3.read_unread, harg4.read_unread,
    harg5.read_unread, harg6.read_unread, harg7.read_unread, harg8.read_unread, View.readCov_eq_canon',
    View.ld_unit_zero (S := S32x1) hz2, View.ld_unit_zero (S := S32x9) hz2, View.ld_unit_zero (S := S16x32) hz2,
    View.ld_unit_zero (S := S16x1) hz2]
  rw [pay9_eq]
  rfl

end Cert.KernelIdeal.ValueK

end
-- ==== Proof.BlocksK.lean ====
/-
  The kernel program's input blocks as the region-entry arrays read at an index. Seven of the eight input windows have
  a constant block index zero and a block as large as their array: through such a window the body sees the whole array
  at every grid point. The eighth, over the re-tiled image, has block index (t, 0, 0) at point `t` and a block of one
  image: entry (0, k, q) of the block is entry (t, k, q) of the array. A load of a block through a unit-stride
  rectangle reads the block at the rectangle's image of the index (`ld_apply_of`).
-/
import proofs.«150594_g2000309665041701_pallasbulk_1097_2_alg».proof.Proof.ValueK
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ValueK

open Cert.KernelIdeal Cert.KernelIdeal.Gen

variable {F : FTy → Type} [FloatOps F]
variable (m : (ℓ : Loc nD τ sig) → Buf (Elt F) ℓ)

/-- The input windows' block indices over the grid: all zero, but for the image window's leading one, which is the
    point's number. -/
theorem idxIn : ∀ t : Fin cfg0.N,
    (win0_0.index t (0 : Fin 2) = 0 ∧ win0_0.index t (1 : Fin 2) = 0)
    ∧ (win0_1.index t (0 : Fin 3) = t.val ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- The mask window is the whole mask array. -/
theorem iblk0_eq (c : Dev nD) (t : Fin cfg0.N) :
    (iblk m c 0 t : S2x12544.Idx → Elt F .f32) = (V m c main_v16 : S2x12544.Idx → Elt F .f32) := by
  obtain ⟨⟨e0, e1⟩, -⟩ := idxIn t
  have hz : (fun a => win0_0.index t a * main_v16.ty.shape.size a) = fun _ => 0 := funext fun a => by
    match a with
    | ⟨0, _⟩ => show win0_0.index t (0 : Fin 2) * 2 = 0; omega
    | ⟨1, _⟩ => show win0_0.index t (1 : Fin 2) * 12544 = 0; omega
  exact Memref.read_access_unit_zero (Elt F) main_v16 hz (fun a => by rw [congrFun hz a]; simp) (V m c main_v16)

/-- The weight-group window is the whole regrouped weight array. -/
theorem iblk2_eq (c : Dev nD) (t : Fin cfg0.N) :
    (iblk m c 2 t : S4x32x12.Idx → Elt F .f32) = (V m c main_v6 : S4x32x12.Idx → Elt F .f32) := by
  obtain ⟨-, -, ⟨e0, e1, e2⟩, -⟩ := idxIn t
  have hz : (fun a => win0_2.index t a * main_v6.ty.shape.size a) = fun _ => 0 := funext fun a => by
    match a with
    | ⟨0, _⟩ => show win0_2.index t (0 : Fin 3) * 4 = 0; omega
    | ⟨1, _⟩ => show win0_2.index t (1 : Fin 3) * 32 = 0; omega
    | ⟨2, _⟩ => show win0_2.index t (2 : Fin 3) * 12 = 0; omega
  exact Memref.read_access_unit_zero (Elt F) main_v6 hz (fun a => by rw [congrFun hz a]; simp) (V m c main_v6)

/-- The first bias window is the whole bias column. -/
theorem iblk3_eq (c : Dev nD) (t : Fin cfg0.N) :
    (iblk m c 3 t : S32x1.Idx → Elt F .f32) = (V m c main_arg2 : S32x1.Idx → Elt F .f32) := by
  obtain ⟨-, -, -, ⟨e0, e1⟩, -⟩ := idxIn t
  have hz : (fun a => win0_3.index t a * main_arg2.ty.shape.size a) = fun _ => 0 := funext fun a => by
    match a with
    | ⟨0, _⟩ => show win0_3.index t (0 : Fin 2) * 32 = 0; omega
    | ⟨1, _⟩ => show win0_3.index t (1 : Fin 2) * 1 = 0; omega
  exact Memref.read_access_unit_zero (Elt F) main_arg2 hz (fun a => by rw [congrFun hz a]; simp) (V m c main_arg2)

/-- The depthwise-weight window is the whole [32, 9] array. -/
theorem iblk4_eq (c : Dev nD) (t : Fin cfg0.N) :
    (iblk m c 4 t : S32x9.Idx → Elt F .f32) = (V m c main_arg3 : S32x9.Idx → Elt F .f32) := by
  obtain ⟨-, -, -, -, ⟨e0, e1⟩, -⟩ := idxIn t
  have hz : (fun a => win0_4.index t a * main_arg3.ty.shape.size a) = fun _ => 0 := funext fun a => by
    match a with
    | ⟨0, _⟩ => show win0_4.index t (0 : Fin 2) * 32 = 0; omega
    | ⟨1, _⟩ => show win0_4.index t (1 : Fin 2) * 9 = 0; omega
  exact Memref.read_access_unit_zero (Elt F) main_arg3 hz (fun a => by rw [congrFun hz a]; simp) (V m c main_arg3)

/-- The depthwise-bias window is the whole bias column. -/
theorem iblk5_eq (c : Dev nD) (t : Fin cfg0.N) :
    (iblk m c 5 t : S32x1.Idx → Elt F .f32) = (V m c main_arg4 : S32x1.Idx → Elt F .f32) := by
  obtain ⟨-, -, -, -, -, ⟨e0, e1⟩, -⟩ := idxIn t
  have hz : (fun a => win0_5.index t a * main_arg4.ty.shape.size a) = fun _ => 0 := funext fun a => by
    match a with
    | ⟨0, _⟩ => show win0_5.index t (0 : Fin 2) * 32 = 0; omega
    | ⟨1, _⟩ => show win0_5.index t (1 : Fin 2) * 1 = 0; omega
  exact Memref.read_access_unit_zero (Elt F) main_arg4 hz (fun a => by rw [congrFun hz a]; simp) (V m c main_arg4)

/-- The reduction-weight window is the whole [16, 32] matrix. -/
theorem iblk6_eq (c : Dev nD) (t : Fin cfg0.N) :
    (iblk m c 6 t : S16x32.Idx → Elt F .f32) = (V m c main_arg5 : S16x32.Idx → Elt F .f32) := by
  obtain ⟨-, -, -, -, -, -, ⟨e0, e1⟩, -⟩ := idxIn t
  have hz : (fun a => win0_6.index t a * main_arg5.ty.shape.size a) = fun _ => 0 := funext fun a => by
    match a with
    | ⟨0, _⟩ => show win0_6.index t (0 : Fin 2) * 16 = 0; omega
    | ⟨1, _⟩ => show win0_6.index t (1 : Fin 2) * 32 = 0; omega
  exact Memref.read_access_unit_zero (Elt F) main_arg5 hz (fun a => by rw [congrFun hz a]; simp) (V m c main_arg5)

/-- The reduction-bias window is the whole bias column. -/
theorem iblk7_eq (c : Dev nD) (t : Fin cfg0.N) :
    (iblk m c 7 t : S16x1.Idx → Elt F .f32) = (V m c main_arg6 : S16x1.Idx → Elt F .f32) := by
  obtain ⟨-, -, -, -, -, -, -, e0, e1⟩ := idxIn t
  have hz : (fun a => win0_7.index t a * main_arg6.ty.shape.size a) = fun _ => 0 := funext fun a => by
    match a with
    | ⟨0, _⟩ => show win0_7.index t (0 : Fin 2) * 16 = 0; omega
    | ⟨1, _⟩ => show win0_7.index t (1 : Fin 2) * 1 = 0; omega
  exact Memref.read_access_unit_zero (Elt F) main_arg6 hz (fun a => by rw [congrFun hz a]; simp) (V m c main_arg6)

/-- The image window at point `t` is image `t` of the re-tiled array. -/
theorem iblk1_apply (c : Dev nD) (t : Fin cfg0.N) (y : S1x12x12768.Idx) (j : S64x12x12768.Idx)
    (h0 : (j 0).val = t.val) (h1 : (j 1).val = (y 1).val) (h2 : (j 2).val = (y 2).val) :
    (iblk m c 1 t : S1x12x12768.Idx → Elt F .f32) y = (V m c main_v3 : S64x12x12768.Idx → Elt F .f32) j := by
  obtain ⟨-, ⟨e0, e1, e2⟩, -⟩ := idxIn t
  have hy0 : (y 0 : ℕ) < 1 := (y 0).isLt
  unfold iblk
  rw [View.read_apply]
  show V m c main_v3 _ = V m c main_v3 j
  congr 1
  funext a; apply Fin.ext
  match a with
  | ⟨0, _⟩ => show win0_1.index t (0 : Fin 3) * 1 + 1 * (y 0).val = (j 0).val; omega
  | ⟨1, _⟩ => show win0_1.index t (1 : Fin 3) * 12 + 1 * (y 1).val = (j 1).val; omega
  | ⟨2, _⟩ => show win0_1.index t (2 : Fin 3) * 12768 + 1 * (y 2).val = (j 2).val; omega

/-- A load through a rectangle reads the loaded array at the rectangle's image of the index. -/
theorem ld_apply_of {Val : EltTy → Type} {e : EltTy} {S : Shape} (X : S.Idx → Val e) (r : Rect S) (y : r.shape.Idx) (k : S.Idx)
    (h : ∀ a, (r.emb y a).val = (k a).val) : View.ld X r y = X k := by
  show X (r.emb y) = X k
  congr 1
  funext a; exact Fin.ext (h a)

/-- A rank-3 load at offsets (o0, o1, o2), read at (y0, y1, y2), is the array at (o0 + y0, o1 + y1, o2 + y2). -/
theorem ld3_unit {Val : EltTy → Type} {e : EltTy} {n0 n1 n2 b0 b1 b2 : ℕ} (X : (⟨3, ![n0, n1, n2]⟩ : Shape).Idx → Val e)
    (o0 o1 o2 : ℕ) (inb) (y0 : Fin b0) (y1 : Fin b1) (y2 : Fin b2)
    (h0 : o0 + y0.val < n0) (h1 : o1 + y1.val < n1) (h2 : o2 + y2.val < n2) :
    View.ld X (Rect.unit (s := (⟨3, ![n0, n1, n2]⟩ : Shape)) ![o0, o1, o2] ![b0, b1, b2] inb) (ix3 y0 y1 y2)
      = X (ix3 ⟨o0 + y0.val, h0⟩ ⟨o1 + y1.val, h1⟩ ⟨o2 + y2.val, h2⟩) := by
  refine ld_apply_of X _ _ _ (fun a => ?_)
  rw [Rect.emb_apply]
  match a with
  | ⟨0, _⟩ => show o0 + 1 * y0.val = o0 + y0.val; omega
  | ⟨1, _⟩ => show o1 + 1 * y1.val = o1 + y1.val; omega
  | ⟨2, _⟩ => show o2 + 1 * y2.val = o2 + y2.val; omega

/-- A rank-2 load at offsets (o0, o1), read at (y0, y1), is the array at (o0 + y0, o1 + y1). -/
theorem ld2_unit {Val : EltTy → Type} {e : EltTy} {n0 n1 b0 b1 : ℕ} (X : (⟨2, ![n0, n1]⟩ : Shape).Idx → Val e)
    (o0 o1 : ℕ) (inb) (y0 : Fin b0) (y1 : Fin b1) (h0 : o0 + y0.val < n0) (h1 : o1 + y1.val < n1) :
    View.ld X (Rect.unit (s := (⟨2, ![n0, n1]⟩ : Shape)) ![o0, o1] ![b0, b1] inb) (ix2 y0 y1)
      = X (ix2 ⟨o0 + y0.val, h0⟩ ⟨o1 + y1.val, h1⟩) := by
  refine ld_apply_of X _ _ _ (fun a => ?_)
  rw [Rect.emb_apply]
  match a with
  | ⟨0, _⟩ => show o0 + 1 * y0.val = o0 + y0.val; omega
  | ⟨1, _⟩ => show o1 + 1 * y1.val = o1 + y1.val; omega

end Cert.KernelIdeal.ValueK

end
-- ==== Proof.Spec.lean ====
/-
  The index arithmetic of the stem's first convolution, 3×3 with stride 2 over a [3, 224, 224] image padded with
  zeros below and to the right, written once over natural numbers.

  Both programs multiply a [32, 48] weight matrix, columns ordered (pr, pc, ch) over a 4×4 patch (pr = 2·di + r2,
  pc = 2·dj + c2), into image entries at row 2·(i + di) + r2 and column 2·(j + dj) + c2 for the output position
  (i, j), flattened as p = 112·i + j. The reference lays the 48 patch entries out per position (`xpAt`); the kernel
  keeps only the 12 entries (r2, c2, ch) of the 2×2 re-tiling per flat position q (`xsAt`) and reaches the four
  (di, dj) groups as flat shifts q = p + 112·di + dj, the group's weights being the columns `kap g k` with
  g = 2·di + dj and k = 6·r2 + 3·c2 + ch.
-/
import Idealize.ShloMosaic.Lib.ValueIdx
import Idealize.ShloMosaic.PureOps.Ideal

noncomputable section

namespace Cert.Stem

open Idealize.ShloMosaic Idealize.ShloMosaic.ValueIdx

/-- Column of the [32, 48] weight matrix that shift group `g = 2·di + dj` pairs with row `k = 6·r2 + 3·c2 + ch`
    of the 2×2 re-tiling: 24·di + 12·r2 + 6·dj + 3·c2 + ch. -/
def kap (g k : ℕ) : ℕ := 24 * (g / 2) + 12 * (k / 6) + 6 * (g % 2) + 3 * ((k / 3) % 2) + k % 3

theorem kap_lt {g k : ℕ} (hg : g < 4) (hk : k < 12) : kap g k < 48 := by unfold kap; omega

/-- Entry (k, q) of the 2×2 re-tiling of an image `X ch h w`: channel k mod 3, row 2·(q / 112) + r2, column
    2·(q mod 112) + c2. -/
def xsAt (X : ℕ → ℕ → ℕ → EReal) (k q : ℕ) : EReal := X (k % 3) (2 * (q / 112) + k / 6) (2 * (q % 112) + (k / 3) % 2)

/-- Entry (K, p) of the 4×4 patch matrix of the same image: K = 24·di + 12·r2 + 6·dj + 3·c2 + ch. -/
def xpAt (X : ℕ → ℕ → ℕ → EReal) (K p : ℕ) : EReal :=
  X (K % 3) (2 * (p / 112 + K / 24) + (K / 12) % 2) (2 * (p % 112 + (K / 6) % 2) + (K / 3) % 2)

/-- Image `b` of a [64, 3, 224, 224] array as a total function of channel, row and column: zero outside the array. -/
def xpad (x : (⟨4, ![64, 3, 224, 224]⟩ : Shape).Idx → EReal) (b : ℕ) (ch h w : ℕ) : EReal :=
  if hb : b < 64 ∧ ch < 3 ∧ h < 224 ∧ w < 224 then x (ix4 ⟨b, hb.1⟩ ⟨ch, hb.2.1⟩ ⟨h, hb.2.2.1⟩ ⟨w, hb.2.2.2⟩) else 0

theorem xpad_col_ge (x : (⟨4, ![64, 3, 224, 224]⟩ : Shape).Idx → EReal) (b ch h w : ℕ) (hw : 224 ≤ w) :
    xpad x b ch h w = 0 := by
  unfold xpad; rw [dif_neg]; omega

end Cert.Stem

end
-- ==== Proof.HostK.lean ====
/-
  The kernel program's two re-laid arrays as its one region finds them, read at an index. The image
  f32[64, 3, 224, 224] is padded with four zero rows to [64, 3, 228, 224], split into 2×2 tiles
  (row = 2·i + r2, column = 2·j + c2), and laid out as [64, 12, 12768] with k = 6·r2 + 3·c2 + ch and q = 112·i + j:
  entry (b, k, q) is `xsAt (xpad x b) k q`. The weight matrix f32[32, 48] is regrouped as [4, 32, 12] with
  g = 2·di + dj and k = 6·r2 + 3·c2 + ch: entry (g, e, k) is column `kap g k` of row e. Each layout operation is read
  at an index by naming the operand's index with the same row-major position (a reshape) or the permuted
  coordinates (a transpose).
-/
import proofs.«150594_g2000309665041701_pallasbulk_1097_2_alg».proof.Proof.Gen.KernelIdeal.Frame
import proofs.«150594_g2000309665041701_pallasbulk_1097_2_alg».proof.Proof.Spec
import Idealize.ShloMosaic.Lib.ValueIdx
import Idealize.ShloMosaic.Lib.ValueIdxRank6
import Idealize.ShloMosaic.Lib.Pipeline.Value
import Idealize.ShloMosaic.Lib.KernelVsHost
import Idealize.ShloMosaic.Lib.Tactic
import Idealize.ShloMosaic.PureOps.Ideal.Laws

noncomputable section
open Idealize.ShloMosaic Idealize.ShloMosaic.TcCoe Idealize.SL.Sem Idealize.ShloMosaic.ValueIdx
open Cert.Stem

namespace Cert.KernelIdeal.HostK
open Cert.KernelIdeal Cert.KernelIdeal.Gen
variable (m : (ℓ : Loc nD τ sig) → Buf (Elt Ideal) ℓ) (c : Dev nD)

/-! ### The regrouped weights -/

/-- The weights as the region finds them: the [32, 48] argument reshaped to [32, 2, 2, 2, 2, 3], its axes permuted
    to (1, 3, 0, 2, 4, 5) and reshaped to [4, 32, 12]. -/
theorem wg_term :
    (V m c main_v6 : S4x32x12.Idx → EReal)
      = shapeCast S4x32x12 (transpose S2x2x32x2x2x3 [1, 3, 0, 2, 4, 5]
          (shapeCast S32x2x2x2x2x3 (m ((c : Thread nD τ).loc main_arg1) : S32x48.Idx → EReal) shapeCasts_S32x48_S32x2x2x2x2x3)
          transposes_S32x2x2x2x2x3_S2x2x32x2x2x3_1_3_0_2_4_5) shapeCasts_S2x2x32x2x2x3_S4x32x12 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- [2, 2, 32, 2, 2, 3] read as [4, 32, 12]: entry (g, e, k) is entry (g / 2, g % 2, e, k / 6, (k / 3) % 2, k % 3),
    the two having the same row-major position. -/
theorem wg_merge_apply {α : Type} (y : S2x2x32x2x2x3.Idx → α) (g : Fin 4) (e : Fin 32) (k : Fin 12) :
    shapeCast S4x32x12 y shapeCasts_S2x2x32x2x2x3_S4x32x12 (ix3 g e k)
      = y (ix6 (⟨g.val / 2, by omega⟩ : Fin 2) (⟨g.val % 2, by omega⟩ : Fin 2) e (⟨k.val / 6, by omega⟩ : Fin 2)
            (⟨(k.val / 3) % 2, by omega⟩ : Fin 2) (⟨k.val % 3, by omega⟩ : Fin 3)) := by
  refine shapeCast_apply _ _ _ _ ?_
  rw [Shape.rowMajor_val_six, Shape.rowMajor_val_three]
  show (((((g.val / 2) * 2 + g.val % 2) * 32 + e.val) * 2 + k.val / 6) * 2 + (k.val / 3) % 2) * 3 + k.val % 3
    = (g.val * 32 + e.val) * 12 + k.val
  omega

/-- The permutation (1, 3, 0, 2, 4, 5) of [32, 2, 2, 2, 2, 3]: result axis 0 is source axis 1, result axis 1 source
    axis 3, result axis 2 source axis 0, result axis 3 source axis 2, the last two kept. -/
theorem wg_perm_apply {α : Type} (y : S32x2x2x2x2x3.Idx → α) (di dj : Fin 2) (e : Fin 32) (r2 c2 : Fin 2) (ch : Fin 3) :
    transpose S2x2x32x2x2x3 [1, 3, 0, 2, 4, 5] y transposes_S32x2x2x2x2x3_S2x2x32x2x2x3_1_3_0_2_4_5 (ix6 di dj e r2 c2 ch)
      = y (ix6 e di r2 dj c2 ch) := by
  refine transpose_apply _ _ _ _ _ (fun b => ?_)
  match b with
  | ⟨0, _⟩ => rfl
  | ⟨1, _⟩ => rfl
  | ⟨2, _⟩ => rfl
  | ⟨3, _⟩ => rfl
  | ⟨4, _⟩ => rfl
  | ⟨5, _⟩ => rfl

/-- [32, 48] read as [32, 2, 2, 2, 2, 3]: entry (e, di, r2, dj, c2, ch) is column 24·di + 12·r2 + 6·dj + 3·c2 + ch of
    row e. -/
theorem wg_split_apply {α : Type} (w : S32x48.Idx → α) (e : Fin 32) (di r2 dj c2 : Fin 2) (ch : Fin 3) :
    shapeCast S32x2x2x2x2x3 w shapeCasts_S32x48_S32x2x2x2x2x3 (ix6 e di r2 dj c2 ch)
      = w (ix2 e (⟨24 * di.val + 12 * r2.val + 6 * dj.val + 3 * c2.val + ch.val, by omega⟩ : Fin 48)) := by
  refine shapeCast_apply _ _ _ _ ?_
  rw [Shape.rowMajor_val_six, Shape.rowMajor_val_two]
  show e.val * 48 + (24 * di.val + 12 * r2.val + 6 * dj.val + 3 * c2.val + ch.val)
    = ((((e.val * 2 + di.val) * 2 + r2.val) * 2 + dj.val) * 2 + c2.val) * 3 + ch.val
  omega

/-- Entry (g, e, k) of the regrouped weights is column `kap g k` of row e of the weight matrix. -/
theorem wg_apply (g : Fin 4) (e : Fin 32) (k : Fin 12) :
    (V m c main_v6 : S4x32x12.Idx → EReal) (ix3 g e k)
      = (m ((c : Thread nD τ).loc main_arg1) : S32x48.Idx → EReal) (ix2 e ⟨kap g k, kap_lt g.isLt k.isLt⟩) := by
  rw [wg_term, wg_merge_apply, wg_perm_apply, wg_split_apply]
  rfl

/-! ### The re-tiled image -/

/-- The image as the region finds it: the [64, 3, 224, 224] argument padded with four rows of the converted integer 0
    at the high end of axis 2, reshaped to [64, 3, 114, 2, 112, 2], its axes permuted to (0, 3, 5, 1, 2, 4) and
    reshaped to [64, 12, 12768]. -/
theorem xs_term :
    (V m c main_v3 : S64x12x12768.Idx → EReal)
      = shapeCast S64x12x12768 (transpose S64x2x2x3x114x112 [0, 3, 5, 1, 2, 4]
          (shapeCast S64x3x114x2x112x2
            (pad S64x3x228x224 ![0, 0, 0, 0] ![0, 0, 4, 0] ![0, 0, 0, 0]
              (m ((c : Thread nD τ).loc main_arg0) : S64x3x224x224.Idx → EReal)
              (sitofp (F := Ideal) .f32 (constantI S_ 32 0#32)) pads_S64x3x224x224_S64x3x228x224_000_000_040_000 h_S_)
            shapeCasts_S64x3x228x224_S64x3x114x2x112x2)
          transposes_S64x3x114x2x112x2_S64x2x2x3x114x112_0_3_5_1_2_4) shapeCasts_S64x2x2x3x114x112_S64x12x12768 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- [64, 2, 2, 3, 114, 112] read as [64, 12, 12768]: entry (b, k, q) is entry
    (b, k / 6, (k / 3) % 2, k % 3, q / 112, q % 112), the two having the same row-major position. -/
theorem xs_merge_apply {α : Type} (y : S64x2x2x3x114x112.Idx → α) (b : Fin 64) (k : Fin 12) (q : Fin 12768) :
    shapeCast S64x12x12768 y shapeCasts_S64x2x2x3x114x112_S64x12x12768 (ix3 b k q)
      = y (ix6 b (⟨k.val / 6, by omega⟩ : Fin 2) (⟨(k.val / 3) % 2, by omega⟩ : Fin 2) (⟨k.val % 3, by omega⟩ : Fin 3)
            (⟨q.val / 112, by omega⟩ : Fin 114) (⟨q.val % 112, by omega⟩ : Fin 112)) := by
  refine shapeCast_apply _ _ _ _ ?_
  rw [Shape.rowMajor_val_six, Shape.rowMajor_val_three]
  show ((((b.val * 2 + k.val / 6) * 2 + (k.val / 3) % 2) * 3 + k.val % 3) * 114 + q.val / 112) * 112 + q.val % 112
    = (b.val * 12 + k.val) * 12768 + q.val
  omega

/-- The permutation (0, 3, 5, 1, 2, 4) of [64, 3, 114, 2, 112, 2]: result axes (b, r2, c2, ch, i, j) are source axes
    0, 3, 5, 1, 2, 4. -/
theorem xs_perm_apply {α : Type} (y : S64x3x114x2x112x2.Idx → α) (b : Fin 64) (r2 c2 : Fin 2) (ch : Fin 3) (i : Fin 114)
    (j : Fin 112) :
    transpose S64x2x2x3x114x112 [0, 3, 5, 1, 2, 4] y transposes_S64x3x114x2x112x2_S64x2x2x3x114x112_0_3_5_1_2_4
        (ix6 b r2 c2 ch i j)
      = y (ix6 b ch i r2 j c2) := by
  refine transpose_apply _ _ _ _ _ (fun a => ?_)
  match a with
  | ⟨0, _⟩ => rfl
  | ⟨1, _⟩ => rfl
  | ⟨2, _⟩ => rfl
  | ⟨3, _⟩ => rfl
  | ⟨4, _⟩ => rfl
  | ⟨5, _⟩ => rfl

/-- [64, 3, 228, 224] read as [64, 3, 114, 2, 112, 2]: entry (b, ch, i, r2, j, c2) is row 2·i + r2, column 2·j + c2 of
    channel ch of image b. -/
theorem xs_split_apply {α : Type} (z : S64x3x228x224.Idx → α) (b : Fin 64) (ch : Fin 3) (i : Fin 114) (r2 : Fin 2)
    (j : Fin 112) (c2 : Fin 2) :
    shapeCast S64x3x114x2x112x2 z shapeCasts_S64x3x228x224_S64x3x114x2x112x2 (ix6 b ch i r2 j c2)
      = z (ix4 b ch (⟨2 * i.val + r2.val, by omega⟩ : Fin 228) (⟨2 * j.val + c2.val, by omega⟩ : Fin 224)) := by
  refine shapeCast_apply _ _ _ _ ?_
  rw [Shape.rowMajor_val_six, Shape.rowMajor_val_four]
  show ((b.val * 3 + ch.val) * 228 + (2 * i.val + r2.val)) * 224 + (2 * j.val + c2.val)
    = ((((b.val * 3 + ch.val) * 114 + i.val) * 2 + r2.val) * 112 + j.val) * 2 + c2.val
  omega

/-- The pad by four rows at the high end of axis 2, the padding value the converted integer 0: below row 224 the
    image's own entry, from row 224 on zero. -/
theorem xs_pad_apply (x : S64x3x224x224.Idx → EReal) (b : Fin 64) (ch : Fin 3) (h : Fin 228) (w : Fin 224) :
    pad S64x3x228x224 ![0, 0, 0, 0] ![0, 0, 4, 0] ![0, 0, 0, 0] x (sitofp (F := Ideal) .f32 (constantI S_ 32 0#32))
        pads_S64x3x224x224_S64x3x228x224_000_000_040_000 h_S_ (ix4 b ch h w)
      = if hh : h.val < 224 then x (ix4 b ch ⟨h.val, hh⟩ w) else 0 := by
  by_cases hh : h.val < 224
  · rw [dif_pos hh]
    refine pad_apply_of_inside _ _ _ _ _ _ _ _ _ (fun a => ?_)
    match a with
    | ⟨0, _⟩ => show b.val = 0 + b.val * (0 + 1); omega
    | ⟨1, _⟩ => show ch.val = 0 + ch.val * (0 + 1); omega
    | ⟨2, _⟩ => show h.val = 0 + h.val * (0 + 1); omega
    | ⟨3, _⟩ => show w.val = 0 + w.val * (0 + 1); omega
  · rw [dif_neg hh]
    refine (pad_apply_of_not_inside _ _ _ _ _ _ _ _ (2 : Fin 4) ?_).trans ?_
    · show ¬(0 ≤ h.val ∧ (h.val - 0) % (0 + 1) = 0 ∧ (h.val - 0) / (0 + 1) < 224)
      omega
    · exact sitofp_zero (φ := .f32)

/-- Entry (b, k, q) of the re-tiled image is entry (k, q) of the 2×2 re-tiling of image b, zero from row 224 on. -/
theorem xs_apply (b : Fin 64) (k : Fin 12) (q : Fin 12768) :
    (V m c main_v3 : S64x12x12768.Idx → EReal) (ix3 b k q)
      = xsAt (xpad (m ((c : Thread nD τ).loc main_arg0)) b) k q := by
  rw [xs_term, xs_merge_apply, xs_perm_apply, xs_split_apply, xs_pad_apply]
  unfold xsAt xpad
  have hk3 : k.val % 3 < 3 := by omega
  have hcol : 2 * (q.val % 112) + (k.val / 3) % 2 < 224 := by omega
  by_cases hh : 2 * (q.val / 112) + k.val / 6 < 224
  · rw [dif_pos hh, dif_pos ⟨b.isLt, hk3, hh, hcol⟩]
  · rw [dif_neg hh, dif_neg (fun hb => hh hb.2.2.1)]

end Cert.KernelIdeal.HostK
end
-- ==== Proof.Mask.lean ====
/-
  The lane masks. Both programs build, on the host, the same [2, 12544] array: the positions 0 … 12543, their
  remainder modulo the row width 112 taken with the divisor's sign, row 0 the bit "the remainder is not 0", row 1
  the bit "the remainder is not 111", the two rows stacked and the bits converted to f32. This file writes that
  chain once as a closed term (`maskTerm`), shows that the kernel program's mask array and the reference
  program's mask array at region entry are both that term (`maskK`, `maskR`), and decodes its second row at the
  ideal values: at lane p it is 0 when p % 112 = 111 and 1 otherwise (`mask_row1`).
-/
import proofs.«150594_g2000309665041701_pallasbulk_1097_2_alg».proof.Proof.Gen.KernelIdeal.Frame
import proofs.«150594_g2000309665041701_pallasbulk_1097_2_alg».proof.Proof.RefEntry
import Idealize.ShloMosaic.Lib.ValueIdx
import Idealize.ShloMosaic.Lib.Affine
import Idealize.ShloMosaic.Lib.Pipeline.Value
import Idealize.ShloMosaic.Lib.StableHlo.Predicate
import Idealize.ShloMosaic.PureOps.Ideal.Laws

noncomputable section
open Idealize.ShloMosaic Idealize.ShloMosaic.TcCoe Idealize.SL.Sem Idealize.ShloMosaic.ValueIdx

namespace Cert.Stem.Mask
variable {F : FTy → Type} [FloatOps F]

/-! ### The chain as a term -/

open Cert.KernelIdeal Cert.KernelIdeal.Gen in
/-- The remainder of the words `x` by the scalar word `d`, with the divisor's sign: the divisor is first guarded
    (a zero divisor is replaced by 1), `r` is the truncated remainder by it, and where `r` is non-zero and its
    sign differs from the divisor's the divisor is added back. -/
def remFn (x : IVec S12544 32) (d : IVec S_ 32) : IVec S12544 32 :=
  select
    (andi
      (cmpi .ne
        (cmpi .slt
          (Host.remsi x (broadcastInDim S12544 ![] bcast_S_S12544
            (select (cmpi .eq d (constantI S_ 32 0#32)) (constantI S_ 32 1#32) d)))
          (broadcastInDim S12544 ![] bcast_S_S12544 (constantI S_ 32 0#32)))
        (broadcastInDim S12544 ![] bcast_S_S12544
          (cmpi .slt (select (cmpi .eq d (constantI S_ 32 0#32)) (constantI S_ 32 1#32) d) (constantI S_ 32 0#32))))
      (cmpi .ne
        (Host.remsi x (broadcastInDim S12544 ![] bcast_S_S12544
          (select (cmpi .eq d (constantI S_ 32 0#32)) (constantI S_ 32 1#32) d)))
        (broadcastInDim S12544 ![] bcast_S_S12544 (constantI S_ 32 0#32))))
    (addi
      (Host.remsi x (broadcastInDim S12544 ![] bcast_S_S12544
        (select (cmpi .eq d (constantI S_ 32 0#32)) (constantI S_ 32 1#32) d)))
      (broadcastInDim S12544 ![] bcast_S_S12544
        (select (cmpi .eq d (constantI S_ 32 0#32)) (constantI S_ 32 1#32) d)))
    (Host.remsi x (broadcastInDim S12544 ![] bcast_S_S12544
      (select (cmpi .eq d (constantI S_ 32 0#32)) (constantI S_ 32 1#32) d)))

open Cert.KernelIdeal Cert.KernelIdeal.Gen in
/-- The two mask rows of a vector of remainders `r`: row 0 is the bit `r ≠ 0`, row 1 the bit `r ≠ 111`, each laid
    out as a [1, 12544] row, the two stacked along axis 0 and the bits converted to f32. -/
def maskOf (r : IVec S12544 32) : S2x12544.Idx → Elt F .f32 :=
  uitofp .f32
    (concatenate S2x12544 0
      [⟨S1x12544, broadcastInDim S1x12544 ![1] bcast_S12544_S1x12544_1
          (cmpi .ne r (broadcastInDim S12544 ![] bcast_S_S12544 (constantI S_ 32 0#32)))⟩,
       ⟨S1x12544, broadcastInDim S1x12544 ![1] bcast_S12544_S1x12544_1
          (cmpi .ne r (broadcastInDim S12544 ![] bcast_S_S12544 (constantI S_ 32 111#32)))⟩]
      concatenates_S1x12544_S1x12544_S2x12544_d0)

open Cert.KernelIdeal in
/-- The lane masks: the positions 0 … 12543, their sign-corrected remainder by 112, the two rows of bits, as f32. -/
def maskTerm : Cert.KernelIdeal.S2x12544.Idx → Elt F .f32 :=
  maskOf (remFn (iotaInDim S12544 32 0) (constantI S_ 32 112#32))

/-! ### The kernel program's mask array is that term

The host operations before the region come in five stretches; the contents after all of them are the contents
after the last stretch of the contents after the ones before it. The mask array is written by the last stretch from
the remainders, the remainders by the stretch before it from the iota and the constant 112, and those two by the
stretch before that: three readings, each over an arbitrary valuation of the earlier buffers. -/
section K
open Cert.KernelIdeal Cert.KernelIdeal.Gen

/-- The last stretch writes the mask array as the two stacked rows of the remainders it finds. -/
theorem k_mask (W : Valuation τ sig (Elt F)) :
    (StableHlo.after hostOps0_4 W (Proc.devRef .tc main_v16) : S2x12544.Idx → Elt F .f32)
      = maskOf (W (Proc.devRef .tc main_v8) : IVec S12544 32) := by
  simp only [hostOps0_4]
  after_results
  rfl

set_option maxHeartbeats 1000000 in
/-- The remainder function's stretch writes the sign-corrected remainder of the iota by the constant. -/
theorem k_rem (W : Valuation τ sig (Elt F)) :
    (StableHlo.after hostOps0_3 W (Proc.devRef .tc main_v8) : IVec S12544 32)
      = remFn (W (Proc.devRef .tc main_v7) : IVec S12544 32) (W (Proc.devRef .tc main_c_0) : IVec S_ 32) := by
  simp only [hostOps0_3]
  after_results_simp
  rfl

/-- The stretch before it writes the positions … -/
theorem k_iota (W : Valuation τ sig (Elt F)) :
    (StableHlo.after hostOps0_2 W (Proc.devRef .tc main_v7) : IVec S12544 32) = iotaInDim S12544 32 0 := by
  simp only [hostOps0_2]
  after_results

/-- … and the row width. -/
theorem k_width (W : Valuation τ sig (Elt F)) :
    (StableHlo.after hostOps0_2 W (Proc.devRef .tc main_c_0) : IVec S_ 32) = constantI S_ 32 112#32 := by
  simp only [hostOps0_2]
  after_results
end K

theorem maskK (m : (ℓ : Loc Cert.KernelIdeal.nD Cert.KernelIdeal.τ Cert.KernelIdeal.sig) → Buf (Elt F) ℓ) (c : Dev Cert.KernelIdeal.nD) :
    (Cert.KernelIdeal.Gen.V m c Cert.KernelIdeal.main_v16 : Cert.KernelIdeal.S2x12544.Idx → Elt F .f32) = maskTerm := by
  dsimp only [Cert.KernelIdeal.Gen.V, Cert.KernelIdeal.Gen.V0]
  simp only [List.flatten_cons, List.flatten_nil, List.append_nil, StableHlo.after_append]
  rw [k_mask, k_rem, k_iota, k_width]
  rfl

/-! ### The reference program's mask array is the same term

The same chain under the reference program's buffer names, in the last three of its seven stretches. Its shape
names are other constants with the same extents, so each reading ends by unfolding both spellings. -/
section R
open Cert.ReferenceIdeal Cert.ReferenceIdeal.Gen

/-- The last stretch writes the mask array as the two stacked rows of the remainders it finds. -/
theorem r_mask (W : Valuation τ sig (Elt F)) :
    (StableHlo.after hostOps0_6 W (Proc.devRef .tc main_v25) : Cert.KernelIdeal.S2x12544.Idx → Elt F .f32)
      = maskOf (W (Proc.devRef .tc main_v17) : IVec Cert.KernelIdeal.S12544 32) := by
  simp only [hostOps0_6]
  after_results
  rfl

set_option maxHeartbeats 1000000 in
/-- The remainder function's stretch writes the sign-corrected remainder of the iota by the constant. -/
theorem r_rem (W : Valuation τ sig (Elt F)) :
    (StableHlo.after hostOps0_5 W (Proc.devRef .tc main_v17) : IVec Cert.KernelIdeal.S12544 32)
      = remFn (W (Proc.devRef .tc main_v16) : IVec Cert.KernelIdeal.S12544 32)
          (W (Proc.devRef .tc main_c_1) : IVec Cert.KernelIdeal.S_ 32) := by
  simp only [hostOps0_5]
  after_results_simp
  rfl

/-- The stretch before it writes the positions … -/
theorem r_iota (W : Valuation τ sig (Elt F)) :
    (StableHlo.after hostOps0_4 W (Proc.devRef .tc main_v16) : IVec Cert.KernelIdeal.S12544 32)
      = iotaInDim Cert.KernelIdeal.S12544 32 0 := by
  simp only [hostOps0_4]
  after_results

/-- … and the row width. -/
theorem r_width (W : Valuation τ sig (Elt F)) :
    (StableHlo.after hostOps0_4 W (Proc.devRef .tc main_c_1) : IVec Cert.KernelIdeal.S_ 32)
      = constantI Cert.KernelIdeal.S_ 32 112#32 := by
  simp only [hostOps0_4]
  after_results
end R

theorem maskR (m : (ℓ : Loc Cert.ReferenceIdeal.nD Cert.ReferenceIdeal.τ Cert.ReferenceIdeal.sig) → Buf (Elt F) ℓ) (c : Dev Cert.ReferenceIdeal.nD) :
    (Cert.ReferenceIdeal.Hand.V m c Cert.ReferenceIdeal.main_v25 : Cert.KernelIdeal.S2x12544.Idx → Elt F .f32) = maskTerm := by
  dsimp only [Cert.ReferenceIdeal.Hand.V, Cert.ReferenceIdeal.Hand.V0]
  simp only [List.flatten_cons, List.flatten_nil, List.append_nil, StableHlo.after_append]
  rw [r_mask, r_rem, r_iota, r_width]
  rfl

/-! ### The second row decoded

Row 1 at lane `p` is the f32 of the bit "the corrected remainder at `p` is not 111". The iota's word at `p` is `p`
itself, below 2³¹; the guarded divisor is 112; so the truncated remainder is the natural `p % 112`, not negative
like the divisor, the correction does not fire, and the bit is 0 exactly when `p % 112 = 111`. -/

open Cert.KernelIdeal in
/-- Row 1 of the masks at lane `p`, read through the stack, the row layout and the conversion: the bit that the
    remainder at `p` differs from 111, converted. -/
theorem maskOf_row1_apply (r : IVec S12544 32) (p : Fin 12544) :
    (maskOf (F := F) r : S2x12544.Idx → Elt F .f32) (ix2 1 p)
      = FloatOps.uitofp .f32 (IntOp.cmpi .ne (r (ix1 p)) 111#32) := by
  unfold maskOf
  show FloatOps.uitofp .f32 (concatenate S2x12544 0 _ _ (ix2 1 p)) = _
  congr 1
  rw [concatenate_pair_apply_right (t := S2x12544) (s₁ := S1x12544) (s₂ := S1x12544) (0 : Fin S2x12544.rank) _ _ _ (ix2 1 p) rfl rfl (ix2 (0 : Fin 1) p)
    (fun b => match b with | ⟨0, _⟩ => fun h => absurd rfl h | ⟨1, _⟩ => fun _ => rfl) rfl]
  rw [broadcastInDim_apply _ _ _ (ix2 (0 : Fin 1) p) (ix1 p) (fun a => match a with | ⟨0, _⟩ => rfl)]
  rfl

/-- The guarded divisor is 112: the constant is not zero. -/
theorem guard_word : Scalar.select (IntOp.cmpi .eq 112#32 0#32) 1#32 112#32 = 112#32 := by decide

/-- A word below 2³¹ is not negative. -/
theorem slt_zero_of_small (r : BitVec 32) (hr : r.toNat < 2 ^ 31) : IntOp.cmpi .slt r 0#32 = 0#1 := by
  have h : ¬ IntOp.cmpi .slt r 0#32 = 1#1 := by
    rw [IntOp.cmpi_slt, StableHlo.Predicate.toInt_eq_toNat_of_lt hr, show (0#32 : BitVec 32).toInt = 0 from rfl]
    omega
  revert h
  generalize IntOp.cmpi .slt r 0#32 = b
  revert b
  decide

/-- The truncated remainder of a position by 112 is the natural remainder. -/
theorem rem_word (p : ℕ) (hp : p < 12544) :
    IntOp.remsi .host (BitVec.ofNat 32 p) 112#32 = BitVec.ofNat 32 (p % 112) := by
  apply BitVec.eq_of_toNat_eq
  have h := IntOp.toNat_remsi .host (x := BitVec.ofNat 32 p) (by rw [BitVec.toNat_ofNat]; omega) 112 (by omega) (by omega)
  rw [show (112#32 : BitVec 32) = BitVec.ofNat 32 112 from rfl, h, BitVec.toNat_ofNat, BitVec.toNat_ofNat]
  omega

/-- On a remainder below 112 the sign correction leaves the word as it is: it is not negative, the divisor 112 is
    not negative, the two sign bits agree. -/
theorem corr_word (r : BitVec 32) (hr : r.toNat < 112) :
    Scalar.select
        (IntOp.andi (IntOp.cmpi .ne (IntOp.cmpi .slt r 0#32) (IntOp.cmpi .slt 112#32 0#32)) (IntOp.cmpi .ne r 0#32))
        (IntOp.addi r 112#32) r = r := by
  rw [slt_zero_of_small r (by omega), show IntOp.cmpi .slt 112#32 0#32 = 0#1 from by decide]
  have h3 : ∀ x : BitVec 1, IntOp.andi (IntOp.cmpi .ne 0#1 0#1) x = 0#1 := by decide
  rw [h3]
  rfl

/-- The bit "a remainder below 112 is not 111", as a number. -/
theorem ne111_word (n : ℕ) (hn : n < 112) :
    (IntOp.cmpi .ne (BitVec.ofNat 32 n) 111#32).toNat = if n = 111 then 0 else 1 := by
  by_cases h : n = 111
  · subst h; rw [if_pos rfl]; decide
  · rw [if_neg h]
    have e : IntOp.cmpi .ne (BitVec.ofNat 32 n) 111#32 = 1#1 := IntOp.cmpi_ne.mpr fun e => h (by
      have e' := congrArg BitVec.toNat e
      rw [BitVec.toNat_ofNat, show (111#32 : BitVec 32).toNat = 111 from rfl] at e'
      omega)
    rw [e]; rfl

open Cert.KernelIdeal in
/-- The corrected remainder of the positions by 112, at lane `p`, is the word of `p % 112`. -/
theorem remFn_apply (p : Fin 12544) :
    remFn (iotaInDim S12544 32 0) (constantI S_ 32 112#32) (ix1 p) = BitVec.ofNat 32 (p.val % 112) := by
  have hr := rem_word p.val p.isLt
  have hc := corr_word (BitVec.ofNat 32 (p.val % 112)) (by rw [BitVec.toNat_ofNat]; omega)
  show Scalar.select
      (IntOp.andi
        (IntOp.cmpi .ne
          (IntOp.cmpi .slt (IntOp.remsi .host (BitVec.ofNat 32 p.val) (Scalar.select (IntOp.cmpi .eq 112#32 0#32) 1#32 112#32)) 0#32)
          (IntOp.cmpi .slt (Scalar.select (IntOp.cmpi .eq 112#32 0#32) 1#32 112#32) 0#32))
        (IntOp.cmpi .ne (IntOp.remsi .host (BitVec.ofNat 32 p.val) (Scalar.select (IntOp.cmpi .eq 112#32 0#32) 1#32 112#32)) 0#32))
      (IntOp.addi (IntOp.remsi .host (BitVec.ofNat 32 p.val) (Scalar.select (IntOp.cmpi .eq 112#32 0#32) 1#32 112#32))
        (Scalar.select (IntOp.cmpi .eq 112#32 0#32) 1#32 112#32))
      (IntOp.remsi .host (BitVec.ofNat 32 p.val) (Scalar.select (IntOp.cmpi .eq 112#32 0#32) 1#32 112#32))
    = BitVec.ofNat 32 (p.val % 112)
  rw [guard_word, hr, hc]

theorem mask_row1 (p : Fin 12544) :
    (maskTerm (F := Ideal) : Cert.KernelIdeal.S2x12544.Idx → EReal) (ix2 1 p) = if (p : ℕ) % 112 = 111 then 0 else 1 := by
  unfold maskTerm
  rw [maskOf_row1_apply, remFn_apply]
  show (((IntOp.cmpi .ne (BitVec.ofNat 32 (p.val % 112)) 111#32).toNat : ℝ) : EReal) = _
  rw [ne111_word _ (Nat.mod_lt _ (by omega))]
  split <;> simp

end Cert.Stem.Mask
end
-- ==== Proof.ConvK.lean ====
/-
  The kernel's first-convolution payload read at an index. Each of its four matrix-unit products, with dimension
  numbers [1],[0],[0],[1] into the zero accumulator, is on the extended reals out[e, p] = Σ_k lhs[e, k] · rhs[k, p];
  the operands are [1, 32, 12] and [1, 12, 12544] blocks with the leading unit axis dropped, so lhs[e, k] = a[0, e, k]
  and rhs[k, p] = s[0, k, p]. The products are added in pairs, and the second pair's sum is multiplied by a
  [1, 12544] row broadcast down the 32 rows, which reads mrow[0, p] at (e, p).
-/
import proofs.«150594_g2000309665041701_pallasbulk_1097_2_alg».proof.Proof.Gen.KernelIdeal.Skeleton
import proofs.«150594_g2000309665041701_pallasbulk_1097_2_alg».proof.Proof.Spec
import Idealize.ShloMosaic.Lib.ValueIdx
import Idealize.ShloMosaic.Lib.ValueLayout
import Idealize.ShloMosaic.PureOps.Ideal.Laws

noncomputable section
open Idealize.ShloMosaic Idealize.ShloMosaic.TcCoe Idealize.SL.Sem Idealize.ShloMosaic.ValueIdx
open Cert.Stem

namespace Cert.KernelIdeal.ConvK
open Cert.KernelIdeal Cert.KernelIdeal.Gen

/-- The left operand's row coordinate is the output's row coordinate. -/
theorem lhs_S32x12_0 (j : S32x12544.Idx) (k : dot_S32x12_S12x12544_S32x12544_1_0_0_1_n_n.contr.Idx) :
    (dot_S32x12_S12x12544_S32x12544_1_0_0_1_n_n.lhsIdx j k 0).val = (j 0).val := by
  unfold DotDims.lhsIdx
  rw [dif_neg (show ¬(0 : Fin S32x12.rank) ∈ dot_S32x12_S12x12544_S32x12544_1_0_0_1_n_n.lhsBatch by decide),
    dif_pos (show (0 : Fin S32x12.rank) ∈ dot_S32x12_S12x12544_S32x12544_1_0_0_1_n_n.lhsNonContracting by decide)]
  rfl

/-- The left operand's column coordinate is the contraction position. -/
theorem lhs_S32x12_1 (j : S32x12544.Idx) (k : dot_S32x12_S12x12544_S32x12544_1_0_0_1_n_n.contr.Idx) :
    (dot_S32x12_S12x12544_S32x12544_1_0_0_1_n_n.lhsIdx j k 1).val = (k ⟨0, by decide⟩).val :=
  dot_S32x12_S12x12544_S32x12544_1_0_0_1_n_n.lhsIdx_val_of_single rfl j k

/-- The right operand's row coordinate is the contraction position. -/
theorem rhs_S12x12544_0 (j : S32x12544.Idx) (k : dot_S32x12_S12x12544_S32x12544_1_0_0_1_n_n.contr.Idx) :
    (dot_S32x12_S12x12544_S32x12544_1_0_0_1_n_n.rhsIdx j k 0).val = (k ⟨0, by decide⟩).val :=
  dot_S32x12_S12x12544_S32x12544_1_0_0_1_n_n.rhsIdx_val_of_single rfl j k

/-- The right operand's column coordinate is the output's column coordinate. -/
theorem rhs_S12x12544_1 (j : S32x12544.Idx) (k : dot_S32x12_S12x12544_S32x12544_1_0_0_1_n_n.contr.Idx) :
    (dot_S32x12_S12x12544_S32x12544_1_0_0_1_n_n.rhsIdx j k 1).val = (j 1).val := by
  unfold DotDims.rhsIdx
  rw [dif_neg (show ¬(1 : Fin S12x12544.rank) ∈ dot_S32x12_S12x12544_S32x12544_1_0_0_1_n_n.rhsBatch by decide),
    dif_pos (show (1 : Fin S12x12544.rank) ∈ dot_S32x12_S12x12544_S32x12544_1_0_0_1_n_n.rhsNonContracting by decide)]
  rfl

/-- The [32, 12] × [12, 12544] product into the zero accumulator, at (e, p): Σ_k l[e, k] · r[k, p]. -/
theorem matmul_zero_apply (l : Vec Ideal S32x12 .f32) (r : Vec Ideal S12x12544 .f32) (e : Fin 32) (p : Fin 12544) :
    (matmul (F := Ideal) (φ₁ := .f32) (φ₂ := .f32) dot_S32x12_S12x12544_S32x12544_1_0_0_1_n_n none l r
        (constant S32x12544 .f32 0x00000000#32) : S32x12544.Idx → EReal) (ix2 e p)
      = ∑ k : Fin 12, (l (ix2 e k) : EReal) * r (ix2 k p) := by
  simp only [matmul]
  rw [Ideal.matmul_constant_zero_apply,
    ← Equiv.sum_comp (contrEquiv1 dot_S32x12_S12x12544_S32x12544_1_0_0_1_n_n 12 rfl rfl).symm]
  refine Finset.sum_congr rfl fun k _ => ?_
  have hk := contrEquiv1_symm_val dot_S32x12_S12x12544_S32x12544_1_0_0_1_n_n 12 rfl rfl k
  have hl : dot_S32x12_S12x12544_S32x12544_1_0_0_1_n_n.lhsIdx (ix2 e p)
      ((contrEquiv1 dot_S32x12_S12x12544_S32x12544_1_0_0_1_n_n 12 rfl rfl).symm k) = ix2 e k := by
    funext a
    refine Fin.ext ?_
    match a with
    | ⟨0, _⟩ => exact lhs_S32x12_0 _ _
    | ⟨1, _⟩ => exact (lhs_S32x12_1 _ _).trans hk
  have hr : dot_S32x12_S12x12544_S32x12544_1_0_0_1_n_n.rhsIdx (ix2 e p)
      ((contrEquiv1 dot_S32x12_S12x12544_S32x12544_1_0_0_1_n_n 12 rfl rfl).symm k) = ix2 k p := by
    funext a
    refine Fin.ext ?_
    match a with
    | ⟨0, _⟩ => exact (rhs_S12x12544_0 _ _).trans hk
    | ⟨1, _⟩ => exact rhs_S12x12544_1 _ _
  rw [hl, hr]

/-- One product of the payload: both operands lose their leading unit axis first. -/
theorem block_product_apply (a : Vec Ideal S1x32x12 .f32) (s : Vec Ideal S1x12x12544 .f32) (e : Fin 32) (p : Fin 12544) :
    (matmul (F := Ideal) (φ₁ := .f32) (φ₂ := .f32) dot_S32x12_S12x12544_S32x12544_1_0_0_1_n_n none
        (shapeCast S32x12 a shapeCasts_S1x32x12_S32x12) (shapeCast S12x12544 s shapeCasts_S1x12x12544_S12x12544)
        (constant S32x12544 .f32 0x00000000#32) : S32x12544.Idx → EReal) (ix2 e p)
      = ∑ k : Fin 12, (a (ix3 0 e k) : EReal) * s (ix3 0 k p) := by
  rw [matmul_zero_apply]
  refine Finset.sum_congr rfl fun k _ => ?_
  rw [shapeCast_1ab_ab_apply, shapeCast_1ab_ab_apply]

/-- A sum of two such products at (e, p). -/
theorem pair_apply (a a' : Vec Ideal S1x32x12 .f32) (s s' : Vec Ideal S1x12x12544 .f32) (e : Fin 32) (p : Fin 12544) :
    (k0_pay4 a s a' s' : S32x12544.Idx → EReal) (ix2 e p)
      = (∑ k : Fin 12, (a (ix3 0 e k) : EReal) * s (ix3 0 k p)) + ∑ k : Fin 12, (a' (ix3 0 e k) : EReal) * s' (ix3 0 k p) := by
  unfold k0_pay4
  rw [addf_apply, block_product_apply, block_product_apply]

/-- The second pair is the same term. -/
theorem pair'_apply (a a' : Vec Ideal S1x32x12 .f32) (s s' : Vec Ideal S1x12x12544 .f32) (e : Fin 32) (p : Fin 12544) :
    (k0_pay5 a s a' s' : S32x12544.Idx → EReal) (ix2 e p)
      = (∑ k : Fin 12, (a (ix3 0 e k) : EReal) * s (ix3 0 k p)) + ∑ k : Fin 12, (a' (ix3 0 e k) : EReal) * s' (ix3 0 k p) := by
  unfold k0_pay5
  rw [addf_apply, block_product_apply, block_product_apply]

/-- The mask row broadcast down the rows reads its one row. -/
theorem row_apply (mrow : Vec Ideal S1x12544 .f32) (e : Fin 32) (p : Fin 12544) :
    (k0_pay6 mrow : S32x12544.Idx → EReal) (ix2 e p) = mrow (ix2 0 p) := by
  unfold k0_pay6 k0_pay3
  rw [broadcastTo_1b_ab_apply, shapeCast_self]

theorem convK_apply (a0 a1 a2 a3 : Vec Ideal S1x32x12 .f32) (s0 s1 s2 s3 : Vec Ideal S1x12x12544 .f32)
    (mrow : Vec Ideal S1x12544 .f32) (e : Fin 32) (p : Fin 12544) :
    (addf (k0_pay4 a0 s0 a2 s2) (mulf (k0_pay5 a1 s1 a3 s3) (k0_pay6 mrow)) : S32x12544.Idx → EReal) (ix2 e p)
      = ((∑ k : Fin 12, (a0 (ix3 0 e k) : EReal) * s0 (ix3 0 k p)) + ∑ k : Fin 12, (a2 (ix3 0 e k) : EReal) * s2 (ix3 0 k p))
        + ((∑ k : Fin 12, (a1 (ix3 0 e k) : EReal) * s1 (ix3 0 k p)) + ∑ k : Fin 12, (a3 (ix3 0 e k) : EReal) * s3 (ix3 0 k p))
          * mrow (ix2 0 p) := by
  rw [addf_apply, mulf_apply, pair_apply, pair'_apply, row_apply]
end Cert.KernelIdeal.ConvK
end
-- ==== Proof.ConvBridge.lean ====
/-
  The stem's 3×3 stride-2 convolution at the output position p = 112·i + j, written two ways.

  One way is a single sum over the 48 columns K = 24·di + 12·r2 + 6·dj + 3·c2 + ch of a weight row against the 4×4
  patch of the image at (i, j). The other way groups the same 48 terms by the shift g = 2·di + dj into four sums over
  the 12 entries k = 6·r2 + 3·c2 + ch of the 2×2 re-tiling, the group g being read at the flat position
  p + 112·di + dj, and multiplies the two dj = 1 groups by a mask that is 0 in the last column j = 111 and 1 elsewhere.
  `conv_bridge` states that the two agree for every image that vanishes at columns 224 and beyond. Nothing is assumed
  finite: every step is a law of the extended reals that holds for all of them.
-/
import proofs.«150594_g2000309665041701_pallasbulk_1097_2_alg».proof.Proof.Spec
import Mathlib.Data.EReal.Basic
import Mathlib.Algebra.BigOperators.Fin
import Mathlib.Algebra.BigOperators.Group.Finset.Defs
import Mathlib.Data.Fintype.BigOperators

noncomputable section

namespace Cert.Stem

/-! ### The column `kap g k` decoded -/

/-- The patch entry at column `kap g k`: channel k mod 3, row 2·(i + di) + r2 and column 2·(j + dj) + c2 with
    di = g / 2, dj = g mod 2, r2 = k / 6, c2 = (k / 3) mod 2. The five digit equations are linear arithmetic once
    `kap` is unfolded, the lower digits of the column summing to at most 23. -/
theorem xpAt_kap (X : ℕ → ℕ → ℕ → EReal) {g k : ℕ} (hg : g < 4) (hk : k < 12) (p : ℕ) :
    xpAt X (kap g k) p
      = X (k % 3) (2 * (p / 112 + g / 2) + k / 6) (2 * (p % 112 + g % 2) + (k / 3) % 2) := by
  have h1 : kap g k % 3 = k % 3 := by unfold kap; omega
  have h2 : kap g k / 24 = g / 2 := by unfold kap; omega
  have h3 : (kap g k / 12) % 2 = k / 6 := by unfold kap; omega
  have h4 : (kap g k / 6) % 2 = g % 2 := by unfold kap; omega
  have h5 : (kap g k / 3) % 2 = (k / 3) % 2 := by unfold kap; omega
  unfold xpAt
  rw [h1, h2, h3, h4, h5]

/-! ### The 48 columns as 4 groups of 12 -/

/-- (g, k) ↦ kap g k is a bijection from 4 × 12 onto the 48 columns; the inverse reads the digits of K back:
    g = 2·(K / 24) + (K / 6) mod 2 and k = 6·((K / 12) mod 2) + 3·((K / 3) mod 2) + K mod 3. -/
def kapEquiv : Fin 4 × Fin 12 ≃ Fin 48 where
  toFun gk := ⟨kap gk.1.val gk.2.val, kap_lt gk.1.isLt gk.2.isLt⟩
  invFun K := (⟨2 * (K.val / 24) + (K.val / 6) % 2, by omega⟩,
               ⟨6 * ((K.val / 12) % 2) + 3 * ((K.val / 3) % 2) + K.val % 3, by omega⟩)
  left_inv := by
    rintro ⟨⟨g, hg⟩, ⟨k, hk⟩⟩
    simp only [Prod.mk.injEq, Fin.mk.injEq]
    unfold kap
    constructor <;> omega
  right_inv := by
    rintro ⟨K, hK⟩
    simp only [Fin.mk.injEq]
    unfold kap
    omega

/-- A sum over the 48 columns, taken group by group. -/
theorem sum_kap (f : Fin 48 → EReal) :
    ∑ K : Fin 48, f K = ∑ g : Fin 4, ∑ k : Fin 12, f ⟨kap g.val k.val, kap_lt g.isLt k.isLt⟩ := by
  rw [← Fintype.sum_prod_type' (fun (g : Fin 4) (k : Fin 12) => f ⟨kap g.val k.val, kap_lt g.isLt k.isLt⟩)]
  exact (Fintype.sum_equiv kapEquiv _ _ (fun _ => rfl)).symm

/-! ### One group against its flat shift -/

/-- While the shifted column j + dj stays inside the row (j + dj < 112), the flat position p + 112·di + dj is the
    position (i + di, j + dj), so the re-tiled entry k there is the patch entry of column `kap (2·di + dj) k`. -/
theorem xsAt_shift (X : ℕ → ℕ → ℕ → EReal) {di dj k : ℕ} (hdi : di < 2) (hdj : dj < 2) (hk : k < 12) (p : ℕ)
    (hj : p % 112 + dj < 112) :
    xsAt X k (p + 112 * di + dj) = xpAt X (kap (2 * di + dj) k) p := by
  rw [xpAt_kap X (by omega) hk]
  have hq : (p + 112 * di + dj) / 112 = p / 112 + di := by omega
  have hr : (p + 112 * di + dj) % 112 = p % 112 + dj := by omega
  have hd : (2 * di + dj) / 2 = di := by omega
  have hm : (2 * di + dj) % 2 = dj := by omega
  unfold xsAt
  rw [hq, hr, hd, hm]

/-- In the last column j = 111 the patch entries of the dj = 1 groups sit at column 2·112 + c2 ≥ 224 of the image,
    where it vanishes. -/
theorem xpAt_edge (X : ℕ → ℕ → ℕ → EReal) (hX : ∀ ch h w, 224 ≤ w → X ch h w = 0) {di k : ℕ} (hdi : di < 2)
    (hk : k < 12) (p : ℕ) (hj : p % 112 = 111) :
    xpAt X (kap (2 * di + 1) k) p = 0 := by
  rw [xpAt_kap X (by omega) hk]
  apply hX
  omega

/-! ### The assembly -/

/-- The four masked group sums equal the one sum over the 48 columns. The right side is taken group by group. The
    dj = 0 groups agree term by term for every p. Off the last column the dj = 1 groups agree term by term as well
    and the mask is 1; what remains is commutativity and associativity of +. In the last column the mask is 0, so the
    dj = 1 groups drop out on the left (x · 0 = 0 for every extended real), and on the right each of their terms is a
    weight times an image entry at a column ≥ 224, that is a weight times 0. -/
theorem conv_bridge (X : ℕ → ℕ → ℕ → EReal) (hX : ∀ ch h w, 224 ≤ w → X ch h w = 0) (W : Fin 48 → EReal)
    (p : ℕ) (hp : p < 12544) :
    ((∑ k : Fin 12, W ⟨kap 0 k, kap_lt (by decide) k.isLt⟩ * xsAt X k p)
        + ∑ k : Fin 12, W ⟨kap 2 k, kap_lt (by decide) k.isLt⟩ * xsAt X k (p + 112))
      + ((∑ k : Fin 12, W ⟨kap 1 k, kap_lt (by decide) k.isLt⟩ * xsAt X k (p + 1))
        + ∑ k : Fin 12, W ⟨kap 3 k, kap_lt (by decide) k.isLt⟩ * xsAt X k (p + 113))
        * (if p % 112 = 111 then (0 : EReal) else 1)
      = ∑ K : Fin 48, W K * xpAt X K p := by
  -- the 48 columns group by group, the groups named by their literal numbers
  rw [sum_kap (fun K => W K * xpAt X K p), Fin.sum_univ_four]
  show _ = (∑ k : Fin 12, W ⟨kap 0 k, kap_lt (by decide) k.isLt⟩ * xpAt X (kap 0 k) p)
         + (∑ k : Fin 12, W ⟨kap 1 k, kap_lt (by decide) k.isLt⟩ * xpAt X (kap 1 k) p)
         + (∑ k : Fin 12, W ⟨kap 2 k, kap_lt (by decide) k.isLt⟩ * xpAt X (kap 2 k) p)
         + (∑ k : Fin 12, W ⟨kap 3 k, kap_lt (by decide) k.isLt⟩ * xpAt X (kap 3 k) p)
  -- the dj = 0 groups: shifts 0 and 112 stay in column j
  have e0 : ∀ k : Fin 12, xsAt X k p = xpAt X (kap 0 k) p := fun k =>
    xsAt_shift X (di := 0) (dj := 0) (by omega) (by omega) k.isLt p (by omega)
  have e2 : ∀ k : Fin 12, xsAt X k (p + 112) = xpAt X (kap 2 k) p := fun k =>
    xsAt_shift X (di := 1) (dj := 0) (by omega) (by omega) k.isLt p (by omega)
  simp only [e0, e2]
  by_cases hj : p % 112 = 111
  · -- last column: the mask is 0 and the dj = 1 patch entries lie at columns ≥ 224
    have z1 : ∀ k : Fin 12, xpAt X (kap 1 k) p = 0 := fun k =>
      xpAt_edge X hX (di := 0) (by omega) k.isLt p hj
    have z3 : ∀ k : Fin 12, xpAt X (kap 3 k) p = 0 := fun k =>
      xpAt_edge X hX (di := 1) (by omega) k.isLt p hj
    rw [if_pos hj, mul_zero, add_zero]
    simp only [z1, z3, mul_zero, Finset.sum_const_zero, add_zero]
  · -- elsewhere: shifts 1 and 113 move to column j + 1 of the same row, and the mask is 1
    have hj' : p % 112 + 1 < 112 := by omega
    have e1 : ∀ k : Fin 12, xsAt X k (p + 1) = xpAt X (kap 1 k) p := fun k =>
      xsAt_shift X (di := 0) (dj := 1) (by omega) (by omega) k.isLt p hj'
    have e3 : ∀ k : Fin 12, xsAt X k (p + 113) = xpAt X (kap 3 k) p := fun k =>
      xsAt_shift X (di := 1) (dj := 1) (by omega) (by omega) k.isLt p hj'
    rw [if_neg hj, mul_one]
    simp only [e1, e3]
    rw [add_add_add_comm, ← add_assoc]

end Cert.Stem

end
-- ==== Proof.BridgeK.lean ====
/-
  The kernel's first convolution at an output position, over the region-entry arrays, as the single 48-term sum over the
  zero-padded image.

  At grid point `t` the body's four weight groups are rows g = 0 … 3 of the regrouped weights, its four image windows are
  image `t` of the 2×2 re-tiling at flat shifts 0, 1, 112 and 113, and its mask row is row 1 of the lane masks. Each
  product read at (e, p) is a sum over the twelve (r2, c2, ch); the regrouped weight (g, e, k) is the weight matrix at
  column `kap g k`, the re-tiled image at (t, k, q) is `xsAt` of the padded image, the mask is 0 exactly on the last lane of
  a row, and the regrouping lemma `conv_bridge` turns the masked sum of four into the one sum over the 48 columns.
-/
import proofs.«150594_g2000309665041701_pallasbulk_1097_2_alg».proof.Proof.BlocksK
import proofs.«150594_g2000309665041701_pallasbulk_1097_2_alg».proof.Proof.HostK
import proofs.«150594_g2000309665041701_pallasbulk_1097_2_alg».proof.Proof.Mask
import proofs.«150594_g2000309665041701_pallasbulk_1097_2_alg».proof.Proof.ConvK
import proofs.«150594_g2000309665041701_pallasbulk_1097_2_alg».proof.Proof.ConvBridge

set_option maxRecDepth 16384

noncomputable section

open Idealize.ShloMosaic Idealize.ShloMosaic.TcCoe Idealize.SL.Sem Idealize.ShloMosaic.ValueIdx
open Cert.Stem

namespace Cert.KernelIdeal.ValueK

open Cert.KernelIdeal Cert.KernelIdeal.Gen

variable (m : (ℓ : Loc nD τ sig) → Buf (Elt Ideal) ℓ)

/-- The weight matrix and the image as launched, and the three blocks the first convolution reads, each named at its
    literal type. -/
abbrev wArr (c : Dev nD) : S32x48.Idx → EReal := m ((c : Thread nD τ).loc main_arg1)
abbrev xArr (c : Dev nD) : S64x3x224x224.Idx → EReal := m ((c : Thread nD τ).loc main_arg0)
abbrev bMask (c : Dev nD) (t : Fin cfg0.N) : S2x12544.Idx → EReal := iblk m c 0 t
abbrev bImg (c : Dev nD) (t : Fin cfg0.N) : S1x12x12768.Idx → EReal := iblk m c 1 t
abbrev bWg (c : Dev nD) (t : Fin cfg0.N) : S4x32x12.Idx → EReal := iblk m c 2 t

theorem t_lt (t : Fin cfg0.N) : t.val < 64 := lt_of_lt_of_eq t.isLt N_0

/-- Weight group `g` of the block at (e, k) is the weight matrix at (e, kap g k). -/
theorem wgrp (c : Dev nD) (t : Fin cfg0.N) (g : ℕ) (hg : g < 4) (inb) (e : Fin 32) (k : Fin 12) :
    View.ld (Val := Elt Ideal) (e' := .f32) (bWg m c t) (Rect.unit (s := S4x32x12) ![g, 0, 0] ![1, 32, 12] inb) (ix3 (0 : Fin 1) e k)
      = wArr m c (ix2 e ⟨kap g k, kap_lt hg k.isLt⟩) := by
  rw [ld3_unit (Val := Elt Ideal) (e := .f32) (bWg m c t) g 0 0 inb (0 : Fin 1) e k (by simp; omega) (by simp) (by simp)]
  have hi : (ix3 (⟨g + (0 : Fin 1).val, by simp; omega⟩ : Fin 4) (⟨0 + e.val, by simp⟩ : Fin 32) (⟨0 + k.val, by simp⟩ : Fin 12)) = ix3 (⟨g, hg⟩ : Fin 4) e k := by
    funext a
    match a with
    | ⟨0, _⟩ => exact Fin.ext (by simp)
    | ⟨1, _⟩ => exact Fin.ext (by simp)
    | ⟨2, _⟩ => exact Fin.ext (by simp)
  rw [hi]
  show (iblk m c 2 t : S4x32x12.Idx → EReal) (ix3 (⟨g, hg⟩ : Fin 4) e k) = _
  rw [iblk2_eq m c t]
  exact Cert.KernelIdeal.HostK.wg_apply m c ⟨g, hg⟩ e k

/-- The image window at flat shift `s`, at (k, p), is the padded image `t` at re-tiled position (k, p + s). -/
theorem xwin (c : Dev nD) (t : Fin cfg0.N) (s : ℕ) (hs : s ≤ 113) (inb) (k : Fin 12) (p : Fin 12544) :
    View.ld (Val := Elt Ideal) (e' := .f32) (bImg m c t) (Rect.unit (s := S1x12x12768) ![0, 0, s] ![1, 12, 12544] inb) (ix3 (0 : Fin 1) k p)
      = xsAt (xpad (xArr m c) t.val) k (p.val + s) := by
  have hp := p.isLt
  have ht := t_lt t
  rw [ld3_unit (Val := Elt Ideal) (e := .f32) (bImg m c t) 0 0 s inb (0 : Fin 1) k p (by simp) (by simp) (by omega)]
  show (iblk m c 1 t : S1x12x12768.Idx → EReal) _ = _
  rw [iblk1_apply m c t _ (ix3 (⟨t.val, ht⟩ : Fin 64) k (⟨p.val + s, by omega⟩ : Fin 12768)) rfl (by simp) (by show p.val + s = s + p.val; omega)]
  exact Cert.KernelIdeal.HostK.xs_apply m c ⟨t.val, ht⟩ k ⟨p.val + s, by omega⟩

/-- The body's second mask row at lane `p` is 0 on the last lane of an image row and 1 elsewhere. -/
theorem mrow1 (c : Dev nD) (t : Fin cfg0.N) (inb) (p : Fin 12544) :
    View.ld (Val := Elt Ideal) (e' := .f32) (bMask m c t) (Rect.unit (s := S2x12544) ![1, 0] ![1, 12544] inb) (ix2 (0 : Fin 1) p)
      = (if p.val % 112 = 111 then (0 : EReal) else 1) := by
  have hp := p.isLt
  rw [ld2_unit (Val := Elt Ideal) (e := .f32) (bMask m c t) 1 0 inb (0 : Fin 1) p (by simp) (by omega)]
  have hi : (ix2 (⟨1 + (0 : Fin 1).val, by simp⟩ : Fin 2) (⟨0 + p.val, by omega⟩ : Fin 12544)) = ix2 1 p := by
    funext a
    match a with
    | ⟨0, _⟩ => exact Fin.ext (by simp)
    | ⟨1, _⟩ => exact Fin.ext (by simp)
  rw [hi]
  show (iblk m c 0 t : S2x12544.Idx → EReal) (ix2 1 p) = _
  rw [iblk0_eq m c t, Cert.Stem.Mask.maskK m c]
  exact Cert.Stem.Mask.mask_row1 p

/-- The first convolution of the body at point `t`, read at (e, p): the 48-term sum of the weight matrix's row `e` against
    the 4×4 patch of the padded image `t` at position `p`. -/
theorem conv_blocks (c : Dev nD) (t : Fin cfg0.N) (e : Fin 32) (p : Fin 12544) :
    (conv (F := Ideal) (View.ld (Val := Elt Ideal) (e' := .f32) (bWg m c t) (Rect.unit ![0, 0, 0] ![1, 32, 12] inb_S4x32x12_S1x32x12_0_0_0))
        (View.ld (Val := Elt Ideal) (e' := .f32) (bWg m c t) (Rect.unit ![1, 0, 0] ![1, 32, 12] inb_S4x32x12_S1x32x12_1_0_0))
        (View.ld (Val := Elt Ideal) (e' := .f32) (bWg m c t) (Rect.unit ![2, 0, 0] ![1, 32, 12] inb_S4x32x12_S1x32x12_2_0_0))
        (View.ld (Val := Elt Ideal) (e' := .f32) (bWg m c t) (Rect.unit ![3, 0, 0] ![1, 32, 12] inb_S4x32x12_S1x32x12_3_0_0))
        (View.ld (Val := Elt Ideal) (e' := .f32) (bImg m c t) (Rect.unit ![0, 0, 0] ![1, 12, 12544] inb_S1x12x12768_S1x12x12544_0_0_0))
        (View.ld (Val := Elt Ideal) (e' := .f32) (bImg m c t) (Rect.unit ![0, 0, 1] ![1, 12, 12544] inb_S1x12x12768_S1x12x12544_0_0_1))
        (View.ld (Val := Elt Ideal) (e' := .f32) (bImg m c t) (Rect.unit ![0, 0, 112] ![1, 12, 12544] inb_S1x12x12768_S1x12x12544_0_0_112))
        (View.ld (Val := Elt Ideal) (e' := .f32) (bImg m c t) (Rect.unit ![0, 0, 113] ![1, 12, 12544] inb_S1x12x12768_S1x12x12544_0_0_113))
        (View.ld (Val := Elt Ideal) (e' := .f32) (bMask m c t) (Rect.unit ![1, 0] ![1, 12544] inb_S2x12544_S1x12544_1_0)) : S32x12544.Idx → EReal) (ix2 e p)
      = ∑ K : Fin 48, wArr m c (ix2 e K) * xpAt (xpad (xArr m c) t.val) K p.val := by
  unfold conv
  rw [Cert.KernelIdeal.ConvK.convK_apply]
  simp only [wgrp m c t 0 (by decide), wgrp m c t 1 (by decide), wgrp m c t 2 (by decide), wgrp m c t 3 (by decide),
    xwin m c t 0 (by omega), xwin m c t 1 (by omega), xwin m c t 112 (by omega), xwin m c t 113 (by omega), mrow1 m c t,
    Nat.add_zero]
  exact conv_bridge (xpad (xArr m c) t.val) (fun ch h w hw => xpad_col_ge _ _ _ _ _ hw) (fun K => wArr m c (ix2 e K)) p.val p.isLt

end Cert.KernelIdeal.ValueK

end
-- ==== Proof.ValueR.lean ====
/-
  What the reference's kernel body leaves in its output block, as a function of the blocks it reads.

  Per image the body multiplies the [32, 48] weight matrix into the [48, 12544] patch matrix, adds the bias and clips
  to [0, 6] (`clipb (conv …) b1`), writes that array `Y` into the middle of a [32, 12800] scratch row buffer between two
  zero bands of 128 lanes, reads nine shifted windows of the buffer back (offsets 128 + 112·(kh − 1) + (kw − 1)), scales
  them by the nine depthwise weights, sums them column group by column group, multiplies the left and right groups by
  the two lane-mask rows, adds the bias, clips again, multiplies by the [16, 32] reduction matrix and adds its bias:
  `tail`. The run's found piece for the output is read back as exactly this composition (`out_eq`).
-/
import proofs.«150594_g2000309665041701_pallasbulk_1097_2_alg».proof.Proof.RefFrame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.ReferenceIdeal.ValueR

open Cert.ReferenceIdeal Cert.ReferenceIdeal.Gen Cert.ReferenceIdeal.Hand

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The scratch row buffer after the body's three stores: `Y` at lanes [128, 12672), zeros on the 128 lanes before
    and the 128 lanes after. -/
def scr (Y : FVec F S32x12544 .f32) : S32x12800.Idx → Elt F .f32 :=
  View.canon
    [⟨Rect.unit ![0, 128] ![32, 12544] inb_S32x12800_S32x12544_0_128, Y⟩,
     ⟨Rect.unit ![0, 12672] ![32, 128] inb_S32x12800_S32x128_0_12672, k0_pay3⟩,
     ⟨Rect.unit ![0, 0] ![32, 128] inb_S32x12800_S32x128_0_0, k0_pay2⟩]

/-- The depthwise 3×3 stage and the 1×1 reduction over the nine shifted windows of the scratch buffer: mask rows
    `r0`, `r1`, depthwise weights `wdw` and bias `bdw`, reduction weights `w3` and bias `b3`. -/
def tail (r0 r1 : Vec F S1x12544 .f32) (wdw : Vec F S32x9 .f32) (Y : FVec F S32x12544 .f32) (bdw : Vec F S32x1 .f32)
    (w3 : Vec F S16x32 .f32) (b3 : Vec F S16x1 .f32) : FVec F S1x16x12544 .f32 :=
  k0_pay1
    (k0_pay6 wdw
      (k0_pay5 wdw (fun j : S32x12544.Idx => scr Y ((Rect.unit (s := S32x12800) ![0, 15] ![32, 12544] inb_S32x12800_S32x12544_0_15).idx j))
        (fun j : S32x12544.Idx => scr Y ((Rect.unit (s := S32x12800) ![0, 127] ![32, 12544] inb_S32x12800_S32x12544_0_127).idx j)))
      (fun j : S32x12544.Idx => scr Y ((Rect.unit (s := S32x12800) ![0, 239] ![32, 12544] inb_S32x12800_S32x12544_0_239).idx j))
      (fun j : S32x12544.Idx => scr Y ((Rect.unit (s := S32x12800) ![0, 16] ![32, 12544] inb_S32x12800_S32x12544_0_16).idx j))
      (fun j : S32x12544.Idx => scr Y ((Rect.unit (s := S32x12800) ![0, 128] ![32, 12544] inb_S32x12800_S32x12544_0_128).idx j))
      (fun j : S32x12544.Idx => scr Y ((Rect.unit (s := S32x12800) ![0, 240] ![32, 12544] inb_S32x12800_S32x12544_0_240).idx j))
      r0)
    (k0_pay7 wdw
      (fun j : S32x12544.Idx => scr Y ((Rect.unit (s := S32x12800) ![0, 17] ![32, 12544] inb_S32x12800_S32x12544_0_17).idx j))
      (fun j : S32x12544.Idx => scr Y ((Rect.unit (s := S32x12800) ![0, 129] ![32, 12544] inb_S32x12800_S32x12544_0_129).idx j))
      (fun j : S32x12544.Idx => scr Y ((Rect.unit (s := S32x12800) ![0, 241] ![32, 12544] inb_S32x12800_S32x12544_0_241).idx j))
      r1)
    bdw w3 b3

/-- Bias and clip to [0, 6]: what the body does to the first convolution's product before it stores it. -/
def clipb (Z : FVec F S32x12544 .f32) (b1 : Vec F S32x1 .f32) : FVec F S32x12544 .f32 :=
  shapeCast S32x12544
    (minimumf (broadcast S32x12544 (Scalar.ofBits .f32 0x40C00000#32))
      (maximumf (broadcast S32x12544 (Scalar.ofBits .f32 0x00000000#32))
        (addf Z (broadcastTo S32x12544 b1 broadcasts_S32x1_S32x12544))))
    shapeCasts_S32x12544_S32x12544

/-- The first convolution as one product of the weight matrix with the patch matrix. -/
def conv (wm : Vec F S32x48 .f32) (xp : Vec F S1x48x12544 .f32) : FVec F S32x12544 .f32 :=
  matmul dot_S32x48_S48x12544_S32x12544_1_0_0_1_n_n none wm (shapeCast S48x12544 xp shapeCasts_S1x48x12544_S48x12544)
    (constant S32x12544 .f32 0x00000000#32)

theorem pay4_eq (v0 : Vec F S32x48 .f32) (v1 : Vec F S1x48x12544 .f32) (v4 : Vec F S32x1 .f32) :
    k0_pay4 v0 v1 v4 = clipb (conv v0 v1) v4 := rfl

/-- The output block the run finds, read back as `tail` over `clipb (conv …)` of the input blocks. -/
theorem out_eq (c : Dev nD) (i : grid0.Coords) (arg1 : Memref sig .tc .vmem S2x12544 .f32) (harg1 : arg1.IsWhole) (arg2 : Memref sig .tc .vmem S1x48x12544 .f32) (harg2 : arg2.IsWhole) (arg3 : Memref sig .tc .vmem S32x48 .f32) (harg3 : arg3.IsWhole) (arg4 : Memref sig .tc .vmem S32x1 .f32) (harg4 : arg4.IsWhole) (arg5 : Memref sig .tc .vmem S32x9 .f32) (harg5 : arg5.IsWhole) (arg6 : Memref sig .tc .vmem S32x1 .f32) (harg6 : arg6.IsWhole) (arg7 : Memref sig .tc .vmem S16x32 .f32) (harg7 : arg7.IsWhole) (arg8 : Memref sig .tc .vmem S16x1 .f32) (harg8 : arg8.IsWhole) (arg9 : Memref sig .tc .vmem S1x16x12544 .f32) (harg9 : arg9.IsWhole) (arg10 : Memref sig .tc .vmem S32x12800 .f32) (harg10 : arg10.IsWhole)
    (x0 : Vec F S2x12544 .f32) (x1 : Vec F S1x48x12544 .f32) (x2 : Vec F S32x48 .f32) (x3 : Vec F S32x1 .f32) (x4 : Vec F S32x9 .f32) (x5 : Vec F S32x1 .f32) (x6 : Vec F S16x32 .f32) (x7 : Vec F S16x1 .f32) :
    out0_A_8 c i arg1 harg1 arg2 harg2 arg3 harg3 arg4 harg4 arg5 harg5 arg6 harg6 arg7 harg7 arg8 harg8 arg9 harg9 arg10 harg10 x0 x1 x2 x3 x4 x5 x6 x7
      = tail (View.ld x0 (Rect.unit ![0, 0] ![1, 12544] inb_S2x12544_S1x12544_0_0))
          (View.ld x0 (Rect.unit ![1, 0] ![1, 12544] inb_S2x12544_S1x12544_1_0)) x4
          (clipb (conv x2 x1) x3) x5 x6 x7 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 x0 x1 x2 x3 x4 x5 x6 x7)]
  unfold kernelRun0_A
  dsimp only
  sl_unfold_words
  rw [View.canon_unit_zero hz3]
  simp only [View.readAt_eq_ld, harg1.read_unread, harg2.read_unread, harg3.read_unread, harg4.read_unread,
    harg5.read_unread, harg6.read_unread, harg7.read_unread, harg8.read_unread, View.readCov_eq_canon',
    View.ld_unit_zero (S := S32x1) hz2, View.ld_unit_zero (S := S32x9) hz2, View.ld_unit_zero (S := S16x32) hz2,
    View.ld_unit_zero (S := S16x1) hz2, View.ld_unit_zero (S := S32x48) hz2, View.ld_unit_zero (S := S1x48x12544) hz3]
  rw [pay4_eq]
  rfl

end Cert.ReferenceIdeal.ValueR

end
-- ==== Proof.BlocksR.lean ====
/-
  The reference program's input blocks as the region-entry arrays read at an index. As in the kernel program, seven of
  the eight input windows have block index zero and a block as large as their array, so reading ANY contents of the
  array through the window gives those contents back, at every grid point; the window over the patch matrix has block
  index (t, 0, 0) and a block of one image: entry (0, K, p) read through it is entry (t, K, p) of the array. The facts
  are stated for arbitrary contents first and then said of the arrays the region finds.
-/
import proofs.«150594_g2000309665041701_pallasbulk_1097_2_alg».proof.Proof.ValueR
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.ReferenceIdeal.ValueR

open Cert.ReferenceIdeal Cert.ReferenceIdeal.Gen Cert.ReferenceIdeal.Hand

variable {F : FTy → Type} [FloatOps F]

/-- The input windows' block indices over the grid: all zero, but for the patch window's leading one, which is the
    point's number. -/
theorem idxIn : ∀ t : Fin cfg0.N,
    (win0_0.index t (0 : Fin 2) = 0 ∧ win0_0.index t (1 : Fin 2) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-! ## Reading arbitrary contents through each window -/

theorem read0 (t : Fin cfg0.N) (A : main_v25.ty.Contents (Elt F)) : ((cfg0.win 0).blk t).view.read (Elt F) A = A := by
  obtain ⟨⟨e0, e1⟩, -⟩ := idxIn t
  have hz : (fun a => win0_0.index t a * main_v25.ty.shape.size a) = fun _ => 0 := funext fun a => by
    match a with
    | ⟨0, _⟩ => show win0_0.index t (0 : Fin 2) * 2 = 0; omega
    | ⟨1, _⟩ => show win0_0.index t (1 : Fin 2) * 12544 = 0; omega
  exact Memref.read_access_unit_zero (Elt F) main_v25 hz (fun a => by rw [congrFun hz a]; simp) A

theorem read2 (t : Fin cfg0.N) (A : main_arg1.ty.Contents (Elt F)) : ((cfg0.win 2).blk t).view.read (Elt F) A = A := by
  obtain ⟨-, -, ⟨e0, e1⟩, -⟩ := idxIn t
  have hz : (fun a => win0_2.index t a * main_arg1.ty.shape.size a) = fun _ => 0 := funext fun a => by
    match a with
    | ⟨0, _⟩ => show win0_2.index t (0 : Fin 2) * 32 = 0; omega
    | ⟨1, _⟩ => show win0_2.index t (1 : Fin 2) * 48 = 0; omega
  exact Memref.read_access_unit_zero (Elt F) main_arg1 hz (fun a => by rw [congrFun hz a]; simp) A

theorem read3 (t : Fin cfg0.N) (A : main_arg2.ty.Contents (Elt F)) : ((cfg0.win 3).blk t).view.read (Elt F) A = A := by
  obtain ⟨-, -, -, ⟨e0, e1⟩, -⟩ := idxIn t
  have hz : (fun a => win0_3.index t a * main_arg2.ty.shape.size a) = fun _ => 0 := funext fun a => by
    match a with
    | ⟨0, _⟩ => show win0_3.index t (0 : Fin 2) * 32 = 0; omega
    | ⟨1, _⟩ => show win0_3.index t (1 : Fin 2) * 1 = 0; omega
  exact Memref.read_access_unit_zero (Elt F) main_arg2 hz (fun a => by rw [congrFun hz a]; simp) A

theorem read4 (t : Fin cfg0.N) (A : main_arg3.ty.Contents (Elt F)) : ((cfg0.win 4).blk t).view.read (Elt F) A = A := by
  obtain ⟨-, -, -, -, ⟨e0, e1⟩, -⟩ := idxIn t
  have hz : (fun a => win0_4.index t a * main_arg3.ty.shape.size a) = fun _ => 0 := funext fun a => by
    match a with
    | ⟨0, _⟩ => show win0_4.index t (0 : Fin 2) * 32 = 0; omega
    | ⟨1, _⟩ => show win0_4.index t (1 : Fin 2) * 9 = 0; omega
  exact Memref.read_access_unit_zero (Elt F) main_arg3 hz (fun a => by rw [congrFun hz a]; simp) A

theorem read5 (t : Fin cfg0.N) (A : main_arg4.ty.Contents (Elt F)) : ((cfg0.win 5).blk t).view.read (Elt F) A = A := by
  obtain ⟨-, -, -, -, -, ⟨e0, e1⟩, -⟩ := idxIn t
  have hz : (fun a => win0_5.index t a * main_arg4.ty.shape.size a) = fun _ => 0 := funext fun a => by
    match a with
    | ⟨0, _⟩ => show win0_5.index t (0 : Fin 2) * 32 = 0; omega
    | ⟨1, _⟩ => show win0_5.index t (1 : Fin 2) * 1 = 0; omega
  exact Memref.read_access_unit_zero (Elt F) main_arg4 hz (fun a => by rw [congrFun hz a]; simp) A

theorem read6 (t : Fin cfg0.N) (A : main_arg5.ty.Contents (Elt F)) : ((cfg0.win 6).blk t).view.read (Elt F) A = A := by
  obtain ⟨-, -, -, -, -, -, ⟨e0, e1⟩, -⟩ := idxIn t
  have hz : (fun a => win0_6.index t a * main_arg5.ty.shape.size a) = fun _ => 0 := funext fun a => by
    match a with
    | ⟨0, _⟩ => show win0_6.index t (0 : Fin 2) * 16 = 0; omega
    | ⟨1, _⟩ => show win0_6.index t (1 : Fin 2) * 32 = 0; omega
  exact Memref.read_access_unit_zero (Elt F) main_arg5 hz (fun a => by rw [congrFun hz a]; simp) A

theorem read7 (t : Fin cfg0.N) (A : main_arg6.ty.Contents (Elt F)) : ((cfg0.win 7).blk t).view.read (Elt F) A = A := by
  obtain ⟨-, -, -, -, -, -, -, e0, e1⟩ := idxIn t
  have hz : (fun a => win0_7.index t a * main_arg6.ty.shape.size a) = fun _ => 0 := funext fun a => by
    match a with
    | ⟨0, _⟩ => show win0_7.index t (0 : Fin 2) * 16 = 0; omega
    | ⟨1, _⟩ => show win0_7.index t (1 : Fin 2) * 1 = 0; omega
  exact Memref.read_access_unit_zero (Elt F) main_arg6 hz (fun a => by rw [congrFun hz a]; simp) A

/-- Through the patch window at point `t`, entry (0, K, p) is entry (t, K, p) of the contents. -/
theorem read1_apply (t : Fin cfg0.N) (A : S64x48x12544.Idx → Elt F .f32) (y : S1x48x12544.Idx) (j : S64x48x12544.Idx)
    (h0 : (j 0).val = t.val) (h1 : (j 1).val = (y 1).val) (h2 : (j 2).val = (y 2).val) :
    (((cfg0.win 1).blk t).view.read (Elt F) A : S1x48x12544.Idx → Elt F .f32) y = A j := by
  obtain ⟨-, ⟨e0, e1, e2⟩, -⟩ := idxIn t
  have hy0 : (y 0 : ℕ) < 1 := (y 0).isLt
  rw [View.read_apply]
  show A _ = A j
  congr 1
  funext a; apply Fin.ext
  match a with
  | ⟨0, _⟩ => show win0_1.index t (0 : Fin 3) * 1 + 1 * (y 0).val = (j 0).val; omega
  | ⟨1, _⟩ => show win0_1.index t (1 : Fin 3) * 48 + 1 * (y 1).val = (j 1).val; omega
  | ⟨2, _⟩ => show win0_1.index t (2 : Fin 3) * 12544 + 1 * (y 2).val = (j 2).val; omega

end Cert.ReferenceIdeal.ValueR

end
-- ==== Proof.HostR.lean ====
/-
  The reference's patch matrix at an index. Before its kernel region the reference transposes the argument image
  array x : [64, 3, 224, 224] to channels last, appends a zero row and a zero column twice (224 → 225 → 226), splits
  rows and columns in pairs ([64, 113, 2, 113, 2, 3]: row 2·I + r2, column 2·J + c2), takes the four windows
  I ∈ di + [0, 112), J ∈ dj + [0, 112) for (di, dj) ∈ {0, 1}², stacks them in the order (0,0), (0,1), (1,0), (1,1),
  reorders the axes to (b, di, r2, dj, c2, ch, i, j) and flattens to [64, 48, 12544] with
  K = 24·di + 12·r2 + 6·dj + 3·c2 + ch and p = 112·i + j. The lemma `xpatch_apply` states that this array, read at
  (b, K, p), is entry (K, p) of the 4×4 patch matrix of image b padded with zeros: x[b, ch, 2·(i + di) + r2,
  2·(j + dj) + c2] where both coordinates are below 224, and 0 otherwise.

  The chain is first named as one term of x (`xPatch`), and that term is then read at an index one operation at a
  time, outermost first: a reshape by equal row-major positions, a transpose by its permutation, the stack by the piece
  its axis coordinate names, a window by its offsets, a pad by whether the index lies inside the operand.
-/
import proofs.«150594_g2000309665041701_pallasbulk_1097_2_alg».proof.Proof.RefEntry
import proofs.«150594_g2000309665041701_pallasbulk_1097_2_alg».proof.Proof.Spec
import Idealize.ShloMosaic.Lib.ValueIdx
import Idealize.ShloMosaic.Lib.ValueLayout
import Idealize.ShloMosaic.Lib.KernelVsHost

noncomputable section
open Idealize.ShloMosaic Idealize.ShloMosaic.TcCoe Idealize.SL.Sem Idealize.ShloMosaic.ValueIdx
open Cert.Stem

namespace Cert.ReferenceIdeal.HostR
open Cert.ReferenceIdeal Cert.ReferenceIdeal.Gen Cert.ReferenceIdeal.Hand
variable (m : (ℓ : Loc nD τ sig) → Buf (Elt Ideal) ℓ) (c : Dev nD)

/-! ## The host chain as one term -/

/-- The image with channels last: entry (b, h, w, ch) is x[b, ch, h, w]. -/
def xT (x : S64x3x224x224.Idx → EReal) : S64x224x224x3.Idx → EReal :=
  transpose S64x224x224x3 [0, 2, 3, 1] x transposes_S64x3x224x224_S64x224x224x3_0_2_3_1

/-- The padding value: the integer zero converted. -/
def zpad : S_.Idx → EReal := (sitofp (F := Ideal) .f32 (constantI S_ 32 0#32) : FVec Ideal S_ .f32)

/-- One zero row and column appended below and to the right. -/
def xP1 (x : S64x3x224x224.Idx → EReal) : S64x225x225x3.Idx → EReal :=
  pad S64x225x225x3 ![0, 0, 0, 0] ![0, 1, 1, 0] ![0, 0, 0, 0] (xT x) zpad pads_S64x224x224x3_S64x225x225x3_000_010_010_000 h_S_

/-- A second zero row and column. -/
def xP2 (x : S64x3x224x224.Idx → EReal) : S64x226x226x3.Idx → EReal :=
  pad S64x226x226x3 ![0, 0, 0, 0] ![0, 1, 1, 0] ![0, 0, 0, 0] (xP1 x) zpad pads_S64x225x225x3_S64x226x226x3_000_010_010_000 h_S_

/-- Rows and columns split in pairs: (b, I, r2, J, c2, ch) is the padded image at row 2·I + r2, column 2·J + c2. -/
def xR (x : S64x3x224x224.Idx → EReal) : S64x113x2x113x2x3.Idx → EReal :=
  shapeCast S64x113x2x113x2x3 (xP2 x) shapeCasts_S64x226x226x3_S64x113x2x113x2x3

/-- The four shifted windows of 112 row pairs and 112 column pairs, each with a unit axis inserted. -/
def xB00 (x : S64x3x224x224.Idx → EReal) : S64x1x112x2x112x2x3.Idx → EReal :=
  broadcastInDim S64x1x112x2x112x2x3 ![0, 2, 3, 4, 5, 6] bcast_S64x112x2x112x2x3_S64x1x112x2x112x2x3_0_2_3_4_5_6
    (extractStridedSlice S64x112x2x112x2x3 ![0, 0, 0, 0, 0, 0] (xR x) slices_S64x113x2x113x2x3_S64x112x2x112x2x3_0_0_0_0_0_0)
def xB01 (x : S64x3x224x224.Idx → EReal) : S64x1x112x2x112x2x3.Idx → EReal :=
  broadcastInDim S64x1x112x2x112x2x3 ![0, 2, 3, 4, 5, 6] bcast_S64x112x2x112x2x3_S64x1x112x2x112x2x3_0_2_3_4_5_6
    (extractStridedSlice S64x112x2x112x2x3 ![0, 0, 0, 1, 0, 0] (xR x) slices_S64x113x2x113x2x3_S64x112x2x112x2x3_0_0_0_1_0_0)
def xB10 (x : S64x3x224x224.Idx → EReal) : S64x1x112x2x112x2x3.Idx → EReal :=
  broadcastInDim S64x1x112x2x112x2x3 ![0, 2, 3, 4, 5, 6] bcast_S64x112x2x112x2x3_S64x1x112x2x112x2x3_0_2_3_4_5_6
    (extractStridedSlice S64x112x2x112x2x3 ![0, 1, 0, 0, 0, 0] (xR x) slices_S64x113x2x113x2x3_S64x112x2x112x2x3_0_1_0_0_0_0)
def xB11 (x : S64x3x224x224.Idx → EReal) : S64x1x112x2x112x2x3.Idx → EReal :=
  broadcastInDim S64x1x112x2x112x2x3 ![0, 2, 3, 4, 5, 6] bcast_S64x112x2x112x2x3_S64x1x112x2x112x2x3_0_2_3_4_5_6
    (extractStridedSlice S64x112x2x112x2x3 ![0, 1, 0, 1, 0, 0] (xR x) slices_S64x113x2x113x2x3_S64x112x2x112x2x3_0_1_0_1_0_0)

/-- The four windows stacked on the unit axis, in the order (0,0), (0,1), (1,0), (1,1). -/
def xC (x : S64x3x224x224.Idx → EReal) : S64x4x112x2x112x2x3.Idx → EReal :=
  concatenate S64x4x112x2x112x2x3 1 [⟨S64x1x112x2x112x2x3, xB00 x⟩, ⟨S64x1x112x2x112x2x3, xB01 x⟩, ⟨S64x1x112x2x112x2x3, xB10 x⟩, ⟨S64x1x112x2x112x2x3, xB11 x⟩]
    concatenates_S64x1x112x2x112x2x3_S64x1x112x2x112x2x3_S64x1x112x2x112x2x3_S64x1x112x2x112x2x3_S64x4x112x2x112x2x3_d1

/-- The stacking axis split as (di, dj). -/
def xR2 (x : S64x3x224x224.Idx → EReal) : S64x2x2x112x2x112x2x3.Idx → EReal :=
  shapeCast S64x2x2x112x2x112x2x3 (xC x) shapeCasts_S64x4x112x2x112x2x3_S64x2x2x112x2x112x2x3

/-- Axes reordered to (b, di, r2, dj, c2, ch, i, j). -/
def xTr (x : S64x3x224x224.Idx → EReal) : S64x2x2x2x2x3x112x112.Idx → EReal :=
  transpose S64x2x2x2x2x3x112x112 [0, 1, 4, 2, 6, 7, 3, 5] (xR2 x) transposes_S64x2x2x112x2x112x2x3_S64x2x2x2x2x3x112x112_0_1_4_2_6_7_3_5

/-- The patch matrix: the five middle axes flattened to 48 and the last two to 12544. -/
def xPatch (x : S64x3x224x224.Idx → EReal) : S64x48x12544.Idx → EReal :=
  shapeCast S64x48x12544 (xTr x) shapeCasts_S64x2x2x2x2x3x112x112_S64x48x12544

open StableHlo in
/-- The patch matrix the region finds is that term of the argument image array: each host operation's result read at
    its own buffer, the operations that write other buffers passed over. -/
theorem V_v15 :
    (V m c main_v15 : S64x48x12544.Idx → EReal) = xPatch (m ((c : Thread nD τ).loc main_arg0)) := by
  dsimp only [Cert.ReferenceIdeal.Hand.V, Cert.ReferenceIdeal.Hand.V0]
  simp only [hostOps0, hostOps0_1, hostOps0_2, hostOps0_3, hostOps0_4, hostOps0_5, hostOps0_6, List.flatten_cons,
    List.flatten_nil, List.append_nil, List.cons_append, List.nil_append]
  after_results
  rfl

/-! ## Indices of rank seven and eight by coordinates, and their row-major positions -/

/-- A rank-7 index from its coordinates. -/
abbrev ix7 {n0 n1 n2 n3 n4 n5 n6 : Nat} (a0 : Fin n0) (a1 : Fin n1) (a2 : Fin n2) (a3 : Fin n3) (a4 : Fin n4) (a5 : Fin n5)
    (a6 : Fin n6) : (⟨7, ![n0, n1, n2, n3, n4, n5, n6]⟩ : Shape).Idx :=
  fun g => match g with | ⟨0, _⟩ => a0 | ⟨1, _⟩ => a1 | ⟨2, _⟩ => a2 | ⟨3, _⟩ => a3 | ⟨4, _⟩ => a4 | ⟨5, _⟩ => a5 | ⟨6, _⟩ => a6

/-- A rank-8 index from its coordinates. -/
abbrev ix8 {n0 n1 n2 n3 n4 n5 n6 n7 : Nat} (a0 : Fin n0) (a1 : Fin n1) (a2 : Fin n2) (a3 : Fin n3) (a4 : Fin n4) (a5 : Fin n5)
    (a6 : Fin n6) (a7 : Fin n7) : (⟨8, ![n0, n1, n2, n3, n4, n5, n6, n7]⟩ : Shape).Idx :=
  fun g => match g with
    | ⟨0, _⟩ => a0 | ⟨1, _⟩ => a1 | ⟨2, _⟩ => a2 | ⟨3, _⟩ => a3 | ⟨4, _⟩ => a4 | ⟨5, _⟩ => a5 | ⟨6, _⟩ => a6 | ⟨7, _⟩ => a7

/-- Rank 7: the row-major position as one sum of products. -/
theorem rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6
          + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

/-- Rank 8: the row-major position as one sum of products. -/
theorem rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5 + (i 5).val) * d 6
          + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-! ## The chain read at an index, outermost operation first -/

variable (x : S64x3x224x224.Idx → EReal)

/-- The last reshape: (b, K, p) holds what (b, di, r2, dj, c2, ch, i, j) held, K = 24·di + 12·r2 + 6·dj + 3·c2 + ch and
    p = 112·i + j: the two row-major positions agree. -/
theorem xPatch_apply (b : Fin 64) (di r2 dj c2 : Fin 2) (ch : Fin 3) (i j : Fin 112) (K : Fin 48) (p : Fin 12544)
    (hK : K.val = 24 * di.val + 12 * r2.val + 6 * dj.val + 3 * c2.val + ch.val) (hp : p.val = 112 * i.val + j.val) :
    xPatch x (ix3 b K p) = xTr x (ix8 b di r2 dj c2 ch i j) := by
  unfold xPatch
  refine shapeCast_apply _ _ _ _ ?_
  rw [rowMajor_val_eight, Shape.rowMajor_val_three]
  show (((((((b.val * 2 + di.val) * 2 + r2.val) * 2 + dj.val) * 2 + c2.val) * 3 + ch.val) * 112 + i.val) * 112 + j.val)
    = (b.val * 48 + K.val) * 12544 + p.val
  omega

/-- The transpose: (b, di, r2, dj, c2, ch, i, j) holds what (b, di, dj, i, r2, j, c2, ch) held. -/
theorem xTr_apply (b : Fin 64) (di r2 dj c2 : Fin 2) (ch : Fin 3) (i j : Fin 112) :
    xTr x (ix8 b di r2 dj c2 ch i j) = xR2 x (ix8 b di dj i r2 j c2 ch) := by
  unfold xTr
  refine transpose_apply _ _ _ _ _ fun a => ?_
  match a with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

/-- The middle reshape: (b, di, dj, …) holds what (b, g, …) held, g = 2·di + dj. -/
theorem xR2_apply (b : Fin 64) (di dj : Fin 2) (g : Fin 4) (i : Fin 112) (r2 : Fin 2) (j : Fin 112) (c2 : Fin 2) (ch : Fin 3)
    (hg : g.val = 2 * di.val + dj.val) :
    xR2 x (ix8 b di dj i r2 j c2 ch) = xC x (ix7 b g i r2 j c2 ch) := by
  unfold xR2
  refine shapeCast_apply _ _ _ _ ?_
  rw [rowMajor_val_eight, rowMajor_val_seven]
  show ((((((b.val * 4 + g.val) * 112 + i.val) * 2 + r2.val) * 112 + j.val) * 2 + c2.val) * 3 + ch.val)
    = (((((((b.val * 2 + di.val) * 2 + dj.val) * 112 + i.val) * 2 + r2.val) * 112 + j.val) * 2 + c2.val) * 3 + ch.val)
  omega

/-- One window: the unit axis dropped, then the slice at row-pair offset di and column-pair offset dj. -/
theorem window_apply (y : S64x113x2x113x2x3.Idx → EReal) (di dj : ℕ)
    (hs : S64x113x2x113x2x3.Slices ![0, di, 0, dj, 0, 0] S64x112x2x112x2x3)
    (b : Fin 64) (u : Fin 1) (i : Fin 112) (r2 : Fin 2) (j : Fin 112) (c2 : Fin 2) (ch : Fin 3)
    (I J : Fin 113) (hI : I.val = di + i.val) (hJ : J.val = dj + j.val) :
    broadcastInDim S64x1x112x2x112x2x3 ![0, 2, 3, 4, 5, 6] bcast_S64x112x2x112x2x3_S64x1x112x2x112x2x3_0_2_3_4_5_6
        (extractStridedSlice S64x112x2x112x2x3 ![0, di, 0, dj, 0, 0] y hs) (ix7 b u i r2 j c2 ch)
      = y (ix6 b I r2 J c2 ch) := by
  refine (broadcastInDim_apply _ _ _ _ (ix6 b i r2 j c2 ch) fun a => ?_).trans ?_
  · match a with
    | ⟨0, _⟩ => rfl | ⟨1, _⟩ => rfl | ⟨2, _⟩ => rfl | ⟨3, _⟩ => rfl | ⟨4, _⟩ => rfl | ⟨5, _⟩ => rfl
  · refine extractStridedSlice_apply _ _ _ _ _ fun a => ?_
    match a with
    | ⟨0, _⟩ => exact (Nat.zero_add _).symm
    | ⟨1, _⟩ => exact hI
    | ⟨2, _⟩ => exact (Nat.zero_add _).symm
    | ⟨3, _⟩ => exact hJ
    | ⟨4, _⟩ => exact (Nat.zero_add _).symm
    | ⟨5, _⟩ => exact (Nat.zero_add _).symm

/-- The stack at position g of the stacking axis is window g, read with 0 on its unit axis. -/
theorem xC_apply0 (b : Fin 64) (i : Fin 112) (r2 : Fin 2) (j : Fin 112) (c2 : Fin 2) (ch : Fin 3) :
    xC x (ix7 b (0 : Fin 4) i r2 j c2 ch) = xB00 x (ix7 b (0 : Fin 1) i r2 j c2 ch) := by
  unfold xC
  refine concatenate_apply_piece (t := S64x4x112x2x112x2x3) 1 _ _ _ 0 ?_ S64x1x112x2x112x2x3 (xB00 x) ?_ ?_ 0 ?_ _ (fun a ha => ?_) ?_
  · show (0 : ℕ) < 4; omega
  · rfl
  · rfl
  · rfl
  · match a, ha with
    | ⟨0, _⟩, _ => rfl | ⟨1, _⟩, ha => exact absurd rfl ha | ⟨2, _⟩, _ => rfl | ⟨3, _⟩, _ => rfl | ⟨4, _⟩, _ => rfl
    | ⟨5, _⟩, _ => rfl | ⟨6, _⟩, _ => rfl
  · rfl

theorem xC_apply1 (b : Fin 64) (i : Fin 112) (r2 : Fin 2) (j : Fin 112) (c2 : Fin 2) (ch : Fin 3) :
    xC x (ix7 b (1 : Fin 4) i r2 j c2 ch) = xB01 x (ix7 b (0 : Fin 1) i r2 j c2 ch) := by
  unfold xC
  refine concatenate_apply_piece (t := S64x4x112x2x112x2x3) 1 _ _ _ 1 ?_ S64x1x112x2x112x2x3 (xB01 x) ?_ ?_ 1 ?_ _ (fun a ha => ?_) ?_
  · show (1 : ℕ) < 4; omega
  · rfl
  · rfl
  · rfl
  · match a, ha with
    | ⟨0, _⟩, _ => rfl | ⟨1, _⟩, ha => exact absurd rfl ha | ⟨2, _⟩, _ => rfl | ⟨3, _⟩, _ => rfl | ⟨4, _⟩, _ => rfl
    | ⟨5, _⟩, _ => rfl | ⟨6, _⟩, _ => rfl
  · rfl

theorem xC_apply2 (b : Fin 64) (i : Fin 112) (r2 : Fin 2) (j : Fin 112) (c2 : Fin 2) (ch : Fin 3) :
    xC x (ix7 b (2 : Fin 4) i r2 j c2 ch) = xB10 x (ix7 b (0 : Fin 1) i r2 j c2 ch) := by
  unfold xC
  refine concatenate_apply_piece (t := S64x4x112x2x112x2x3) 1 _ _ _ 2 ?_ S64x1x112x2x112x2x3 (xB10 x) ?_ ?_ 2 ?_ _ (fun a ha => ?_) ?_
  · show (2 : ℕ) < 4; omega
  · rfl
  · rfl
  · rfl
  · match a, ha with
    | ⟨0, _⟩, _ => rfl | ⟨1, _⟩, ha => exact absurd rfl ha | ⟨2, _⟩, _ => rfl | ⟨3, _⟩, _ => rfl | ⟨4, _⟩, _ => rfl
    | ⟨5, _⟩, _ => rfl | ⟨6, _⟩, _ => rfl
  · rfl

theorem xC_apply3 (b : Fin 64) (i : Fin 112) (r2 : Fin 2) (j : Fin 112) (c2 : Fin 2) (ch : Fin 3) :
    xC x (ix7 b (3 : Fin 4) i r2 j c2 ch) = xB11 x (ix7 b (0 : Fin 1) i r2 j c2 ch) := by
  unfold xC
  refine concatenate_apply_piece (t := S64x4x112x2x112x2x3) 1 _ _ _ 3 ?_ S64x1x112x2x112x2x3 (xB11 x) ?_ ?_ 3 ?_ _ (fun a ha => ?_) ?_
  · show (3 : ℕ) < 4; omega
  · rfl
  · rfl
  · rfl
  · match a, ha with
    | ⟨0, _⟩, _ => rfl | ⟨1, _⟩, ha => exact absurd rfl ha | ⟨2, _⟩, _ => rfl | ⟨3, _⟩, _ => rfl | ⟨4, _⟩, _ => rfl
    | ⟨5, _⟩, _ => rfl | ⟨6, _⟩, _ => rfl
  · rfl

/-- The stack at g = 2·di + dj reads the pair-split image at row pair i + di and column pair j + dj. -/
theorem xC_apply (b : Fin 64) (di dj : Fin 2) (i : Fin 112) (r2 : Fin 2) (j : Fin 112) (c2 : Fin 2) (ch : Fin 3)
    (I J : Fin 113) (hI : I.val = di.val + i.val) (hJ : J.val = dj.val + j.val) :
    xC x (ix7 b (⟨2 * di.val + dj.val, by omega⟩ : Fin 4) i r2 j c2 ch) = xR x (ix6 b I r2 J c2 ch) := by
  match di, dj, hI, hJ with
  | ⟨0, _⟩, ⟨0, _⟩, hI, hJ => exact (xC_apply0 x b i r2 j c2 ch).trans (window_apply (xR x) 0 0 _ b 0 i r2 j c2 ch I J hI hJ)
  | ⟨0, _⟩, ⟨1, _⟩, hI, hJ => exact (xC_apply1 x b i r2 j c2 ch).trans (window_apply (xR x) 0 1 _ b 0 i r2 j c2 ch I J hI hJ)
  | ⟨1, _⟩, ⟨0, _⟩, hI, hJ => exact (xC_apply2 x b i r2 j c2 ch).trans (window_apply (xR x) 1 0 _ b 0 i r2 j c2 ch I J hI hJ)
  | ⟨1, _⟩, ⟨1, _⟩, hI, hJ => exact (xC_apply3 x b i r2 j c2 ch).trans (window_apply (xR x) 1 1 _ b 0 i r2 j c2 ch I J hI hJ)

/-- The first reshape: (b, I, r2, J, c2, ch) holds the padded image at row 2·I + r2 and column 2·J + c2. -/
theorem xR_apply (b : Fin 64) (I : Fin 113) (r2 : Fin 2) (J : Fin 113) (c2 : Fin 2) (ch : Fin 3) (H W : Fin 226)
    (hH : H.val = 2 * I.val + r2.val) (hW : W.val = 2 * J.val + c2.val) :
    xR x (ix6 b I r2 J c2 ch) = xP2 x (ix4 b H W ch) := by
  unfold xR
  refine shapeCast_apply _ _ _ _ ?_
  rw [Shape.rowMajor_val_six, Shape.rowMajor_val_four]
  show ((b.val * 226 + H.val) * 226 + W.val) * 3 + ch.val
    = ((((b.val * 113 + I.val) * 2 + r2.val) * 113 + J.val) * 2 + c2.val) * 3 + ch.val
  omega

/-- The padding value is zero. -/
theorem zpad_apply (u : S_.Idx) : zpad u = 0 := sitofp_zero (φ := .f32)

/-- The image with channels last, read at (b, h, w, ch). -/
theorem xT_apply (b : Fin 64) (h w : Fin 224) (ch : Fin 3) : xT x (ix4 b h w ch) = x (ix4 b ch h w) := by
  unfold xT
  refine transpose_apply _ _ _ _ _ fun a => ?_
  match a with
  | ⟨0, _⟩ => rfl | ⟨1, _⟩ => rfl | ⟨2, _⟩ => rfl | ⟨3, _⟩ => rfl

/-- After the first pad, entry (b, h, w, ch) is the image's where h and w are below 224 and zero on the new row and
    column. -/
theorem xP1_apply (b : Fin 64) (h w : Fin 225) (ch : Fin 3) : xP1 x (ix4 b h w ch) = xpad x b.val ch.val h.val w.val := by
  unfold xP1
  by_cases hin : h.val < 224 ∧ w.val < 224
  · rw [pad_apply_of_inside _ _ _ _ _ _ _ (ix4 b h w ch) (ix4 b ⟨h.val, hin.1⟩ ⟨w.val, hin.2⟩ ch) (fun a => by
      match a with
      | ⟨0, _⟩ => show b.val = 0 + b.val * (0 + 1); omega
      | ⟨1, _⟩ => show h.val = 0 + h.val * (0 + 1); omega
      | ⟨2, _⟩ => show w.val = 0 + w.val * (0 + 1); omega
      | ⟨3, _⟩ => show ch.val = 0 + ch.val * (0 + 1); omega)]
    rw [xT_apply]
    unfold xpad
    rw [dif_pos ⟨b.isLt, ch.isLt, hin.1, hin.2⟩]
  · have hz : xpad x b.val ch.val h.val w.val = 0 := by
      unfold xpad; rw [dif_neg]; intro hh; exact hin ⟨hh.2.2.1, hh.2.2.2⟩
    rw [hz]
    by_cases h1 : h.val < 224
    · have h2 : ¬ w.val < 224 := fun hw => hin ⟨h1, hw⟩
      rw [pad_apply_of_not_inside _ _ _ _ _ _ _ (ix4 b h w ch) (2 : Fin 4) (by
        show ¬ (0 ≤ w.val ∧ (w.val - 0) % (0 + 1) = 0 ∧ (w.val - 0) / (0 + 1) < 224)
        omega)]
      exact zpad_apply _
    · rw [pad_apply_of_not_inside _ _ _ _ _ _ _ (ix4 b h w ch) (1 : Fin 4) (by
        show ¬ (0 ≤ h.val ∧ (h.val - 0) % (0 + 1) = 0 ∧ (h.val - 0) / (0 + 1) < 224)
        omega)]
      exact zpad_apply _

/-- After the second pad too. -/
theorem xP2_apply (b : Fin 64) (h w : Fin 226) (ch : Fin 3) : xP2 x (ix4 b h w ch) = xpad x b.val ch.val h.val w.val := by
  unfold xP2
  by_cases hin : h.val < 225 ∧ w.val < 225
  · rw [pad_apply_of_inside _ _ _ _ _ _ _ (ix4 b h w ch) (ix4 b ⟨h.val, hin.1⟩ ⟨w.val, hin.2⟩ ch) (fun a => by
      match a with
      | ⟨0, _⟩ => show b.val = 0 + b.val * (0 + 1); omega
      | ⟨1, _⟩ => show h.val = 0 + h.val * (0 + 1); omega
      | ⟨2, _⟩ => show w.val = 0 + w.val * (0 + 1); omega
      | ⟨3, _⟩ => show ch.val = 0 + ch.val * (0 + 1); omega)]
    exact xP1_apply x b ⟨h.val, hin.1⟩ ⟨w.val, hin.2⟩ ch
  · have hz : xpad x b.val ch.val h.val w.val = 0 := by
      unfold xpad; rw [dif_neg]; intro hh; omega
    rw [hz]
    by_cases h1 : h.val < 225
    · have h2 : ¬ w.val < 225 := fun hw => hin ⟨h1, hw⟩
      rw [pad_apply_of_not_inside _ _ _ _ _ _ _ (ix4 b h w ch) (2 : Fin 4) (by
        show ¬ (0 ≤ w.val ∧ (w.val - 0) % (0 + 1) = 0 ∧ (w.val - 0) / (0 + 1) < 225)
        omega)]
      exact zpad_apply _
    · rw [pad_apply_of_not_inside _ _ _ _ _ _ _ (ix4 b h w ch) (1 : Fin 4) (by
        show ¬ (0 ≤ h.val ∧ (h.val - 0) % (0 + 1) = 0 ∧ (h.val - 0) / (0 + 1) < 225)
        omega)]
      exact zpad_apply _

/-- The patch matrix of an image array at (b, K, p): K splits as 24·di + 12·r2 + 6·dj + 3·c2 + ch and p as 112·i + j,
    and the entry is the zero-padded image's at channel ch, row 2·(i + di) + r2, column 2·(j + dj) + c2. -/
theorem xPatch_at (b : Fin 64) (K : Fin 48) (p : Fin 12544) :
    xPatch x (ix3 b K p) = xpAt (xpad x b.val) K.val p.val := by
  have hK := K.isLt
  have hp := p.isLt
  obtain ⟨di, hdi⟩ : ∃ d : Fin 2, d.val = K.val / 24 := ⟨⟨K.val / 24, by omega⟩, rfl⟩
  obtain ⟨r2, hr2⟩ : ∃ d : Fin 2, d.val = K.val / 12 % 2 := ⟨⟨K.val / 12 % 2, by omega⟩, rfl⟩
  obtain ⟨dj, hdj⟩ : ∃ d : Fin 2, d.val = K.val / 6 % 2 := ⟨⟨K.val / 6 % 2, by omega⟩, rfl⟩
  obtain ⟨c2, hc2⟩ : ∃ d : Fin 2, d.val = K.val / 3 % 2 := ⟨⟨K.val / 3 % 2, by omega⟩, rfl⟩
  obtain ⟨ch, hch⟩ : ∃ d : Fin 3, d.val = K.val % 3 := ⟨⟨K.val % 3, by omega⟩, rfl⟩
  obtain ⟨i, hi⟩ : ∃ d : Fin 112, d.val = p.val / 112 := ⟨⟨p.val / 112, by omega⟩, rfl⟩
  obtain ⟨j, hj⟩ : ∃ d : Fin 112, d.val = p.val % 112 := ⟨⟨p.val % 112, by omega⟩, rfl⟩
  obtain ⟨I, hI⟩ : ∃ d : Fin 113, d.val = di.val + i.val := ⟨⟨di.val + i.val, by omega⟩, rfl⟩
  obtain ⟨J, hJ⟩ : ∃ d : Fin 113, d.val = dj.val + j.val := ⟨⟨dj.val + j.val, by omega⟩, rfl⟩
  obtain ⟨H, hH⟩ : ∃ d : Fin 226, d.val = 2 * I.val + r2.val := ⟨⟨2 * I.val + r2.val, by omega⟩, rfl⟩
  obtain ⟨W, hW⟩ : ∃ d : Fin 226, d.val = 2 * J.val + c2.val := ⟨⟨2 * J.val + c2.val, by omega⟩, rfl⟩
  rw [xPatch_apply x b di r2 dj c2 ch i j K p (by omega) (by omega), xTr_apply,
    xR2_apply x b di dj ⟨2 * di.val + dj.val, by omega⟩ i r2 j c2 ch rfl,
    xC_apply x b di dj i r2 j c2 ch I J hI hJ, xR_apply x b I r2 J c2 ch H W hH hW, xP2_apply]
  unfold xpAt
  rw [hch, hH, hW, hI, hJ, hdi, hr2, hdj, hc2, hi, hj, Nat.add_comm (K.val / 24), Nat.add_comm (K.val / 6 % 2)]

/-- **The reference's patch matrix at (b, K, p)** is entry (K, p) of the patch matrix of the zero-padded image b. -/
theorem xpatch_apply (b : Fin 64) (K : Fin 48) (p : Fin 12544) :
    (V m c main_v15 : S64x48x12544.Idx → EReal) (ix3 b K p)
      = xpAt (xpad (m ((c : Thread nD τ).loc main_arg0)) b) K p :=
  (congrFun (V_v15 m c) (ix3 b K p)).trans (xPatch_at _ b K p)

end Cert.ReferenceIdeal.HostR
end
-- ==== Proof.ConvR.lean ====
/-
  The reference's first-convolution product read at an index. A matrix-unit product with dimension numbers
  [1],[0],[0],[1] into the zero accumulator is, on the extended reals, out[e, p] = Σ_K lhs[e, K] · rhs[K, p]; the
  right operand is the [1, 48, 12544] patch block with its leading unit axis dropped, so rhs[K, p] = xp[0, K, p].
-/
import proofs.«150594_g2000309665041701_pallasbulk_1097_2_alg».proof.Proof.Gen.ReferenceIdeal.Skeleton
import proofs.«150594_g2000309665041701_pallasbulk_1097_2_alg».proof.Proof.Spec
import Idealize.ShloMosaic.Lib.ValueIdx
import Idealize.ShloMosaic.Lib.ValueLayout
import Idealize.ShloMosaic.PureOps.Ideal.Laws

noncomputable section
open Idealize.ShloMosaic Idealize.ShloMosaic.TcCoe Idealize.SL.Sem Idealize.ShloMosaic.ValueIdx
open Cert.Stem

namespace Cert.ReferenceIdeal.ConvR
open Cert.ReferenceIdeal Cert.ReferenceIdeal.Gen

/-- The left operand's row coordinate is the output's row coordinate. -/
theorem lhs_S32x48_0 (j : S32x12544.Idx) (k : dot_S32x48_S48x12544_S32x12544_1_0_0_1_n_n.contr.Idx) :
    (dot_S32x48_S48x12544_S32x12544_1_0_0_1_n_n.lhsIdx j k 0).val = (j 0).val := by
  unfold DotDims.lhsIdx
  rw [dif_neg (show ¬(0 : Fin S32x48.rank) ∈ dot_S32x48_S48x12544_S32x12544_1_0_0_1_n_n.lhsBatch by decide),
    dif_pos (show (0 : Fin S32x48.rank) ∈ dot_S32x48_S48x12544_S32x12544_1_0_0_1_n_n.lhsNonContracting by decide)]
  rfl

/-- The left operand's column coordinate is the contraction position. -/
theorem lhs_S32x48_1 (j : S32x12544.Idx) (k : dot_S32x48_S48x12544_S32x12544_1_0_0_1_n_n.contr.Idx) :
    (dot_S32x48_S48x12544_S32x12544_1_0_0_1_n_n.lhsIdx j k 1).val = (k ⟨0, by decide⟩).val :=
  dot_S32x48_S48x12544_S32x12544_1_0_0_1_n_n.lhsIdx_val_of_single rfl j k

/-- The right operand's row coordinate is the contraction position. -/
theorem rhs_S48x12544_0 (j : S32x12544.Idx) (k : dot_S32x48_S48x12544_S32x12544_1_0_0_1_n_n.contr.Idx) :
    (dot_S32x48_S48x12544_S32x12544_1_0_0_1_n_n.rhsIdx j k 0).val = (k ⟨0, by decide⟩).val :=
  dot_S32x48_S48x12544_S32x12544_1_0_0_1_n_n.rhsIdx_val_of_single rfl j k

/-- The right operand's column coordinate is the output's column coordinate. -/
theorem rhs_S48x12544_1 (j : S32x12544.Idx) (k : dot_S32x48_S48x12544_S32x12544_1_0_0_1_n_n.contr.Idx) :
    (dot_S32x48_S48x12544_S32x12544_1_0_0_1_n_n.rhsIdx j k 1).val = (j 1).val := by
  unfold DotDims.rhsIdx
  rw [dif_neg (show ¬(1 : Fin S48x12544.rank) ∈ dot_S32x48_S48x12544_S32x12544_1_0_0_1_n_n.rhsBatch by decide),
    dif_pos (show (1 : Fin S48x12544.rank) ∈ dot_S32x48_S48x12544_S32x12544_1_0_0_1_n_n.rhsNonContracting by decide)]
  rfl

/-- The [32, 48] × [48, 12544] product into the zero accumulator, at (e, p): Σ_K l[e, K] · r[K, p]. -/
theorem matmul_zero_apply (l : Vec Ideal S32x48 .f32) (r : Vec Ideal S48x12544 .f32) (e : Fin 32) (p : Fin 12544) :
    (matmul (F := Ideal) (φ₁ := .f32) (φ₂ := .f32) dot_S32x48_S48x12544_S32x12544_1_0_0_1_n_n none l r
        (constant S32x12544 .f32 0x00000000#32) : S32x12544.Idx → EReal) (ix2 e p)
      = ∑ K : Fin 48, (l (ix2 e K) : EReal) * r (ix2 K p) := by
  simp only [matmul]
  rw [Ideal.matmul_constant_zero_apply,
    ← Equiv.sum_comp (contrEquiv1 dot_S32x48_S48x12544_S32x12544_1_0_0_1_n_n 48 rfl rfl).symm]
  refine Finset.sum_congr rfl fun K _ => ?_
  have hk := contrEquiv1_symm_val dot_S32x48_S48x12544_S32x12544_1_0_0_1_n_n 48 rfl rfl K
  have hl : dot_S32x48_S48x12544_S32x12544_1_0_0_1_n_n.lhsIdx (ix2 e p)
      ((contrEquiv1 dot_S32x48_S48x12544_S32x12544_1_0_0_1_n_n 48 rfl rfl).symm K) = ix2 e K := by
    funext a
    refine Fin.ext ?_
    match a with
    | ⟨0, _⟩ => exact lhs_S32x48_0 _ _
    | ⟨1, _⟩ => exact (lhs_S32x48_1 _ _).trans hk
  have hr : dot_S32x48_S48x12544_S32x12544_1_0_0_1_n_n.rhsIdx (ix2 e p)
      ((contrEquiv1 dot_S32x48_S48x12544_S32x12544_1_0_0_1_n_n 48 rfl rfl).symm K) = ix2 K p := by
    funext a
    refine Fin.ext ?_
    match a with
    | ⟨0, _⟩ => exact (rhs_S48x12544_0 _ _).trans hk
    | ⟨1, _⟩ => exact rhs_S48x12544_1 _ _
  rw [hl, hr]

theorem convR_apply (wm : Vec Ideal S32x48 .f32) (xp : Vec Ideal S1x48x12544 .f32) (e : Fin 32) (p : Fin 12544) :
    (matmul (F := Ideal) (φ₁ := .f32) (φ₂ := .f32) dot_S32x48_S48x12544_S32x12544_1_0_0_1_n_n none wm (shapeCast S48x12544 xp shapeCasts_S1x48x12544_S48x12544)
        (constant S32x12544 .f32 0x00000000#32) : S32x12544.Idx → EReal) (ix2 e p)
      = ∑ K : Fin 48, (wm (ix2 e K) : EReal) * xp (ix3 0 K p) := by
  rw [matmul_zero_apply]
  refine Finset.sum_congr rfl fun K _ => ?_
  rw [shapeCast_1ab_ab_apply]
end Cert.ReferenceIdeal.ConvR
end
-- ==== Proof.BridgeR.lean ====
/-
  The reference's first convolution at an output position, over the region-entry arrays: the 48-term sum of the weight
  matrix's row against the 4×4 patch of the zero-padded image.

  At grid point `t` the body's weight operand is the whole weight matrix as launched and its patch operand is image `t` of
  the patch matrix the host built, whose entry (t, K, p) is `xpAt` of the padded image; the one matrix product read at
  (e, p) is the sum over the 48 columns K.
-/
import proofs.«150594_g2000309665041701_pallasbulk_1097_2_alg».proof.Proof.BlocksR
import proofs.«150594_g2000309665041701_pallasbulk_1097_2_alg».proof.Proof.HostR
import proofs.«150594_g2000309665041701_pallasbulk_1097_2_alg».proof.Proof.ConvR

set_option maxRecDepth 16384

noncomputable section

open Idealize.ShloMosaic Idealize.ShloMosaic.TcCoe Idealize.SL.Sem Idealize.ShloMosaic.ValueIdx
open Cert.Stem

namespace Cert.ReferenceIdeal.ValueR

open Cert.ReferenceIdeal Cert.ReferenceIdeal.Gen Cert.ReferenceIdeal.Hand

variable (m : (ℓ : Loc nD τ sig) → Buf (Elt Ideal) ℓ)

/-- The weight matrix and the image as launched, and the two blocks the first convolution reads, each named at its
    literal type. -/
abbrev wArr (c : Dev nD) : S32x48.Idx → EReal := m ((c : Thread nD τ).loc main_arg1)
abbrev xArr (c : Dev nD) : S64x3x224x224.Idx → EReal := m ((c : Thread nD τ).loc main_arg0)
abbrev bW (c : Dev nD) (t : Fin cfg0.N) : S32x48.Idx → EReal := iblk m c 2 t
abbrev bPatch (c : Dev nD) (t : Fin cfg0.N) : S1x48x12544.Idx → EReal := iblk m c 1 t

theorem t_lt (t : Fin cfg0.N) : t.val < 64 := lt_of_lt_of_eq t.isLt N_0

/-- The weight block is the weight matrix as launched. -/
theorem bW_eq (c : Dev nD) (t : Fin cfg0.N) : bW m c t = wArr m c := by
  show (iblk m c 2 t : S32x48.Idx → EReal) = _
  unfold iblk
  rw [read2 t _]
  exact V_main_arg1 m c

/-- The patch block at (0, K, p) is the padded image `t` at patch position (K, p). -/
theorem bPatch_apply (c : Dev nD) (t : Fin cfg0.N) (K : Fin 48) (p : Fin 12544) :
    bPatch m c t (ix3 (0 : Fin 1) K p) = xpAt (xpad (xArr m c) t.val) K p := by
  show (iblk m c 1 t : S1x48x12544.Idx → EReal) (ix3 (0 : Fin 1) K p) = _
  unfold iblk
  rw [read1_apply t _ (ix3 (0 : Fin 1) K p) (ix3 (⟨t.val, t_lt t⟩ : Fin 64) K p) rfl rfl rfl]
  exact Cert.ReferenceIdeal.HostR.xpatch_apply m c ⟨t.val, t_lt t⟩ K p

/-- The first convolution of the body at point `t`, read at (e, p). -/
theorem conv_blocks (c : Dev nD) (t : Fin cfg0.N) (e : Fin 32) (p : Fin 12544) :
    (conv (F := Ideal) (bW m c t) (bPatch m c t) : S32x12544.Idx → EReal) (ix2 e p)
      = ∑ K : Fin 48, wArr m c (ix2 e K) * xpAt (xpad (xArr m c) t.val) K p.val := by
  unfold conv
  rw [Cert.ReferenceIdeal.ConvR.convR_apply, bW_eq m c t]
  exact Finset.sum_congr rfl fun K _ => by rw [bPatch_apply m c t K p]

end Cert.ReferenceIdeal.ValueR

end
-- ==== Proof.FinalK.lean ====
/-
  The kernel program's result array, in closed form.

  The grid has one point per image; point `t` reads block `t` of the re-tiled image and the whole of every other
  operand, and writes block `t` (one [16, 12544] slab) of the [64, 16, 12544] output. So the array after the run is,
  at (b, o, p), entry (0, o, p) of what the body leaves at point `b` (`G`), the blocks tiling the array; the one host
  operation after the region reshapes it to [64, 16, 112, 112].
-/
import proofs.«150594_g2000309665041701_pallasbulk_1097_2_alg».proof.Proof.ValueK
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ValueK

open Cert.KernelIdeal Cert.KernelIdeal.Gen

variable {F : FTy → Type} [FloatOps F]
variable (m : (ℓ : Loc nD τ sig) → Buf (Elt F) ℓ) (ρ : Dev nD → PrngReg)

/-- The output window's block index at point `t` is (t, 0, 0). -/
theorem idx8 : ∀ t : Fin cfg0.N, win0_8.index t (0 : Fin 3) = t.val ∧ win0_8.index t (1 : Fin 3) = 0 ∧ win0_8.index t (2 : Fin 3) = 0 :=
  (by decide +kernel : ∀ t : Fin grid0.N, _)

/-- The result array: at (b, o, p), entry (0, o, p) of the block the body leaves at point `b`. -/
def G (c : Dev nD) : S64x16x12544.Idx → Elt F .f32 := fun j =>
  (outsAt0 m c ⟨(j 0).val, by rw [show cfg0.N = 64 from N_0]; exact (j 0).isLt⟩ : S1x16x12544.Idx → Elt F .f32)
    (ix3 (0 : Fin 1) (⟨(j 1).val, (j 1).isLt⟩ : Fin 16) (⟨(j 2).val, (j 2).isLt⟩ : Fin 12544))

theorem G_apply (c : Dev nD) (t : Fin cfg0.N) (y : S1x16x12544.Idx) (j : S64x16x12544.Idx)
    (h0 : (j 0).val = t.val) (h1 : (j 1).val = (y 1).val) (h2 : (j 2).val = (y 2).val) :
    G m c j = (outsAt0 m c t : S1x16x12544.Idx → Elt F .f32) y := by
  have hy0 : (y 0 : ℕ) < 1 := (y 0).isLt
  have hy : ix3 (0 : Fin 1) (⟨(j 1).val, (j 1).isLt⟩ : Fin 16) (⟨(j 2).val, (j 2).isLt⟩ : Fin 12544) = y := by
    funext a
    match a with
    | ⟨0, _⟩ => exact Fin.ext (by show (0 : ℕ) = (y 0).val; omega)
    | ⟨1, _⟩ => exact Fin.ext h1
    | ⟨2, _⟩ => exact Fin.ext h2
  unfold G
  rw [hy]
  cases t with
  | mk tv htv =>
    simp only at h0
    subst h0
    rfl

/-- What point `t` writes back is block `t` of `G`. -/
theorem flushed_eq (c : Dev nD) (t : Fin cfg0.N) :
    (dats m 0 c).flushed 8 t = ((cfg0.win 8).blk t).view.read (Elt F) (G m c) := by
  show (cfg0.win 8).cut (grid0.coords t) ((dats m 0 c).after 8 t) = _
  rw [after0_8]
  obtain ⟨e0, e1, e2⟩ := idx8 t
  refine funext fun (y : S1x16x12544.Idx) => ?_
  have hy0 : (y 0 : ℕ) < 1 := (y 0).isLt
  have h0 : ((((cfg0.win 8).blk t).view.emb y) 0).val = t.val := by
    show win0_8.index t (0 : Fin 3) * 1 + 1 * (y 0).val = t.val
    omega
  have h1 : ((((cfg0.win 8).blk t).view.emb y) 1).val = (y 1).val := by
    show win0_8.index t (1 : Fin 3) * 16 + 1 * (y 1).val = (y 1).val
    omega
  have h2 : ((((cfg0.win 8).blk t).view.emb y) 2).val = (y 2).val := by
    show win0_8.index t (2 : Fin 3) * 12544 + 1 * (y 2).val = (y 2).val
    omega
  rw [View.read_apply]
  simp only [cast_eq]
  exact (G_apply m c t ((cfg0.win 8).xinj (grid0.coords t) y) _ h0 h1 h2).symm

/-- An index of the array is in point `t`'s block iff each coordinate is in the block's range on its axis. -/
theorem mem_blk (t : Fin cfg0.N) (i : S64x16x12544.Idx) :
    i ∈ ((cfg0.win 8).blk t).view.set ↔ ∀ a : Fin 3, win0_8.index t a * S1x16x12544.size a ≤ (i a).val ∧ (i a).val < win0_8.index t a * S1x16x12544.size a + S1x16x12544.size a := by
  show i ∈ ((View.whole main_v17).slice (win0_8.rect t)).set ↔ _
  rw [View.set_slice_whole, Rect.mem_set_unit]
  exact Iff.rfl

/-- Every index of the array is in the block of the point its leading coordinate names. -/
theorem cover (i : S64x16x12544.Idx) :
    ∃ t : Fin cfg0.N, (cfg0.win 8).flush t = true ∧ i ∈ ((cfg0.win 8).blk t).view.set := by
  have hlt : (i 0).val < cfg0.N := by rw [show cfg0.N = 64 from N_0]; exact (i 0).isLt
  have h1 : (i 1 : ℕ) < 16 := (i 1).isLt
  have h2 : (i 2 : ℕ) < 12544 := (i 2).isLt
  obtain ⟨e0', e1, e2⟩ := idx8 ⟨(i 0).val, hlt⟩
  have e0 : win0_8.index ⟨(i 0).val, hlt⟩ (0 : Fin 3) = (i 0).val := e0'
  refine ⟨⟨(i 0).val, hlt⟩, flush0_8 _, ?_⟩
  rw [mem_blk]
  intro a
  match a with
  | ⟨0, _⟩ => show win0_8.index ⟨(i 0).val, hlt⟩ (0 : Fin 3) * 1 ≤ (i 0).val ∧ (i 0).val < win0_8.index ⟨(i 0).val, hlt⟩ (0 : Fin 3) * 1 + 1
              rw [e0]; omega
  | ⟨1, _⟩ => show win0_8.index ⟨(i 0).val, hlt⟩ (1 : Fin 3) * 16 ≤ (i 1).val ∧ (i 1).val < win0_8.index ⟨(i 0).val, hlt⟩ (1 : Fin 3) * 16 + 16
              rw [e1]; omega
  | ⟨2, _⟩ => show win0_8.index ⟨(i 0).val, hlt⟩ (2 : Fin 3) * 12544 ≤ (i 2).val ∧ (i 2).val < win0_8.index ⟨(i 0).val, hlt⟩ (2 : Fin 3) * 12544 + 12544
              rw [e2]; omega

/-- The blocks tile the array: it ends holding `G`. -/
theorem final (c : Dev nD) : (dats m 0 c).arrAt 8 cfg0.N = G m c :=
  (dats m 0 c).arrAt_eq_of_cover 8 (G m c) (fun t _ => flushed_eq m c t) cover

/-- After the region, the one host operation reshapes the output array to [64, 16, 112, 112]. -/
theorem result_eq (c : Dev nD) :
    Pipeline.afterTail₀ cfgs (dats m) 0 (V0 m) [hostOps1] c main_v18
      = (shapeCast S64x16x112x112 (G m c) shapeCasts_S64x16x12544_S64x16x112x112 : S64x16x112x112.Idx → Elt F .f32) := by
  have hW : Pipeline.withArrays (cfgs 0).spec c (V0 m c) (fun w => (dats m 0 c).arrAt w (cfgs 0).N) (Proc.tc.devRef main_v17)
      = G m c := (Pipeline.withArrays_arr spec0 launch0.win.arr_inj c _ _ 8).trans (final m c)
  unfold Pipeline.afterTail₀
  show StableHlo.after hostOps1 _ (Proc.devRef .tc main_v18) = _
  after_results
  rw [hW]
  rfl

/-- The run, read: the result buffer at the reshaped `G`, every argument array as launched. -/
theorem run : θ_run defs (onTc (τ := τ) (main (F := F))) ⟨m, fun _ => 0, ρ⟩ fun r => ∀ c : Dev nD,
      r.2.mem ((c.tc : Thread nD τ).loc main_v18) = (shapeCast S64x16x112x112 (G m c) shapeCasts_S64x16x12544_S64x16x112x112 : S64x16x112x112.Idx → Elt F .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨((h c).2 main_v18 (Pipeline.mem_restRefs_of main_v18 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c))),
      ((h c).1 7).trans (((dats m 0 c).arrAt_in 7 rfl _).trans ((A_eq m c 7).trans (V_main_arg6 m c)))⟩)
    (run_main m ρ)

end Cert.KernelIdeal.ValueK

end
-- ==== Proof.FinalR.lean ====
/-
  The reference program's result array, in closed form.

  As in the kernel program the grid has one point per image; point `t` reads block `t` of the patch matrix and the whole
  of every other operand, and writes block `t` (one [16, 12544] slab) of the [64, 16, 12544] output. So the array after
  the run is, at (b, o, p), entry (0, o, p) of what the body leaves at point `b` (`G`), the blocks tiling the array; the
  one host operation after the region reshapes it to [64, 16, 112, 112]. Every argument array ends as launched: the
  image is staged by no window, the six parameter arrays by input windows that are never written back.
-/
import proofs.«150594_g2000309665041701_pallasbulk_1097_2_alg».proof.Proof.ValueR
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.ReferenceIdeal.ValueR

open Cert.ReferenceIdeal Cert.ReferenceIdeal.Gen Cert.ReferenceIdeal.Hand

variable {F : FTy → Type} [FloatOps F]
variable (m : (ℓ : Loc nD τ sig) → Buf (Elt F) ℓ) (ρ : Dev nD → PrngReg)

/-- The output window's block index at point `t` is (t, 0, 0). -/
theorem idx8 : ∀ t : Fin cfg0.N, win0_8.index t (0 : Fin 3) = t.val ∧ win0_8.index t (1 : Fin 3) = 0 ∧ win0_8.index t (2 : Fin 3) = 0 :=
  (by decide +kernel : ∀ t : Fin grid0.N, _)

/-- The result array: at (b, o, p), entry (0, o, p) of the block the body leaves at point `b`. -/
def G (c : Dev nD) : S64x16x12544.Idx → Elt F .f32 := fun j =>
  (outsAt0 m c ⟨(j 0).val, by rw [show cfg0.N = 64 from N_0]; exact (j 0).isLt⟩ : S1x16x12544.Idx → Elt F .f32)
    (ix3 (0 : Fin 1) (⟨(j 1).val, (j 1).isLt⟩ : Fin 16) (⟨(j 2).val, (j 2).isLt⟩ : Fin 12544))

theorem G_apply (c : Dev nD) (t : Fin cfg0.N) (y : S1x16x12544.Idx) (j : S64x16x12544.Idx)
    (h0 : (j 0).val = t.val) (h1 : (j 1).val = (y 1).val) (h2 : (j 2).val = (y 2).val) :
    G m c j = (outsAt0 m c t : S1x16x12544.Idx → Elt F .f32) y := by
  have hy0 : (y 0 : ℕ) < 1 := (y 0).isLt
  have hy : ix3 (0 : Fin 1) (⟨(j 1).val, (j 1).isLt⟩ : Fin 16) (⟨(j 2).val, (j 2).isLt⟩ : Fin 12544) = y := by
    funext a
    match a with
    | ⟨0, _⟩ => exact Fin.ext (by show (0 : ℕ) = (y 0).val; omega)
    | ⟨1, _⟩ => exact Fin.ext h1
    | ⟨2, _⟩ => exact Fin.ext h2
  unfold G
  rw [hy]
  cases t with
  | mk tv htv =>
    simp only at h0
    subst h0
    rfl

/-- What point `t` writes back is block `t` of `G`. -/
theorem flushed_eq (c : Dev nD) (t : Fin cfg0.N) :
    (dats m 0 c).flushed 8 t = ((cfg0.win 8).blk t).view.read (Elt F) (G m c) := by
  show (cfg0.win 8).cut (grid0.coords t) ((dats m 0 c).after 8 t) = _
  rw [after0_8]
  obtain ⟨e0, e1, e2⟩ := idx8 t
  refine funext fun (y : S1x16x12544.Idx) => ?_
  have hy0 : (y 0 : ℕ) < 1 := (y 0).isLt
  have h0 : ((((cfg0.win 8).blk t).view.emb y) 0).val = t.val := by
    show win0_8.index t (0 : Fin 3) * 1 + 1 * (y 0).val = t.val
    omega
  have h1 : ((((cfg0.win 8).blk t).view.emb y) 1).val = (y 1).val := by
    show win0_8.index t (1 : Fin 3) * 16 + 1 * (y 1).val = (y 1).val
    omega
  have h2 : ((((cfg0.win 8).blk t).view.emb y) 2).val = (y 2).val := by
    show win0_8.index t (2 : Fin 3) * 12544 + 1 * (y 2).val = (y 2).val
    omega
  rw [View.read_apply]
  simp only [cast_eq]
  exact (G_apply m c t ((cfg0.win 8).xinj (grid0.coords t) y) _ h0 h1 h2).symm

/-- An index of the array is in point `t`'s block iff each coordinate is in the block's range on its axis. -/
theorem mem_blk (t : Fin cfg0.N) (i : S64x16x12544.Idx) :
    i ∈ ((cfg0.win 8).blk t).view.set ↔ ∀ a : Fin 3, win0_8.index t a * S1x16x12544.size a ≤ (i a).val ∧ (i a).val < win0_8.index t a * S1x16x12544.size a + S1x16x12544.size a := by
  show i ∈ ((View.whole main_v26).slice (win0_8.rect t)).set ↔ _
  rw [View.set_slice_whole, Rect.mem_set_unit]
  exact Iff.rfl

/-- Every index of the array is in the block of the point its leading coordinate names. -/
theorem cover (i : S64x16x12544.Idx) :
    ∃ t : Fin cfg0.N, (cfg0.win 8).flush t = true ∧ i ∈ ((cfg0.win 8).blk t).view.set := by
  have hlt : (i 0).val < cfg0.N := by rw [show cfg0.N = 64 from N_0]; exact (i 0).isLt
  have h1 : (i 1 : ℕ) < 16 := (i 1).isLt
  have h2 : (i 2 : ℕ) < 12544 := (i 2).isLt
  obtain ⟨e0', e1, e2⟩ := idx8 ⟨(i 0).val, hlt⟩
  have e0 : win0_8.index ⟨(i 0).val, hlt⟩ (0 : Fin 3) = (i 0).val := e0'
  refine ⟨⟨(i 0).val, hlt⟩, flush0_8 _, ?_⟩
  rw [mem_blk]
  intro a
  match a with
  | ⟨0, _⟩ => show win0_8.index ⟨(i 0).val, hlt⟩ (0 : Fin 3) * 1 ≤ (i 0).val ∧ (i 0).val < win0_8.index ⟨(i 0).val, hlt⟩ (0 : Fin 3) * 1 + 1
              rw [e0]; omega
  | ⟨1, _⟩ => show win0_8.index ⟨(i 0).val, hlt⟩ (1 : Fin 3) * 16 ≤ (i 1).val ∧ (i 1).val < win0_8.index ⟨(i 0).val, hlt⟩ (1 : Fin 3) * 16 + 16
              rw [e1]; omega
  | ⟨2, _⟩ => show win0_8.index ⟨(i 0).val, hlt⟩ (2 : Fin 3) * 12544 ≤ (i 2).val ∧ (i 2).val < win0_8.index ⟨(i 0).val, hlt⟩ (2 : Fin 3) * 12544 + 12544
              rw [e2]; omega

/-- The blocks tile the array: it ends holding `G`. -/
theorem final (c : Dev nD) : (dats m 0 c).arrAt 8 cfg0.N = G m c :=
  (dats m 0 c).arrAt_eq_of_cover 8 (G m c) (fun t _ => flushed_eq m c t) cover

/-- After the region, the one host operation reshapes the output array to [64, 16, 112, 112]. -/
theorem result_eq (c : Dev nD) :
    Pipeline.afterTail₀ cfgs (dats m) 0 (V0 m) [hostOps1] c main_v27
      = (shapeCast S64x16x112x112 (G m c) shapeCasts_S64x16x12544_S64x16x112x112 : S64x16x112x112.Idx → Elt F .f32) := by
  have hW : Pipeline.withArrays (cfgs 0).spec c (V0 m c) (fun w => (dats m 0 c).arrAt w (cfgs 0).N) (Proc.tc.devRef main_v26)
      = G m c := (Pipeline.withArrays_arr spec0 launch0.win.arr_inj c _ _ 8).trans (final m c)
  unfold Pipeline.afterTail₀
  show StableHlo.after hostOps1 _ (Proc.devRef .tc main_v27) = _
  after_results
  rw [hW]
  rfl

/-- The run, read: the result buffer at the reshaped `G`, every argument array as launched. -/
theorem run : θ_run defs (onTc (τ := τ) (main (F := F))) ⟨m, fun _ => 0, ρ⟩ fun r => ∀ c : Dev nD,
      r.2.mem ((c.tc : Thread nD τ).loc main_v27) = (shapeCast S64x16x112x112 (G m c) shapeCasts_S64x16x12544_S64x16x112x112 : S64x16x112x112.Idx → Elt F .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨((h c).2 main_v27 (Pipeline.mem_restRefs_of main_v27 (by decide) (by decide))).trans (result_eq m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c))),
      ((h c).1 7).trans (((dats m 0 c).arrAt_in 7 rfl _).trans ((A_eq m c 7).trans (V_main_arg6 m c)))⟩)
    (run_main m ρ)

end Cert.ReferenceIdeal.ValueR

end
-- ==== Proof.Pair.lean ====
/-
  The two programs leave the same output block at every grid point.

  Past the first convolution the two kernel bodies are one and the same composition of vector operations — the same
  scratch round trip, the same nine windows, weights, masks, clips and reduction — so each block is `tail` of the mask
  rows, the depthwise weights, `Y`, and the remaining parameters, with one `tail` for both programs. The parameters are
  the argument arrays (equal by hypothesis), the mask rows are rows of one host-built array, and `Y` is the bias-and-clip
  of the first convolution, which both programs compute, position by position, as the same 48-term sum over the padded
  image: the kernel by four masked shifted products, the reference by one product against the patch matrix.
-/
import proofs.«150594_g2000309665041701_pallasbulk_1097_2_alg».proof.Proof.BridgeK
import proofs.«150594_g2000309665041701_pallasbulk_1097_2_alg».proof.Proof.BridgeR
import proofs.«150594_g2000309665041701_pallasbulk_1097_2_alg».proof.Proof.FinalK
import proofs.«150594_g2000309665041701_pallasbulk_1097_2_alg».proof.Proof.FinalR

set_option maxRecDepth 16384

noncomputable section

open Idealize.ShloMosaic Idealize.ShloMosaic.TcCoe Idealize.SL.Sem Idealize.ShloMosaic.ValueIdx
open Cert.Stem

/-! ## Each program's block at a point, over its input blocks -/

namespace Cert.KernelIdeal.ValueK
open Cert.KernelIdeal Cert.KernelIdeal.Gen
variable {F : FTy → Type} [FloatOps F] (m : (ℓ : Loc nD τ sig) → Buf (Elt F) ℓ)

theorem outsAt_eq (c : Dev nD) (t : Fin cfg0.N) :
    outsAt0 m c t
      = tail (View.ld (iblk m c 0 t) (Rect.unit ![0, 0] ![1, 12544] inb_S2x12544_S1x12544_0_0))
          (View.ld (iblk m c 0 t) (Rect.unit ![1, 0] ![1, 12544] inb_S2x12544_S1x12544_1_0)) (iblk m c 4 t)
          (clipb (conv (View.ld (iblk m c 2 t) (Rect.unit ![0, 0, 0] ![1, 32, 12] inb_S4x32x12_S1x32x12_0_0_0))
              (View.ld (iblk m c 2 t) (Rect.unit ![1, 0, 0] ![1, 32, 12] inb_S4x32x12_S1x32x12_1_0_0))
              (View.ld (iblk m c 2 t) (Rect.unit ![2, 0, 0] ![1, 32, 12] inb_S4x32x12_S1x32x12_2_0_0))
              (View.ld (iblk m c 2 t) (Rect.unit ![3, 0, 0] ![1, 32, 12] inb_S4x32x12_S1x32x12_3_0_0))
              (View.ld (iblk m c 1 t) (Rect.unit ![0, 0, 0] ![1, 12, 12544] inb_S1x12x12768_S1x12x12544_0_0_0))
              (View.ld (iblk m c 1 t) (Rect.unit ![0, 0, 1] ![1, 12, 12544] inb_S1x12x12768_S1x12x12544_0_0_1))
              (View.ld (iblk m c 1 t) (Rect.unit ![0, 0, 112] ![1, 12, 12544] inb_S1x12x12768_S1x12x12544_0_0_112))
              (View.ld (iblk m c 1 t) (Rect.unit ![0, 0, 113] ![1, 12, 12544] inb_S1x12x12768_S1x12x12544_0_0_113))
              (View.ld (iblk m c 0 t) (Rect.unit ![1, 0] ![1, 12544] inb_S2x12544_S1x12544_1_0))) (iblk m c 3 t))
          (iblk m c 5 t) (iblk m c 6 t) (iblk m c 7 t) := by
  unfold outsAt0
  exact out_eq c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) scM0_0 (Memref.isWhole_whole _)
    (iblk m c 0 t) (iblk m c 1 t) (iblk m c 2 t) (iblk m c 3 t) (iblk m c 4 t) (iblk m c 5 t) (iblk m c 6 t) (iblk m c 7 t)

end Cert.KernelIdeal.ValueK

namespace Cert.ReferenceIdeal.ValueR
open Cert.ReferenceIdeal Cert.ReferenceIdeal.Gen Cert.ReferenceIdeal.Hand
variable {F : FTy → Type} [FloatOps F] (m : (ℓ : Loc nD τ sig) → Buf (Elt F) ℓ)

theorem outsAt_eq (c : Dev nD) (t : Fin cfg0.N) :
    outsAt0 m c t
      = tail (View.ld (iblk m c 0 t) (Rect.unit ![0, 0] ![1, 12544] inb_S2x12544_S1x12544_0_0))
          (View.ld (iblk m c 0 t) (Rect.unit ![1, 0] ![1, 12544] inb_S2x12544_S1x12544_1_0)) (iblk m c 4 t)
          (clipb (conv (iblk m c 2 t) (iblk m c 1 t)) (iblk m c 3 t))
          (iblk m c 5 t) (iblk m c 6 t) (iblk m c 7 t) := by
  unfold outsAt0
  exact out_eq c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) scM0_0 (Memref.isWhole_whole _)
    (iblk m c 0 t) (iblk m c 1 t) (iblk m c 2 t) (iblk m c 3 t) (iblk m c 4 t) (iblk m c 5 t) (iblk m c 6 t) (iblk m c 7 t)

end Cert.ReferenceIdeal.ValueR

/-! ## One `tail`, one bias-and-clip -/

namespace Cert.Stem.Pair

variable {F : FTy → Type} [FloatOps F]

/-- Past the first convolution the two bodies are the same composition of operations. -/
theorem tail_eq (r0 r1 : Vec F Cert.KernelIdeal.S1x12544 .f32) (wdw : Vec F Cert.KernelIdeal.S32x9 .f32) (Y : FVec F Cert.KernelIdeal.S32x12544 .f32)
    (bdw : Vec F Cert.KernelIdeal.S32x1 .f32) (w3 : Vec F Cert.KernelIdeal.S16x32 .f32) (b3 : Vec F Cert.KernelIdeal.S16x1 .f32) :
    Cert.KernelIdeal.ValueK.tail r0 r1 wdw Y bdw w3 b3 = Cert.ReferenceIdeal.ValueR.tail r0 r1 wdw Y bdw w3 b3 := rfl

theorem clipb_eq (Z : FVec F Cert.KernelIdeal.S32x12544 .f32) (b1 : Vec F Cert.KernelIdeal.S32x1 .f32) :
    Cert.KernelIdeal.ValueK.clipb Z b1 = Cert.ReferenceIdeal.ValueR.clipb Z b1 := rfl

end Cert.Stem.Pair

/-! ## The blocks agree, so the result arrays agree -/

namespace Cert.Stem.Pair

open Cert.Stem.Mask

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- From memories that agree on the seven argument arrays, the two programs leave the same block at a grid point. -/
theorem outs_eq
    (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (c : Dev Cert.KernelIdeal.nD) (tK : Fin Cert.KernelIdeal.cfg0.N) (tR : Fin Cert.ReferenceIdeal.cfg0.N) (ht : tK.val = tR.val) :
    (Cert.KernelIdeal.Gen.outsAt0 m c tK : Cert.KernelIdeal.S1x16x12544.Idx → EReal) = Cert.ReferenceIdeal.Hand.outsAt0 m' c tR := by
  obtain ⟨h0, h1, h2, h3, h4, h5, h6⟩ := hag c
  -- the mask block: one host-built array in both programs
  have hmask : (Cert.KernelIdeal.Gen.iblk m c 0 tK : Cert.KernelIdeal.S2x12544.Idx → EReal) = Cert.ReferenceIdeal.Hand.iblk m' c 0 tR := by
    rw [Cert.KernelIdeal.ValueK.iblk0_eq m c tK, maskK m c]
    unfold Cert.ReferenceIdeal.Hand.iblk
    rw [Cert.ReferenceIdeal.ValueR.read0 tR _]
    exact (maskR m' c).symm
  -- the five parameter blocks: the argument arrays, which agree
  have hb1 : (Cert.KernelIdeal.Gen.iblk m c 3 tK : Cert.KernelIdeal.S32x1.Idx → EReal) = Cert.ReferenceIdeal.Hand.iblk m' c 3 tR := by
    rw [Cert.KernelIdeal.ValueK.iblk3_eq m c tK, Cert.KernelIdeal.Gen.V_main_arg2 m c]
    unfold Cert.ReferenceIdeal.Hand.iblk
    rw [Cert.ReferenceIdeal.ValueR.read3 tR _, Cert.ReferenceIdeal.Hand.V_main_arg2 m' c]
    exact h2.symm
  have hwdw : (Cert.KernelIdeal.Gen.iblk m c 4 tK : Cert.KernelIdeal.S32x9.Idx → EReal) = Cert.ReferenceIdeal.Hand.iblk m' c 4 tR := by
    rw [Cert.KernelIdeal.ValueK.iblk4_eq m c tK, Cert.KernelIdeal.Gen.V_main_arg3 m c]
    unfold Cert.ReferenceIdeal.Hand.iblk
    rw [Cert.ReferenceIdeal.ValueR.read4 tR _, Cert.ReferenceIdeal.Hand.V_main_arg3 m' c]
    exact h3.symm
  have hbdw : (Cert.KernelIdeal.Gen.iblk m c 5 tK : Cert.KernelIdeal.S32x1.Idx → EReal) = Cert.ReferenceIdeal.Hand.iblk m' c 5 tR := by
    rw [Cert.KernelIdeal.ValueK.iblk5_eq m c tK, Cert.KernelIdeal.Gen.V_main_arg4 m c]
    unfold Cert.ReferenceIdeal.Hand.iblk
    rw [Cert.ReferenceIdeal.ValueR.read5 tR _, Cert.ReferenceIdeal.Hand.V_main_arg4 m' c]
    exact h4.symm
  have hw3 : (Cert.KernelIdeal.Gen.iblk m c 6 tK : Cert.KernelIdeal.S16x32.Idx → EReal) = Cert.ReferenceIdeal.Hand.iblk m' c 6 tR := by
    rw [Cert.KernelIdeal.ValueK.iblk6_eq m c tK, Cert.KernelIdeal.Gen.V_main_arg5 m c]
    unfold Cert.ReferenceIdeal.Hand.iblk
    rw [Cert.ReferenceIdeal.ValueR.read6 tR _, Cert.ReferenceIdeal.Hand.V_main_arg5 m' c]
    exact h5.symm
  have hb3 : (Cert.KernelIdeal.Gen.iblk m c 7 tK : Cert.KernelIdeal.S16x1.Idx → EReal) = Cert.ReferenceIdeal.Hand.iblk m' c 7 tR := by
    rw [Cert.KernelIdeal.ValueK.iblk7_eq m c tK, Cert.KernelIdeal.Gen.V_main_arg6 m c]
    unfold Cert.ReferenceIdeal.Hand.iblk
    rw [Cert.ReferenceIdeal.ValueR.read7 tR _, Cert.ReferenceIdeal.Hand.V_main_arg6 m' c]
    exact h6.symm
  -- the first convolution: the same 48-term sum, position by position
  have hconv : (Cert.KernelIdeal.ValueK.conv (F := Ideal)
        (View.ld (Val := Elt Ideal) (e' := .f32) (Cert.KernelIdeal.ValueK.bWg m c tK) (Rect.unit ![0, 0, 0] ![1, 32, 12] Cert.KernelIdeal.Gen.inb_S4x32x12_S1x32x12_0_0_0))
        (View.ld (Val := Elt Ideal) (e' := .f32) (Cert.KernelIdeal.ValueK.bWg m c tK) (Rect.unit ![1, 0, 0] ![1, 32, 12] Cert.KernelIdeal.Gen.inb_S4x32x12_S1x32x12_1_0_0))
        (View.ld (Val := Elt Ideal) (e' := .f32) (Cert.KernelIdeal.ValueK.bWg m c tK) (Rect.unit ![2, 0, 0] ![1, 32, 12] Cert.KernelIdeal.Gen.inb_S4x32x12_S1x32x12_2_0_0))
        (View.ld (Val := Elt Ideal) (e' := .f32) (Cert.KernelIdeal.ValueK.bWg m c tK) (Rect.unit ![3, 0, 0] ![1, 32, 12] Cert.KernelIdeal.Gen.inb_S4x32x12_S1x32x12_3_0_0))
        (View.ld (Val := Elt Ideal) (e' := .f32) (Cert.KernelIdeal.ValueK.bImg m c tK) (Rect.unit ![0, 0, 0] ![1, 12, 12544] Cert.KernelIdeal.Gen.inb_S1x12x12768_S1x12x12544_0_0_0))
        (View.ld (Val := Elt Ideal) (e' := .f32) (Cert.KernelIdeal.ValueK.bImg m c tK) (Rect.unit ![0, 0, 1] ![1, 12, 12544] Cert.KernelIdeal.Gen.inb_S1x12x12768_S1x12x12544_0_0_1))
        (View.ld (Val := Elt Ideal) (e' := .f32) (Cert.KernelIdeal.ValueK.bImg m c tK) (Rect.unit ![0, 0, 112] ![1, 12, 12544] Cert.KernelIdeal.Gen.inb_S1x12x12768_S1x12x12544_0_0_112))
        (View.ld (Val := Elt Ideal) (e' := .f32) (Cert.KernelIdeal.ValueK.bImg m c tK) (Rect.unit ![0, 0, 113] ![1, 12, 12544] Cert.KernelIdeal.Gen.inb_S1x12x12768_S1x12x12544_0_0_113))
        (View.ld (Val := Elt Ideal) (e' := .f32) (Cert.KernelIdeal.ValueK.bMask m c tK) (Rect.unit ![1, 0] ![1, 12544] Cert.KernelIdeal.Gen.inb_S2x12544_S1x12544_1_0)) : Cert.KernelIdeal.S32x12544.Idx → EReal)
      = Cert.ReferenceIdeal.ValueR.conv (F := Ideal) (Cert.ReferenceIdeal.ValueR.bW m' c tR) (Cert.ReferenceIdeal.ValueR.bPatch m' c tR) := by
    funext j
    obtain ⟨e, p, rfl⟩ : ∃ (e : Fin 32) (p : Fin 12544), j = ix2 e p := ⟨j 0, j 1, eq_ix2 j⟩
    rw [Cert.KernelIdeal.ValueK.conv_blocks m c tK e p, Cert.ReferenceIdeal.ValueR.conv_blocks m' c tR e p]
    have hw : Cert.ReferenceIdeal.ValueR.wArr m' c = Cert.KernelIdeal.ValueK.wArr m c := h1
    have hx : Cert.ReferenceIdeal.ValueR.xArr m' c = Cert.KernelIdeal.ValueK.xArr m c := h0
    rw [hw, hx, ht]
  rw [Cert.KernelIdeal.ValueK.outsAt_eq m c tK, Cert.ReferenceIdeal.ValueR.outsAt_eq m' c tR, tail_eq, clipb_eq]
  show Cert.ReferenceIdeal.ValueR.tail _ _ _ (Cert.ReferenceIdeal.ValueR.clipb (Cert.KernelIdeal.ValueK.conv (F := Ideal) _ _ _ _ _ _ _ _ _) _) _ _ _ = _
  rw [hmask, hwdw, hbdw, hw3, hb3, hb1]
  exact congrArg (fun Z => Cert.ReferenceIdeal.ValueR.tail _ _ _ (Cert.ReferenceIdeal.ValueR.clipb Z _) _ _ _) hconv

/-- So the two result arrays are one function. -/
theorem G_eq
    (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (c : Dev Cert.KernelIdeal.nD) :
    (Cert.KernelIdeal.ValueK.G m c : Cert.KernelIdeal.S64x16x12544.Idx → EReal) = Cert.ReferenceIdeal.ValueR.G m' c := by
  funext j
  unfold Cert.KernelIdeal.ValueK.G Cert.ReferenceIdeal.ValueR.G
  exact congrFun (outs_eq m m' hag c _ _ rfl) _

end Cert.Stem.Pair

end
-- ==== Proof.lean ====
/-
  The stem of a MobileNetV2: a 3×3 stride-2 convolution with bias and clip to [0, 6], a depthwise 3×3 convolution with
  bias and clip, and a 1×1 reduction with bias, one image per grid point. Kernel and reference run the same depthwise
  and reduction stages on the same scratch layout; they differ in the first convolution. The reference lets the host
  lay out, per output position, the full 4×4 patch of the zero-padded image (48 entries) and multiplies once by the
  [32, 48] weight matrix. The kernel lets the host do only the 2×2 re-tiling (12 entries per position, with zero rows
  below the image), regroups the weights into four [32, 12] groups, one per patch quadrant, and reaches the quadrants
  as flat lane shifts 0, 1, 112 and 113 of the re-tiled image; a shift by one lane runs off the end of an image row on
  the row's last position, and there the kernel multiplies the two shifted groups by a lane mask that is zero, while
  the reference reads the zero column of its padding. Over the extended reals x · 0 = 0 for every x and sums reorder
  freely, so the two first convolutions are the same 48-term sum at every position; everything after it is one and
  the same composition of operations of equal inputs. No finiteness of the inputs is used.

  Frames: the kernel's two programs have generated frames; the reference's is proved in RefRuns / RefRunA / RefFrame.
  The ideal pass rewrote nothing, so the preservation claim is trivial.
-/
import proofs.«150594_g2000309665041701_pallasbulk_1097_2_alg».proof.Defs
import proofs.«150594_g2000309665041701_pallasbulk_1097_2_alg».proof.Proof.Gen.Kernel.Frame
import proofs.«150594_g2000309665041701_pallasbulk_1097_2_alg».proof.Proof.Gen.KernelIdeal.Frame
import proofs.«150594_g2000309665041701_pallasbulk_1097_2_alg».proof.Proof.Gen.Pre_finite_inputs
import proofs.«150594_g2000309665041701_pallasbulk_1097_2_alg».proof.Proof.RefFrame
import proofs.«150594_g2000309665041701_pallasbulk_1097_2_alg».proof.Proof.Pair
import Idealize.ShloMosaic.Adequacy
import Idealize.ShloMosaic.Init

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ => Cert.ReferenceIdeal.Hand.frame m ρ

theorem preserves : Cert.preserves_Kernel_KernelIdeal := trivial

/-- Both programs end with the result buffer at the reshape of one and the same [64, 16, 12544] array, and with their
    arguments as launched. -/
theorem algebraic : Cert.algebraic_KernelIdeal_ReferenceIdeal := by
  intro m ρ m' ρ' _ hagree
  refine ⟨fun c => (shapeCast Cert.KernelIdeal.S64x16x112x112 (Cert.KernelIdeal.ValueK.G m c)
      Cert.KernelIdeal.Gen.shapeCasts_S64x16x12544_S64x16x112x112 : Cert.KernelIdeal.S64x16x112x112.Idx → EReal),
    Cert.KernelIdeal.ValueK.run (F := Ideal) m ρ, ?_⟩
  refine (θ_run Cert.ReferenceIdeal.defs _ _).mono (fun r h c => ⟨(h c).1.trans ?_, (h c).2⟩)
    (Cert.ReferenceIdeal.ValueR.run (F := Ideal) m' ρ')
  rw [← Cert.Stem.Pair.G_eq m m' hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
